-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part5 {F : FTy → Type} [FloatOps F] (main_arg1 : IVec S2x800000 32) (main_v83 : IVec S_ 1) (main_v85 : IVec S800000 32) : IVec S_ 1 :=
  let main_c_32 : IVec S_ 32 := constantI S_ 32 4294917296#32
  let main_v86 : IVec S800000 32 := broadcastInDim S800000 ![] bcast_S_S800000 main_c_32
  let main_v87 : IVec S800000 1 := cmpi .sge main_v85 main_v86
  let main_v88 : IVec S1x800000 32 := (extractStridedSlice S1x800000 ![0, 0] · slices_S2x800000_S1x800000_0_0) main_arg1
  let main_v89 : IVec S800000 32 := shapeCast S800000 main_v88 shapeCasts_S1x800000_S800000
  let main_c_33 : IVec S_ 32 := constantI S_ 32 50000#32
  let main_v90 : IVec S800000 32 := broadcastInDim S800000 ![] bcast_S_S800000 main_c_33
  let main_v91 : IVec S800000 1 := cmpi .slt main_v89 main_v90
  let main_v92 : IVec S800000 1 := andi main_v87 main_v91
  let main_c_34 : IVec S_ 1 := constantI S_ 1 1#1
  let main_v93 : IVec S_ 1 := (fun x v => Host.reduce IntOp.andi x v reducesTo_S800000_S_d0 h_S_) main_v92 main_c_34
  let main_v94 : IVec S_ 1 := andi main_v83 main_v93
  main_v94

def fn_part4 {F : FTy → Type} [FloatOps F] (main_arg1 : IVec S2x800000 32) (main_arg15 : FVec F S256 .f32) (main_arg16 : FVec F S256 .f32) (main_arg17 : FVec F S256x128 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x128 .f32 := Host.absf main_arg17
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : IVec S1x800000 32 := (extractStridedSlice S1x800000 ![0, 0] · slices_S2x800000_S1x800000_0_0) main_arg1
  let main_v85 : IVec S800000 32 := shapeCast S800000 main_v84 shapeCasts_S1x800000_S800000
  fn_part5 (F := F) main_arg1 main_v83 main_v85

def fn_part3 {F : FTy → Type} [FloatOps F] (main_arg1 : IVec S2x800000 32) (main_arg12 : FVec F S256 .f32) (main_arg13 : FVec F S256x256 .f32) (main_arg14 : FVec F S256 .f32) (main_arg15 : FVec F S256 .f32) (main_arg16 : FVec F S256 .f32) (main_arg17 : FVec F S256x128 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg15 main_arg16 main_arg17 main_v63 main_v67

def fn_part2 {F : FTy → Type} [FloatOps F] (main_arg1 : IVec S2x800000 32) (main_arg8 : FVec F S256 .f32) (main_arg9 : FVec F S256 .f32) (main_arg10 : FVec F S256 .f32) (main_arg11 : FVec F S128x256 .f32) (main_arg12 : FVec F S256 .f32) (main_arg13 : FVec F S256x256 .f32) (main_arg14 : FVec F S256 .f32) (main_arg15 : FVec F S256 .f32) (main_arg16 : FVec F S256 .f32) (main_arg17 : FVec F S256x128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg1 main_arg12 main_arg13 main_arg14 main_arg15 main_arg16 main_arg17 main_v48 main_v49 main_v50

def fn_part1 {F : FTy → Type} [FloatOps F] (main_arg1 : IVec S2x800000 32) (main_arg5 : FVec F S128x128 .f32) (main_arg6 : FVec F S128 .f32) (main_arg7 : FVec F S128x256 .f32) (main_arg8 : FVec F S256 .f32) (main_arg9 : FVec F S256 .f32) (main_arg10 : FVec F S256 .f32) (main_arg11 : FVec F S128x256 .f32) (main_arg12 : FVec F S256 .f32) (main_arg13 : FVec F S256x256 .f32) (main_arg14 : FVec F S256 .f32) (main_arg15 : FVec F S256 .f32) (main_arg16 : FVec F S256 .f32) (main_arg17 : FVec F S256x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S800000x128 .f32) (main_arg3 : FVec F S128 .f32) (main_arg4 : FVec F S128 .f32) (main_arg5 : FVec F S128x128 .f32) (main_arg6 : FVec F S128 .f32) (main_arg7 : FVec F S128x256 .f32) (main_arg8 : FVec F S256 .f32) (main_arg9 : FVec F S256 .f32) (main_arg10 : FVec F S256 .f32) (main_arg11 : FVec F S128x256 .f32) (main_arg12 : FVec F S256 .f32) (main_arg13 : FVec F S256x256 .f32) (main_arg14 : FVec F S256 .f32) (main_arg15 : FVec F S256 .f32) (main_arg16 : FVec F S256 .f32) (main_arg17 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S1x128 : Shape := ⟨2, ![1, 128]⟩
abbrev S800000x1 : Shape := ⟨2, ![800000, 1]⟩
abbrev S1 : Shape := ⟨1, ![1]⟩
abbrev S1x1 : Shape := ⟨2, ![1, 1]⟩
abbrev S8000x128 : Shape := ⟨2, ![8000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S4000x256 : Shape := ⟨2, ![4000, 256]⟩
abbrev S4000x128 : Shape := ⟨2, ![4000, 128]⟩
abbrev S50000x640 : Shape := ⟨2, ![50000, 640]⟩

abbrev nBuf : Space → Nat
  | .hbm => 218
  | .vmem => 37
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S128, .f32⟩
  | 4 => ⟨S128, .f32⟩
  | 5 => ⟨S128x128, .f32⟩
  | 6 => ⟨S128, .f32⟩
  | 7 => ⟨S128x256, .f32⟩
  | 8 => ⟨S256, .f32⟩
  | 9 => ⟨S256, .f32⟩
  | 10 => ⟨S256, .f32⟩
  | 11 => ⟨S128x256, .f32⟩
  | 12 => ⟨S256, .f32⟩
  | 13 => ⟨S256x256, .f32⟩
  | 14 => ⟨S256, .f32⟩
  | 15 => ⟨S256, .f32⟩
  | 16 => ⟨S256, .f32⟩
  | 17 => ⟨S256x128, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S1, .i32⟩
  | 75 => ⟨S_, .i32⟩
  | 76 => ⟨S800000x1, .i32⟩
  | 77 => ⟨S800000x1, .i1⟩
  | 78 => ⟨S1x1, .i32⟩
  | 79 => ⟨S800000x1, .i32⟩
  | 80 => ⟨S800000x1, .i1⟩
  | 81 => ⟨S800000x1, .i1⟩
  | 82 => ⟨S_, .i1⟩
  | 83 => ⟨S800000, .i1⟩
  | 84 => ⟨S800000x128, .f32⟩
  | 85 => ⟨S800000x128, .i1⟩
  | 86 => ⟨S_, .f32⟩
  | 87 => ⟨S800000x128, .f32⟩
  | 88 => ⟨S800000x128, .f32⟩
  | 89 => ⟨S1x128, .f32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S1x256, .f32⟩
  | 96 => ⟨S50000x256, .f32⟩
  | 97 => ⟨S_, .f32⟩
  | 98 => ⟨S256, .f32⟩
  | 99 => ⟨S_, .f32⟩
  | 100 => ⟨S256, .f32⟩
  | 101 => ⟨S256, .f32⟩
  | 102 => ⟨S_, .i32⟩
  | 103 => ⟨S_, .f32⟩
  | 104 => ⟨S256, .f32⟩
  | 105 => ⟨S1x256, .f32⟩
  | 106 => ⟨S_, .f32⟩
  | 107 => ⟨S1x256, .f32⟩
  | 108 => ⟨S1x256, .f32⟩
  | 109 => ⟨S50000x256, .f32⟩
  | 110 => ⟨S50000x256, .f32⟩
  | 111 => ⟨S50000x256, .f32⟩
  | 112 => ⟨S_, .f32⟩
  | 113 => ⟨S_, .f32⟩
  | 114 => ⟨S_, .f32⟩
  | 115 => ⟨S_, .f32⟩
  | 116 => ⟨S256, .f32⟩
  | 117 => ⟨S256, .f32⟩
  | 118 => ⟨S256, .f32⟩
  | 119 => ⟨S_, .f32⟩
  | 120 => ⟨S_, .i1⟩
  | 121 => ⟨S_, .f32⟩
  | 122 => ⟨S_, .f32⟩
  | 123 => ⟨S256, .f32⟩
  | 124 => ⟨S256, .f32⟩
  | 125 => ⟨S1x256, .f32⟩
  | 126 => ⟨S50000x256, .f32⟩
  | 127 => ⟨S50000x256, .f32⟩
  | _ => ⟨S50000x128, .f32⟩

abbrev hbmTy0_1 (i : Nat) : BufTy := match i % 128 with
  | 0 => ⟨S1x256, .f32⟩
  | 1 => ⟨S50000x256, .f32⟩
  | 2 => ⟨S50000x256, .f32⟩
  | 3 => ⟨S_, .f32⟩
  | 4 => ⟨S256, .f32⟩
  | 5 => ⟨S256, .f32⟩
  | 6 => ⟨S256, .f32⟩
  | 7 => ⟨S1x256, .f32⟩
  | 8 => ⟨S50000x256, .f32⟩
  | 9 => ⟨S50000x256, .f32⟩
  | 10 => ⟨S1x256, .f32⟩
  | 11 => ⟨S50000x256, .f32⟩
  | 12 => ⟨S50000x256, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S1, .i32⟩
  | 22 => ⟨S_, .i32⟩
  | 23 => ⟨S800000x1, .i32⟩
  | 24 => ⟨S800000x1, .i1⟩
  | 25 => ⟨S1x1, .i32⟩
  | 26 => ⟨S800000x1, .i32⟩
  | 27 => ⟨S800000x1, .i1⟩
  | 28 => ⟨S800000x1, .i1⟩
  | 29 => ⟨S_, .i1⟩
  | 30 => ⟨S800000, .i1⟩
  | 31 => ⟨S800000x256, .f32⟩
  | 32 => ⟨S800000x256, .i1⟩
  | 33 => ⟨S_, .f32⟩
  | 34 => ⟨S800000x256, .f32⟩
  | 35 => ⟨S800000x256, .f32⟩
  | 36 => ⟨S1x256, .f32⟩
  | 37 => ⟨S800000x256, .f32⟩
  | 38 => ⟨S_, .f32⟩
  | 39 => ⟨S50000x256, .f32⟩
  | 40 => ⟨S800000x1, .i32⟩
  | 41 => ⟨S50000x256, .f32⟩
  | 42 => ⟨S1x256, .f32⟩
  | 43 => ⟨S50000x256, .f32⟩
  | 44 => ⟨S_, .f32⟩
  | 45 => ⟨S256, .f32⟩
  | 46 => ⟨S_, .f32⟩
  | 47 => ⟨S256, .f32⟩
  | 48 => ⟨S256, .f32⟩
  | 49 => ⟨S_, .i32⟩
  | 50 => ⟨S_, .f32⟩
  | 51 => ⟨S256, .f32⟩
  | 52 => ⟨S1x256, .f32⟩
  | 53 => ⟨S_, .f32⟩
  | 54 => ⟨S1x256, .f32⟩
  | 55 => ⟨S1x256, .f32⟩
  | 56 => ⟨S50000x256, .f32⟩
  | 57 => ⟨S50000x256, .f32⟩
  | 58 => ⟨S50000x256, .f32⟩
  | 59 => ⟨S_, .f32⟩
  | 60 => ⟨S_, .f32⟩
  | 61 => ⟨S_, .f32⟩
  | 62 => ⟨S_, .f32⟩
  | 63 => ⟨S256, .f32⟩
  | 64 => ⟨S256, .f32⟩
  | 65 => ⟨S256, .f32⟩
  | 66 => ⟨S_, .f32⟩
  | 67 => ⟨S_, .i1⟩
  | 68 => ⟨S_, .f32⟩
  | 69 => ⟨S_, .f32⟩
  | 70 => ⟨S256, .f32⟩
  | 71 => ⟨S256, .f32⟩
  | 72 => ⟨S1x256, .f32⟩
  | 73 => ⟨S50000x256, .f32⟩
  | 74 => ⟨S50000x256, .f32⟩
  | 75 => ⟨S1x256, .f32⟩
  | 76 => ⟨S50000x256, .f32⟩
  | 77 => ⟨S50000x256, .f32⟩
  | 78 => ⟨S_, .f32⟩
  | 79 => ⟨S256, .f32⟩
  | 80 => ⟨S256, .f32⟩
  | 81 => ⟨S256, .f32⟩
  | 82 => ⟨S1x256, .f32⟩
  | 83 => ⟨S50000x256, .f32⟩
  | 84 => ⟨S50000x256, .f32⟩
  | 85 => ⟨S1x256, .f32⟩
  | 86 => ⟨S50000x256, .f32⟩
  | 87 => ⟨S50000x256, .f32⟩
  | 88 => ⟨S50000x128, .f32⟩
  | 89 => ⟨S50000x640, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S4000x256, .f32⟩
  | .local _ .vmem, ⟨17, _⟩ => ⟨S4000x256, .f32⟩
  | .local _ .vmem, ⟨18, _⟩ => ⟨S4000x128, .f32⟩
  | .local _ .vmem, ⟨19, _⟩ => ⟨S4000x128, .f32⟩
  | .local _ .vmem, ⟨20, _⟩ => ⟨S128x256, .f32⟩
  | .local _ .vmem, ⟨21, _⟩ => ⟨S1x256, .f32⟩
  | .local _ .vmem, ⟨22, _⟩ => ⟨S4000x256, .f32⟩
  | .local _ .vmem, ⟨23, _⟩ => ⟨S4000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S256x128, .f32⟩
  | .local _ .vmem, ⟨35, _⟩ => ⟨S2000x128, .f32⟩
  | .local _ .vmem, ⟨36, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst_1 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_cst_2 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_cst_3 : Ref sig .tc := ⟨.hbm, 97, rfl⟩
abbrev main_v31 : Ref sig .tc := ⟨.hbm, 98, rfl⟩
abbrev main_cst_4 : Ref sig .tc := ⟨.hbm, 99, rfl⟩
abbrev main_v32 : Ref sig .tc := ⟨.hbm, 100, rfl⟩
abbrev main_v33 : Ref sig .tc := ⟨.hbm, 101, rfl⟩
abbrev main_c_5 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_cst_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_cst_1 : Ref sig .tc := ⟨.hbm, 113, rfl⟩
abbrev main_call2_v8 : Ref sig .tc := ⟨.hbm, 114, rfl⟩
abbrev main_call2_cst_2 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_cst_3 : Ref sig .tc := ⟨.hbm, 119, rfl⟩
abbrev main_call2_v12 : Ref sig .tc := ⟨.hbm, 120, rfl⟩
abbrev main_call2_cst_4 : Ref sig .tc := ⟨.hbm, 121, rfl⟩
abbrev main_call2_call0_v0 : Ref sig .tc := ⟨.hbm, 122, rfl⟩
abbrev main_call2_call0_v1 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_cst_6 : Ref sig .tc := ⟨.hbm, 131, rfl⟩
abbrev main_v41 : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_call3_c : Ref sig .tc := ⟨.hbm, 141, rfl⟩
abbrev main_call3_v0 : Ref sig .tc := ⟨.hbm, 142, rfl⟩
abbrev main_call3_v1 : Ref sig .tc := ⟨.hbm, 143, rfl⟩
abbrev main_call3_c_0 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_c_1 : Ref sig .tc := ⟨.hbm, 149, rfl⟩
abbrev main_call3_c_2 : Ref sig .tc := ⟨.hbm, 150, rfl⟩
abbrev main_call3_v6 : Ref sig .tc := ⟨.hbm, 151, rfl⟩
abbrev main_call3_v7 : Ref sig .tc := ⟨.hbm, 152, rfl⟩
abbrev main_call3_v8 : Ref sig .tc := ⟨.hbm, 153, rfl⟩
abbrev main_call3_v9 : Ref sig .tc := ⟨.hbm, 154, rfl⟩
abbrev main_call3_v10 : Ref sig .tc := ⟨.hbm, 155, rfl⟩
abbrev main_call3_v11 : Ref sig .tc := ⟨.hbm, 156, rfl⟩
abbrev main_call3_c_3 : Ref sig .tc := ⟨.hbm, 157, rfl⟩
abbrev main_call3_v12 : Ref sig .tc := ⟨.hbm, 158, rfl⟩
abbrev main_call3_v13 : Ref sig .tc := ⟨.hbm, 159, rfl⟩
abbrev main_call3_v14 : Ref sig .tc := ⟨.hbm, 160, rfl⟩
abbrev main_call3_cst : Ref sig .tc := ⟨.hbm, 161, rfl⟩
abbrev main_call3_v15 : Ref sig .tc := ⟨.hbm, 162, rfl⟩
abbrev main_v50 : Ref sig .tc := ⟨.hbm, 163, rfl⟩
abbrev main_v51 : Ref sig .tc := ⟨.hbm, 164, rfl⟩
abbrev main_v52 : Ref sig .tc := ⟨.hbm, 165, rfl⟩
abbrev main_cst_7 : Ref sig .tc := ⟨.hbm, 166, rfl⟩
abbrev main_v53 : Ref sig .tc := ⟨.hbm, 167, rfl⟩
abbrev main_v54 : Ref sig .tc := ⟨.hbm, 168, rfl⟩
abbrev main_v55 : Ref sig .tc := ⟨.hbm, 169, rfl⟩
abbrev main_v56 : Ref sig .tc := ⟨.hbm, 170, rfl⟩
abbrev main_v57 : Ref sig .tc := ⟨.hbm, 171, rfl⟩
abbrev main_cst_8 : Ref sig .tc := ⟨.hbm, 172, rfl⟩
abbrev main_v58 : Ref sig .tc := ⟨.hbm, 173, rfl⟩
abbrev main_cst_9 : Ref sig .tc := ⟨.hbm, 174, rfl⟩
abbrev main_v59 : Ref sig .tc := ⟨.hbm, 175, rfl⟩
abbrev main_v60 : Ref sig .tc := ⟨.hbm, 176, rfl⟩
abbrev main_c_10 : Ref sig .tc := ⟨.hbm, 177, rfl⟩
abbrev main_call4_cst : Ref sig .tc := ⟨.hbm, 178, rfl⟩
abbrev main_call4_v0 : Ref sig .tc := ⟨.hbm, 179, rfl⟩
abbrev main_call4_v1 : Ref sig .tc := ⟨.hbm, 180, rfl⟩
abbrev main_call4_cst_0 : Ref sig .tc := ⟨.hbm, 181, rfl⟩
abbrev main_call4_v2 : Ref sig .tc := ⟨.hbm, 182, rfl⟩
abbrev main_call4_v3 : Ref sig .tc := ⟨.hbm, 183, rfl⟩
abbrev main_call4_v4 : Ref sig .tc := ⟨.hbm, 184, rfl⟩
abbrev main_call4_v5 : Ref sig .tc := ⟨.hbm, 185, rfl⟩
abbrev main_call4_v6 : Ref sig .tc := ⟨.hbm, 186, rfl⟩
abbrev main_call4_v7 : Ref sig .tc := ⟨.hbm, 187, rfl⟩
abbrev main_call4_cst_1 : Ref sig .tc := ⟨.hbm, 188, rfl⟩
abbrev main_call4_v8 : Ref sig .tc := ⟨.hbm, 189, rfl⟩
abbrev main_call4_cst_2 : Ref sig .tc := ⟨.hbm, 190, rfl⟩
abbrev main_call4_v9 : Ref sig .tc := ⟨.hbm, 191, rfl⟩
abbrev main_call4_v10 : Ref sig .tc := ⟨.hbm, 192, rfl⟩
abbrev main_call4_v11 : Ref sig .tc := ⟨.hbm, 193, rfl⟩
abbrev main_call4_cst_3 : Ref sig .tc := ⟨.hbm, 194, rfl⟩
abbrev main_call4_v12 : Ref sig .tc := ⟨.hbm, 195, rfl⟩
abbrev main_call4_cst_4 : Ref sig .tc := ⟨.hbm, 196, rfl⟩
abbrev main_call4_call0_v0 : Ref sig .tc := ⟨.hbm, 197, rfl⟩
abbrev main_call4_call0_v1 : Ref sig .tc := ⟨.hbm, 198, rfl⟩
abbrev main_v61 : Ref sig .tc := ⟨.hbm, 199, rfl⟩
abbrev main_v62 : Ref sig .tc := ⟨.hbm, 200, rfl⟩
abbrev main_v63 : Ref sig .tc := ⟨.hbm, 201, rfl⟩
abbrev main_v64 : Ref sig .tc := ⟨.hbm, 202, rfl⟩
abbrev main_v65 : Ref sig .tc := ⟨.hbm, 203, rfl⟩
abbrev main_v66 : Ref sig .tc := ⟨.hbm, 204, rfl⟩
abbrev main_v67 : Ref sig .tc := ⟨.hbm, 205, rfl⟩
abbrev main_cst_11 : Ref sig .tc := ⟨.hbm, 206, rfl⟩
abbrev main_v68 : Ref sig .tc := ⟨.hbm, 207, rfl⟩
abbrev main_v69 : Ref sig .tc := ⟨.hbm, 208, rfl⟩
abbrev main_v70 : Ref sig .tc := ⟨.hbm, 209, rfl⟩
abbrev main_v71 : Ref sig .tc := ⟨.hbm, 210, rfl⟩
abbrev main_v72 : Ref sig .tc := ⟨.hbm, 211, rfl⟩
abbrev main_v73 : Ref sig .tc := ⟨.hbm, 212, rfl⟩
abbrev main_v74 : Ref sig .tc := ⟨.hbm, 213, rfl⟩
abbrev main_v75 : Ref sig .tc := ⟨.hbm, 214, rfl⟩
abbrev main_v76 : Ref sig .tc := ⟨.hbm, 215, rfl⟩
abbrev main_v77 : Ref sig .tc := ⟨.hbm, 216, rfl⟩
abbrev main_v78 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reducesTo_S50000x256_S256_d0 : S50000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  bcast_S800000_S800000x256_0 : S800000.BroadcastsInDim S800000x256 (![0] : Fin 1 → Fin S800000x256.rank)
  bcast_S_S800000x256 : S_.BroadcastsInDim S800000x256 (![] : Fin 0 → Fin S800000x256.rank)
  inb_S4000x128_S4000x128_0_0 : ∀ a, (![0, 0] : Fin 2 → Nat) a + S4000x128.size a ≤ S4000x128.size a
  h_S4000x128 : 0 < S4000x128.numel
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  broadcasts_S1x256_S4000x256 : S1x256.Broadcasts S4000x256
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  concatenates_S50000x256_S50000x256_S50000x128_S50000x640_d1 : Shape.Concatenates [S50000x256, S50000x256, S50000x128] S50000x640 1
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  dot_S4000x128_S128x256_S4000x256_1_0_0_1_n_n_wf : DotDims.WF S4000x128 S128x256 S4000x256 [1] [0] [0] [1] [] []
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S800000x128.size a
  hwx0_4 : ∀ i : grid0.Coords, EltTy.bits .f32 = 32 ∨ (Rect.block (s := S800000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S800000x256.size a
  hwx2_0 : ∀ i : grid2.Coords, EltTy.bits .f32 = 32 ∨ (Rect.block (s := S800000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S800000x128.size a
  hwx2_1 : ∀ i : grid2.Coords, EltTy.bits .f32 = 32 ∨ (Rect.block (s := S800000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x256.size a ≤ S800000x256.size a
  hwx2_4 : ∀ i : grid2.Coords, EltTy.bits .f32 = 32 ∨ (Rect.block (s := S800000x256) S4000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v23) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S4000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v76) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg17) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S1x128 : Shape := ⟨2, ![1, 128]⟩
abbrev S800000x1 : Shape := ⟨2, ![800000, 1]⟩
abbrev S50000x256 : Shape := ⟨2, ![50000, 256]⟩
abbrev S1x256 : Shape := ⟨2, ![1, 256]⟩
abbrev S800000x256 : Shape := ⟨2, ![800000, 256]⟩
abbrev S50000x640 : Shape := ⟨2, ![50000, 640]⟩

abbrev nBuf : Space → Nat
  | .hbm => 211
  | .vmem => 0
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S128, .f32⟩
  | 4 => ⟨S128, .f32⟩
  | 5 => ⟨S128x128, .f32⟩
  | 6 => ⟨S128, .f32⟩
  | 7 => ⟨S128x256, .f32⟩
  | 8 => ⟨S256, .f32⟩
  | 9 => ⟨S256, .f32⟩
  | 10 => ⟨S256, .f32⟩
  | 11 => ⟨S128x256, .f32⟩
  | 12 => ⟨S256, .f32⟩
  | 13 => ⟨S256x256, .f32⟩
  | 14 => ⟨S256, .f32⟩
  | 15 => ⟨S256, .f32⟩
  | 16 => ⟨S256, .f32⟩
  | 17 => ⟨S256x128, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S800000x128, .f32⟩
  | 76 => ⟨S800000x128, .f32⟩
  | 77 => ⟨S1x128, .f32⟩
  | 78 => ⟨S800000x128, .f32⟩
  | 79 => ⟨S800000x128, .f32⟩
  | 80 => ⟨S_, .f32⟩
  | 81 => ⟨S800000x128, .f32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S50000x128, .f32⟩
  | 88 => ⟨S50000x256, .f32⟩
  | 89 => ⟨S1x256, .f32⟩
  | 90 => ⟨S50000x256, .f32⟩
  | 91 => ⟨S50000x256, .f32⟩
  | 92 => ⟨S50000x256, .f32⟩
  | 93 => ⟨S_, .f32⟩
  | 94 => ⟨S256, .f32⟩
  | 95 => ⟨S_, .f32⟩
  | 96 => ⟨S256, .f32⟩
  | 97 => ⟨S256, .f32⟩
  | 98 => ⟨S_, .i32⟩
  | 99 => ⟨S_, .f32⟩
  | 100 => ⟨S256, .f32⟩
  | 101 => ⟨S1x256, .f32⟩
  | 102 => ⟨S_, .f32⟩
  | 103 => ⟨S1x256, .f32⟩
  | 104 => ⟨S1x256, .f32⟩
  | 105 => ⟨S50000x256, .f32⟩
  | 106 => ⟨S50000x256, .f32⟩
  | 107 => ⟨S50000x256, .f32⟩
  | 108 => ⟨S_, .f32⟩
  | 109 => ⟨S_, .f32⟩
  | 110 => ⟨S_, .f32⟩
  | 111 => ⟨S_, .f32⟩
  | 112 => ⟨S256, .f32⟩
  | 113 => ⟨S256, .f32⟩
  | 114 => ⟨S256, .f32⟩
  | 115 => ⟨S_, .f32⟩
  | 116 => ⟨S_, .i1⟩
  | 117 => ⟨S_, .f32⟩
  | 118 => ⟨S_, .f32⟩
  | 119 => ⟨S256, .f32⟩
  | 120 => ⟨S256, .f32⟩
  | 121 => ⟨S1x256, .f32⟩
  | 122 => ⟨S50000x256, .f32⟩
  | 123 => ⟨S50000x256, .f32⟩
  | 124 => ⟨S1x256, .f32⟩
  | 125 => ⟨S50000x256, .f32⟩
  | 126 => ⟨S50000x256, .f32⟩
  | 127 => ⟨S_, .f32⟩
  | _ => ⟨S50000x128, .f32⟩

abbrev hbmTy0_1 (i : Nat) : BufTy := match i % 128 with
  | 0 => ⟨S256, .f32⟩
  | 1 => ⟨S256, .f32⟩
  | 2 => ⟨S256, .f32⟩
  | 3 => ⟨S1x256, .f32⟩
  | 4 => ⟨S50000x256, .f32⟩
  | 5 => ⟨S50000x256, .f32⟩
  | 6 => ⟨S1x256, .f32⟩
  | 7 => ⟨S50000x256, .f32⟩
  | 8 => ⟨S50000x256, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x256, .f32⟩
  | 18 => ⟨S800000x256, .f32⟩
  | 19 => ⟨S800000x256, .f32⟩
  | 20 => ⟨S1x256, .f32⟩
  | 21 => ⟨S800000x256, .f32⟩
  | 22 => ⟨S800000x256, .f32⟩
  | 23 => ⟨S_, .f32⟩
  | 24 => ⟨S800000x256, .f32⟩
  | 25 => ⟨S800000x256, .f32⟩
  | 26 => ⟨S_, .f32⟩
  | 27 => ⟨S50000x256, .f32⟩
  | 28 => ⟨S800000x1, .i32⟩
  | 29 => ⟨S50000x256, .f32⟩
  | 30 => ⟨S50000x256, .f32⟩
  | 31 => ⟨S50000x256, .f32⟩
  | 32 => ⟨S1x256, .f32⟩
  | 33 => ⟨S50000x256, .f32⟩
  | 34 => ⟨S50000x256, .f32⟩
  | 35 => ⟨S50000x256, .f32⟩
  | 36 => ⟨S_, .f32⟩
  | 37 => ⟨S256, .f32⟩
  | 38 => ⟨S_, .f32⟩
  | 39 => ⟨S256, .f32⟩
  | 40 => ⟨S256, .f32⟩
  | 41 => ⟨S_, .i32⟩
  | 42 => ⟨S_, .f32⟩
  | 43 => ⟨S256, .f32⟩
  | 44 => ⟨S1x256, .f32⟩
  | 45 => ⟨S_, .f32⟩
  | 46 => ⟨S1x256, .f32⟩
  | 47 => ⟨S1x256, .f32⟩
  | 48 => ⟨S50000x256, .f32⟩
  | 49 => ⟨S50000x256, .f32⟩
  | 50 => ⟨S50000x256, .f32⟩
  | 51 => ⟨S_, .f32⟩
  | 52 => ⟨S_, .f32⟩
  | 53 => ⟨S_, .f32⟩
  | 54 => ⟨S_, .f32⟩
  | 55 => ⟨S256, .f32⟩
  | 56 => ⟨S256, .f32⟩
  | 57 => ⟨S256, .f32⟩
  | 58 => ⟨S_, .f32⟩
  | 59 => ⟨S_, .i1⟩
  | 60 => ⟨S_, .f32⟩
  | 61 => ⟨S_, .f32⟩
  | 62 => ⟨S256, .f32⟩
  | 63 => ⟨S256, .f32⟩
  | 64 => ⟨S1x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S256, .f32⟩
  | 72 => ⟨S256, .f32⟩
  | 73 => ⟨S256, .f32⟩
  | 74 => ⟨S1x256, .f32⟩
  | 75 => ⟨S50000x256, .f32⟩
  | 76 => ⟨S50000x256, .f32⟩
  | 77 => ⟨S1x256, .f32⟩
  | 78 => ⟨S50000x256, .f32⟩
  | 79 => ⟨S50000x256, .f32⟩
  | 80 => ⟨S50000x128, .f32⟩
  | 81 => ⟨S50000x128, .f32⟩
  | 82 => ⟨S50000x640, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst_1 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_c_2 : Ref sig .tc := ⟨.hbm, 66, rfl⟩
abbrev main_v23 : Ref sig .tc := ⟨.hbm, 67, rfl⟩
abbrev main_v24 : Ref sig .tc := ⟨.hbm, 68, rfl⟩
abbrev main_c_3 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_call1_cst : Ref sig .tc := ⟨.hbm, 80, rfl⟩
abbrev main_call1_v0 : Ref sig .tc := ⟨.hbm, 81, rfl⟩
abbrev main_v35 : Ref sig .tc := ⟨.hbm, 82, rfl⟩
abbrev main_cst_4 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_5 : Ref sig .tc := ⟨.hbm, 93, rfl⟩
abbrev main_v45 : Ref sig .tc := ⟨.hbm, 94, rfl⟩
abbrev main_cst_6 : Ref sig .tc := ⟨.hbm, 95, rfl⟩
abbrev main_v46 : Ref sig .tc := ⟨.hbm, 96, rfl⟩
abbrev main_v47 : Ref sig .tc := ⟨.hbm, 97, rfl⟩
abbrev main_c_7 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_cst_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_cst_1 : Ref sig .tc := ⟨.hbm, 109, rfl⟩
abbrev main_call2_v8 : Ref sig .tc := ⟨.hbm, 110, rfl⟩
abbrev main_call2_cst_2 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_cst_3 : Ref sig .tc := ⟨.hbm, 115, rfl⟩
abbrev main_call2_v12 : Ref sig .tc := ⟨.hbm, 116, rfl⟩
abbrev main_call2_cst_4 : Ref sig .tc := ⟨.hbm, 117, rfl⟩
abbrev main_call2_call0_v0 : Ref sig .tc := ⟨.hbm, 118, rfl⟩
abbrev main_call2_call0_v1 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_cst_8 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_c_9 : Ref sig .tc := ⟨.hbm, 137, rfl⟩
abbrev main_v64 : Ref sig .tc := ⟨.hbm, 138, rfl⟩
abbrev main_v65 : Ref sig .tc := ⟨.hbm, 139, rfl⟩
abbrev main_c_10 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_call3_cst : Ref sig .tc := ⟨.hbm, 151, rfl⟩
abbrev main_call3_v0 : Ref sig .tc := ⟨.hbm, 152, rfl⟩
abbrev main_v76 : Ref sig .tc := ⟨.hbm, 153, rfl⟩
abbrev main_cst_11 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_cst_12 : Ref sig .tc := ⟨.hbm, 164, rfl⟩
abbrev main_v86 : Ref sig .tc := ⟨.hbm, 165, rfl⟩
abbrev main_cst_13 : Ref sig .tc := ⟨.hbm, 166, rfl⟩
abbrev main_v87 : Ref sig .tc := ⟨.hbm, 167, rfl⟩
abbrev main_v88 : Ref sig .tc := ⟨.hbm, 168, rfl⟩
abbrev main_c_14 : Ref sig .tc := ⟨.hbm, 169, rfl⟩
abbrev main_call4_cst : Ref sig .tc := ⟨.hbm, 170, rfl⟩
abbrev main_call4_v0 : Ref sig .tc := ⟨.hbm, 171, rfl⟩
abbrev main_call4_v1 : Ref sig .tc := ⟨.hbm, 172, rfl⟩
abbrev main_call4_cst_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_v6 : Ref sig .tc := ⟨.hbm, 178, rfl⟩
abbrev main_call4_v7 : Ref sig .tc := ⟨.hbm, 179, rfl⟩
abbrev main_call4_cst_1 : Ref sig .tc := ⟨.hbm, 180, rfl⟩
abbrev main_call4_v8 : Ref sig .tc := ⟨.hbm, 181, rfl⟩
abbrev main_call4_cst_2 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_cst_3 : Ref sig .tc := ⟨.hbm, 186, rfl⟩
abbrev main_call4_v12 : Ref sig .tc := ⟨.hbm, 187, rfl⟩
abbrev main_call4_cst_4 : Ref sig .tc := ⟨.hbm, 188, rfl⟩
abbrev main_call4_call0_v0 : Ref sig .tc := ⟨.hbm, 189, rfl⟩
abbrev main_call4_call0_v1 : Ref sig .tc := ⟨.hbm, 190, rfl⟩
abbrev main_v89 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_cst_15 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  bcast_S_S256 : S_.BroadcastsInDim S256 (![] : Fin 0 → Fin S256.rank)
  bcast_S_S1x256 : S_.BroadcastsInDim S1x256 (![] : Fin 0 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  concatenates_S50000x256_S50000x256_S50000x128_S50000x640_d1 : Shape.Concatenates [S50000x256, S50000x256, S50000x128] S50000x640 1
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  dot_S800000x128_S128x256_S800000x256_1_0_0_1_n_n_wf : DotDims.WF S800000x128 S128x256 S800000x256 [1] [0] [0] [1] [] []
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.K.R0.lean ====
/-
  Region 0 of the idealized kernel's @main, the first edge-message call: per grid point t (100 points) the body
  loads rows 8000·t … 8000·t+7999 of the gathered node features and of the edge attributes, the whole 128×128 edge
  weight and the 1×128 bias row, and stores relu(h_src + edge_attr · We + bias) into the same rows of the message
  array. Stated at a parameter V, the buffer contents when the region is entered: each window's block at a point,
  what the one store leaves in the output's staging buffer, the body's triple, the pipeline's proof data and the
  body obligation at every point.
-/
import proofs.«419488_j13426067767699_1_alg».proof.Proof.Gen.Kernel.Launch
import proofs.«419488_j13426067767699_1_alg».proof.Proof.Gen.Kernel.Skeleton
import proofs.«419488_j13426067767699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched the block index has not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole staging buffer -/

abbrev r0_in0 : Rect S8000x128 := Rect.unit (s := S8000x128) ![0, 0] S8000x128.size inb_S8000x128_S8000x128_0_0
abbrev r0_in1 : Rect S8000x128 := Rect.unit (s := S8000x128) ![0, 0] S8000x128.size inb_S8000x128_S8000x128_0_0
abbrev r0_in2 : Rect S128x128 := Rect.unit (s := S128x128) ![0, 0] S128x128.size inb_S128x128_S128x128_0_0
abbrev r0_in3 : Rect S1x128 := Rect.unit (s := S1x128) ![0, 0] S1x128.size inb_S1x128_S1x128_0_0
abbrev r0_out : Rect S8000x128 := Rect.unit (s := S8000x128) ![0, 0] S8000x128.size inb_S8000x128_S8000x128_0_0

/-! ## What the body leaves in the output window's buffer -/

/-- The output block after the body, from the input blocks: its one store, of the body's arithmetic on the loaded
    blocks. -/
def out0_4 (x0 : Vec F S8000x128 .f32) (x1 : Vec F S8000x128 .f32) (x2 : Vec F S128x128 .f32) (x3 : Vec F S1x128 .f32) : Vec F S8000x128 .f32 :=
  View.canon [⟨r0_out, k0_pay1 (View.ld x1 r0_in1) (View.ld x2 r0_in2) (View.ld x0 r0_in0) (View.ld x3 r0_in3)⟩]

/-- The one store is the whole buffer, so it covers it. -/
theorem cover0_4 (p0 : Vec F S8000x128 .f32) (y : S8000x128.Idx) :
    ∃ pc ∈ ([⟨r0_out, p0⟩] : List (View.Piece (Elt F) S8000x128 .f32)), y ∈ pc.1.set :=
  View.cover_of_tiled [⟨r0_out, p0⟩] S8000x128.size (by rfl) y

/-! ## The body's triple -/

set_option maxHeartbeats 1000000 in
/-- The kernel body on whole staging memrefs, the inputs' at contents x0, x1, x2, x3 and the output's at anything, runs to
    the continuation holding the inputs' as they were and the output's at out0_4 of the inputs'. -/
theorem sound_kernel0 (c : Dev nD) (E : Set ℕ) (i : grid0.Coords)
    (arg1 : Memref sig .tc .vmem S8000x128 .f32) (harg1 : arg1.IsWhole) (arg2 : Memref sig .tc .vmem S8000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S8000x128 .f32) (harg5 : arg5.IsWhole)
    (x0 : Vec F S8000x128 .f32) (x1 : Vec F S8000x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__edge_message_kernel i arg1 harg1 arg2 harg2 arg3 harg3 arg4 harg4 arg5 harg5) K := by
  simp only [cc0__edge_message_kernel_eq_skeleton]; unfold cc0__edge_message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them; after the body at point t each
    input's buffer still at its block and the output's at out0_4 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.R1.lean ====
/-
  Region 1 of @main, the first node-update call: per grid point t (25 points) the body loads rows 2000·t …
  2000·t+1999 of the node features and of the aggregated messages, the whole 128×256 weight and the 1×256 bias row,
  and stores tanh((h + agg) · W + bias) into the same rows of the 256-wide result. Stated at a parameter V, the
  buffer contents when the region is entered: each window's block at a point, what the one store leaves in the
  output's staging buffer, the body's triple, the pipeline's proof data and the body obligation at every point.
-/
import proofs.«419488_j13426067767699_1_alg».proof.Proof.Gen.Kernel.Launch
import proofs.«419488_j13426067767699_1_alg».proof.Proof.Gen.Kernel.Skeleton
import proofs.«419488_j13426067767699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole staging buffer -/

abbrev r1_in0 : Rect S2000x128 := Rect.unit (s := S2000x128) ![0, 0] S2000x128.size inb_S2000x128_S2000x128_0_0
abbrev r1_in1 : Rect S2000x128 := Rect.unit (s := S2000x128) ![0, 0] S2000x128.size inb_S2000x128_S2000x128_0_0
abbrev r1_in2 : Rect S128x256 := Rect.unit (s := S128x256) ![0, 0] S128x256.size inb_S128x256_S128x256_0_0
abbrev r1_in3 : Rect S1x256 := Rect.unit (s := S1x256) ![0, 0] S1x256.size inb_S1x256_S1x256_0_0
abbrev r1_out : Rect S2000x256 := Rect.unit (s := S2000x256) ![0, 0] S2000x256.size inb_S2000x256_S2000x256_0_0

/-! ## What the body leaves in the output window's buffer -/

/-- The output block after the body, from the input blocks: its one store, of the body's arithmetic on the loaded
    blocks. -/
def out1_4 (x0 : Vec F S2000x128 .f32) (x1 : Vec F S2000x128 .f32) (x2 : Vec F S128x256 .f32) (x3 : Vec F S1x256 .f32) : Vec F S2000x256 .f32 :=
  View.canon [⟨r1_out, k1_pay1 (View.ld x0 r1_in0) (View.ld x1 r1_in1) (View.ld x2 r1_in2) (View.ld x3 r1_in3)⟩]

/-- The one store is the whole buffer, so it covers it. -/
theorem cover1_4 (p0 : Vec F S2000x256 .f32) (y : S2000x256.Idx) :
    ∃ pc ∈ ([⟨r1_out, p0⟩] : List (View.Piece (Elt F) S2000x256 .f32)), y ∈ pc.1.set :=
  View.cover_of_tiled [⟨r1_out, p0⟩] S2000x256.size (by rfl) y

/-! ## The body's triple -/

set_option maxHeartbeats 1000000 in
/-- The kernel body on whole staging memrefs, the inputs' at contents x0, x1, x2, x3 and the output's at anything, runs to
    the continuation holding the inputs' as they were and the output's at out1_4 of the inputs'. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole)
    (x0 : Vec F S2000x128 .f32) (x1 : Vec F S2000x128 .f32) (x2 : Vec F S128x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__node_update_kernel i arg1 harg1 arg2 harg2 arg3 harg3 arg4 harg4 arg5 harg5) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core c: the arrays as the region finds them; after the body at point t each
    input's buffer still at its block and the output's at out1_4 of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.K.R2.lean ====
/-
  Region 2 of @main, the second edge-message call: per grid point t (200 points) the body loads rows 4000·t …
  4000·t+3999 of the gathered 256-wide node features and of the 128-wide edge attributes, the whole 128×256 edge
  weight and the 1×256 bias row, and stores relu(h_src + edge_attr · We + bias) into the same rows of the message
  array. Stated at a parameter V, the buffer contents when the region is entered: each window's block at a point,
  what the one store leaves in the output's staging buffer, the body's triple, the pipeline's proof data and the
  body obligation at every point.
-/
import proofs.«419488_j13426067767699_1_alg».proof.Proof.Gen.Kernel.Launch
import proofs.«419488_j13426067767699_1_alg».proof.Proof.Gen.Kernel.Skeleton
import proofs.«419488_j13426067767699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched the block index has not moved), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole staging buffer -/

abbrev r2_in0 : Rect S4000x256 := Rect.unit (s := S4000x256) ![0, 0] S4000x256.size inb_S4000x256_S4000x256_0_0
abbrev r2_in1 : Rect S4000x128 := Rect.unit (s := S4000x128) ![0, 0] S4000x128.size inb_S4000x128_S4000x128_0_0
abbrev r2_in2 : Rect S128x256 := Rect.unit (s := S128x256) ![0, 0] S128x256.size inb_S128x256_S128x256_0_0
abbrev r2_in3 : Rect S1x256 := Rect.unit (s := S1x256) ![0, 0] S1x256.size inb_S1x256_S1x256_0_0
abbrev r2_out : Rect S4000x256 := Rect.unit (s := S4000x256) ![0, 0] S4000x256.size inb_S4000x256_S4000x256_0_0

/-! ## What the body leaves in the output window's buffer -/

/-- The output block after the body, from the input blocks: its one store, of the body's arithmetic on the loaded
    blocks. -/
def out2_4 (x0 : Vec F S4000x256 .f32) (x1 : Vec F S4000x128 .f32) (x2 : Vec F S128x256 .f32) (x3 : Vec F S1x256 .f32) : Vec F S4000x256 .f32 :=
  View.canon [⟨r2_out, k2_pay1 (View.ld x1 r2_in1) (View.ld x2 r2_in2) (View.ld x0 r2_in0) (View.ld x3 r2_in3)⟩]

/-- The one store is the whole buffer, so it covers it. -/
theorem cover2_4 (p0 : Vec F S4000x256 .f32) (y : S4000x256.Idx) :
    ∃ pc ∈ ([⟨r2_out, p0⟩] : List (View.Piece (Elt F) S4000x256 .f32)), y ∈ pc.1.set :=
  View.cover_of_tiled [⟨r2_out, p0⟩] S4000x256.size (by rfl) y

/-! ## The body's triple -/

set_option maxHeartbeats 1000000 in
/-- The kernel body on whole staging memrefs, the inputs' at contents x0, x1, x2, x3 and the output's at anything, runs to
    the continuation holding the inputs' as they were and the output's at out2_4 of the inputs'. -/
theorem sound_kernel2 (c : Dev nD) (E : Set ℕ) (i : grid2.Coords)
    (arg1 : Memref sig .tc .vmem S4000x256 .f32) (harg1 : arg1.IsWhole) (arg2 : Memref sig .tc .vmem S4000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S4000x256 .f32) (harg5 : arg5.IsWhole)
    (x0 : Vec F S4000x256 .f32) (x1 : Vec F S4000x128 .f32) (x2 : Vec F S128x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__edge_message_kernel i arg1 harg1 arg2 harg2 arg3 harg3 arg4 harg4 arg5 harg5) K := by
  simp only [cc2__edge_message_kernel_eq_skeleton]; unfold cc2__edge_message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core c: the arrays as the region finds them; after the body at point t each
    input's buffer still at its block and the output's at out2_4 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.K.R3.lean ====
/-
  Region 3 of @main, the second node-update call: per grid point t (25 points) the body loads rows 2000·t …
  2000·t+1999 of the 256-wide node features and of the aggregated messages, the whole 256×256 weight and the 1×256
  bias row, and stores tanh((h + agg) · W + bias) into the same rows of the result. Stated at a parameter V, the
  buffer contents when the region is entered: each window's block at a point, what the one store leaves in the
  output's staging buffer, the body's triple, the pipeline's proof data and the body obligation at every point.
-/
import proofs.«419488_j13426067767699_1_alg».proof.Proof.Gen.Kernel.Launch
import proofs.«419488_j13426067767699_1_alg».proof.Proof.Gen.Kernel.Skeleton
import proofs.«419488_j13426067767699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (where it is not
    fetched the block index has not moved), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take a whole staging buffer -/

abbrev r3_in0 : Rect S2000x256 := Rect.unit (s := S2000x256) ![0, 0] S2000x256.size inb_S2000x256_S2000x256_0_0
abbrev r3_in1 : Rect S2000x256 := Rect.unit (s := S2000x256) ![0, 0] S2000x256.size inb_S2000x256_S2000x256_0_0
abbrev r3_in2 : Rect S256x256 := Rect.unit (s := S256x256) ![0, 0] S256x256.size inb_S256x256_S256x256_0_0
abbrev r3_in3 : Rect S1x256 := Rect.unit (s := S1x256) ![0, 0] S1x256.size inb_S1x256_S1x256_0_0
abbrev r3_out : Rect S2000x256 := Rect.unit (s := S2000x256) ![0, 0] S2000x256.size inb_S2000x256_S2000x256_0_0

/-! ## What the body leaves in the output window's buffer -/

/-- The output block after the body, from the input blocks: its one store, of the body's arithmetic on the loaded
    blocks. -/
def out3_4 (x0 : Vec F S2000x256 .f32) (x1 : Vec F S2000x256 .f32) (x2 : Vec F S256x256 .f32) (x3 : Vec F S1x256 .f32) : Vec F S2000x256 .f32 :=
  View.canon [⟨r3_out, k3_pay1 (View.ld x0 r3_in0) (View.ld x1 r3_in1) (View.ld x2 r3_in2) (View.ld x3 r3_in3)⟩]

/-- The one store is the whole buffer, so it covers it. -/
theorem cover3_4 (p0 : Vec F S2000x256 .f32) (y : S2000x256.Idx) :
    ∃ pc ∈ ([⟨r3_out, p0⟩] : List (View.Piece (Elt F) S2000x256 .f32)), y ∈ pc.1.set :=
  View.cover_of_tiled [⟨r3_out, p0⟩] S2000x256.size (by rfl) y

/-! ## The body's triple -/

set_option maxHeartbeats 1000000 in
/-- The kernel body on whole staging memrefs, the inputs' at contents x0, x1, x2, x3 and the output's at anything, runs to
    the continuation holding the inputs' as they were and the output's at out3_4 of the inputs'. -/
theorem sound_kernel3 (c : Dev nD) (E : Set ℕ) (i : grid3.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole)
    (x0 : Vec F S2000x256 .f32) (x1 : Vec F S2000x256 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__node_update_kernel i arg1 harg1 arg2 harg2 arg3 harg3 arg4 harg4 arg5 harg5) K := by
  simp only [cc3__node_update_kernel_eq_skeleton]; unfold cc3__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core c: the arrays as the region finds them; after the body at point t each
    input's buffer still at its block and the output's at out3_4 of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.K.R4.lean ====
/-
  Region 4 of @main, the final projection: per grid point t (25 points) the body loads rows 2000·t … 2000·t+1999
  of the 256-wide node features and the whole 256×128 weight, and stores tanh(h · W) into the same rows of the
  128-wide result. Stated at a parameter V, the buffer contents when the region is entered: each window's block at a
  point, what the one store leaves in the output's staging buffer, the body's triple, the pipeline's proof data and
  the body obligation at every point.
-/
import proofs.«419488_j13426067767699_1_alg».proof.Proof.Gen.Kernel.Launch
import proofs.«419488_j13426067767699_1_alg».proof.Proof.Gen.Kernel.Skeleton
import proofs.«419488_j13426067767699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (where it is not
    fetched the block index has not moved), for any proof data over these arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store take a whole staging buffer -/

abbrev r4_in0 : Rect S2000x256 := Rect.unit (s := S2000x256) ![0, 0] S2000x256.size inb_S2000x256_S2000x256_0_0
abbrev r4_in1 : Rect S256x128 := Rect.unit (s := S256x128) ![0, 0] S256x128.size inb_S256x128_S256x128_0_0
abbrev r4_out : Rect S2000x128 := Rect.unit (s := S2000x128) ![0, 0] S2000x128.size inb_S2000x128_S2000x128_0_0

/-! ## What the body leaves in the output window's buffer -/

/-- The output block after the body, from the input blocks: its one store, of the body's arithmetic on the loaded
    blocks. -/
def out4_2 (x0 : Vec F S2000x256 .f32) (x1 : Vec F S256x128 .f32) : Vec F S2000x128 .f32 :=
  View.canon [⟨r4_out, k4_pay1 (View.ld x0 r4_in0) (View.ld x1 r4_in1)⟩]

/-- The one store is the whole buffer, so it covers it. -/
theorem cover4_2 (p0 : Vec F S2000x128 .f32) (y : S2000x128.Idx) :
    ∃ pc ∈ ([⟨r4_out, p0⟩] : List (View.Piece (Elt F) S2000x128 .f32)), y ∈ pc.1.set :=
  View.cover_of_tiled [⟨r4_out, p0⟩] S2000x128.size (by rfl) y

/-! ## The body's triple -/

set_option maxHeartbeats 1000000 in
/-- The kernel body on whole staging memrefs, the inputs' at contents x0, x1 and the output's at anything, runs to
    the continuation holding the inputs' as they were and the output's at out4_2 of the inputs'. -/
theorem sound_kernel4 (c : Dev nD) (E : Set ℕ) (i : grid4.Coords)
    (arg1 : Memref sig .tc .vmem S2000x256 .f32) (harg1 : arg1.IsWhole) (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__final_fc_kernel i arg1 harg1 arg2 harg2 arg3 harg3) K := by
  simp only [cc4__final_fc_kernel_eq_skeleton]; unfold cc4__final_fc_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core c: the arrays as the region finds them; after the body at point t each
    input's buffer still at its block and the output's at out4_2 of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.K.Run.lean ====
/-
  The run of @main: what every buffer holds when the program ends. Between two items of @main (a stretch of host
  operations, or one of the five tiled regions) every unscoped buffer is held at contents named item by item: a host
  stretch applies its operations, a region changes its one output array to what its grid of write-backs leaves and
  nothing else. Each region is entered with its windows' arrays split out of the held buffers and left with them put
  back; its body obligation is the region's own. Every weakly fair execution from any memory with zero counters
  terminates without a fault, and at the end every unscoped buffer holds the last of these contents; the argument
  arrays among them are what they were at launch.
-/
import proofs.«419488_j13426067767699_1_alg».proof.Proof.K.R0
import proofs.«419488_j13426067767699_1_alg».proof.Proof.K.R1
import proofs.«419488_j13426067767699_1_alg».proof.Proof.K.R2
import proofs.«419488_j13426067767699_1_alg».proof.Proof.K.R3
import proofs.«419488_j13426067767699_1_alg».proof.Proof.K.R4
import proofs.«419488_j13426067767699_1_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave, region by region

Each region's output array after the region is its proof data's last write-back fold, over the contents the region
was entered at; those contents depend on the earlier regions' outputs only, so the five are defined in order, each
over the outputs defined so far. -/

/-- The contents region 0 is entered at, read at the TensorCore's references. -/
abbrev T5 : (c : Dev nD) → (b : Ref sig .tc) → Buf (Elt F) ((c : Thread nD τ).loc b) := fun c b => V5 m c b
/-- What region 0 leaves in its output array. -/
def o6 (c : Dev nD) : Buf (Elt F) ((c : Thread nD τ).loc main_v25) := (dat0 (T5 m) c).arrAt 4 cfg0.N
def outs6 : Outs (F := F) := fun n r c => match n with
  | 6 => Function.update (V5 m c) main_v25 (o6 m c) r
  | _ => V0 m c r
abbrev S7 : (c : Dev nD) → (b : Ref sig .tc) → Buf (Elt F) ((c : Thread nD τ).loc b) := fun c b => V7 m (outs6 m) c b
/-- What region 1 leaves in its output array. -/
def o8 (c : Dev nD) : Buf (Elt F) ((c : Thread nD τ).loc main_v30) := (dat1 (S7 m) c).arrAt 4 cfg1.N
def outs8 : Outs (F := F) := fun n r c => match n with
  | 6 => Function.update (V5 m c) main_v25 (o6 m c) r
  | 8 => Function.update (V7 m (outs6 m) c) main_v30 (o8 m c) r
  | _ => V0 m c r
abbrev S13 : (c : Dev nD) → (b : Ref sig .tc) → Buf (Elt F) ((c : Thread nD τ).loc b) := fun c b => V13 m (outs8 m) c b
/-- What region 2 leaves in its output array. -/
def o14 (c : Dev nD) : Buf (Elt F) ((c : Thread nD τ).loc main_v52) := (dat2 (S13 m) c).arrAt 4 cfg2.N
def outs14 : Outs (F := F) := fun n r c => match n with
  | 6 => Function.update (V5 m c) main_v25 (o6 m c) r
  | 8 => Function.update (V7 m (outs6 m) c) main_v30 (o8 m c) r
  | 14 => Function.update (V13 m (outs8 m) c) main_v52 (o14 m c) r
  | _ => V0 m c r
abbrev S15 : (c : Dev nD) → (b : Ref sig .tc) → Buf (Elt F) ((c : Thread nD τ).loc b) := fun c b => V15 m (outs14 m) c b
/-- What region 3 leaves in its output array. -/
def o16 (c : Dev nD) : Buf (Elt F) ((c : Thread nD τ).loc main_v57) := (dat3 (S15 m) c).arrAt 4 cfg3.N
def outs16 : Outs (F := F) := fun n r c => match n with
  | 6 => Function.update (V5 m c) main_v25 (o6 m c) r
  | 8 => Function.update (V7 m (outs6 m) c) main_v30 (o8 m c) r
  | 14 => Function.update (V13 m (outs8 m) c) main_v52 (o14 m c) r
  | 16 => Function.update (V15 m (outs14 m) c) main_v57 (o16 m c) r
  | _ => V0 m c r
abbrev S19 : (c : Dev nD) → (b : Ref sig .tc) → Buf (Elt F) ((c : Thread nD τ).loc b) := fun c b => V19 m (outs16 m) c b
/-- What region 4 leaves in its output array. -/
def o20 (c : Dev nD) : Buf (Elt F) ((c : Thread nD τ).loc main_v77) := (dat4 (S19 m) c).arrAt 2 cfg4.N
/-- What the five regions leave: the unknowns the item-by-item contents are written over, now named. -/
def outs : Outs (F := F) := fun n r c => match n with
  | 6 => Function.update (V5 m c) main_v25 (o6 m c) r
  | 8 => Function.update (V7 m (outs6 m) c) main_v30 (o8 m c) r
  | 14 => Function.update (V13 m (outs8 m) c) main_v52 (o14 m c) r
  | 16 => Function.update (V15 m (outs14 m) c) main_v57 (o16 m c) r
  | 20 => Function.update (V19 m (outs16 m) c) main_v77 (o20 m c) r
  | _ => V0 m c r

/-- The contents each later region is entered at, written over all five outputs. -/
abbrev T7 : (c : Dev nD) → (b : Ref sig .tc) → Buf (Elt F) ((c : Thread nD τ).loc b) := fun c b => V7 m (outs m) c b
abbrev T13 : (c : Dev nD) → (b : Ref sig .tc) → Buf (Elt F) ((c : Thread nD τ).loc b) := fun c b => V13 m (outs m) c b
abbrev T15 : (c : Dev nD) → (b : Ref sig .tc) → Buf (Elt F) ((c : Thread nD τ).loc b) := fun c b => V15 m (outs m) c b
abbrev T19 : (c : Dev nD) → (b : Ref sig .tc) → Buf (Elt F) ((c : Thread nD τ).loc b) := fun c b => V19 m (outs m) c b
/-- They are the contents each output was defined over: the earlier outputs are the same terms. -/
theorem S7_eq : S7 m = T7 m := rfl
theorem S13_eq : S13 m = T13 m := rfl
theorem S15_eq : S15 m = T15 m := rfl
theorem S19_eq : S19 m = T19 m := rfl

/-- Each region's named output is its proof data's last write-back fold over its entry contents. -/
theorem outs_6 (c : Dev nD) : outs m 6 main_v25 c = (dat0 (T5 m) c).arrAt 4 cfg0.N := by
  unfold outs; exact Function.update_self _ _ _
theorem outs_8 (c : Dev nD) : outs m 8 main_v30 c = (dat1 (T7 m) c).arrAt 4 cfg1.N := by
  unfold outs; exact (Function.update_self _ _ _).trans (congrArg (fun T => (dat1 T c).arrAt 4 cfg1.N) (S7_eq m))
theorem outs_14 (c : Dev nD) : outs m 14 main_v52 c = (dat2 (T13 m) c).arrAt 4 cfg2.N := by
  unfold outs; exact (Function.update_self _ _ _).trans (congrArg (fun T => (dat2 T c).arrAt 4 cfg2.N) (S13_eq m))
theorem outs_16 (c : Dev nD) : outs m 16 main_v57 c = (dat3 (T15 m) c).arrAt 4 cfg3.N := by
  unfold outs; exact (Function.update_self _ _ _).trans (congrArg (fun T => (dat3 T c).arrAt 4 cfg3.N) (S15_eq m))
theorem outs_20 (c : Dev nD) : outs m 20 main_v77 c = (dat4 (T19 m) c).arrAt 2 cfg4.N := by
  unfold outs; exact (Function.update_self _ _ _).trans (congrArg (fun T => (dat4 T c).arrAt 2 cfg4.N) (S19_eq m))

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (T5 m) c
  | ⟨1, _⟩ => fun c => dat1 (T7 m) c
  | ⟨2, _⟩ => fun c => dat2 (T13 m) c
  | ⟨3, _⟩ => fun c => dat3 (T15 m) c
  | ⟨4, _⟩ => fun c => dat4 (T19 m) c

abbrev 𝒱₀' : Variants := Variants.none
abbrev L' : GSem nD τ sig → Finset Unit := fun _ => ∅
abbrev lv' : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev E' : Fin 6 → Dev nD → sProp 𝕄 := fun _ c => R c

/-! ## Region 0 -/

/-- At region 0's exit each of its arrays holds what the pipeline leaves: an input's array is never written, the
    output's is the named fold. -/
theorem hF0 (c : Dev nD) (w : Fin cfg0.W) : (dat0 (T5 m) c).arrAt w cfg0.N = V6 m (outs m) c (Pipeline.arrRef spec0 w) :=
  match w with
  | ⟨0, _⟩ => (((dat0 (T5 m) c).arrAt_in 0 rfl _).trans (A_eq0 (T5 m) c 0)).trans (V6_of m (outs m) c _ (by decide)).symm
  | ⟨1, _⟩ => (((dat0 (T5 m) c).arrAt_in 1 rfl _).trans (A_eq0 (T5 m) c 1)).trans (V6_of m (outs m) c _ (by decide)).symm
  | ⟨2, _⟩ => (((dat0 (T5 m) c).arrAt_in 2 rfl _).trans (A_eq0 (T5 m) c 2)).trans (V6_of m (outs m) c _ (by decide)).symm
  | ⟨3, _⟩ => (((dat0 (T5 m) c).arrAt_in 3 rfl _).trans (A_eq0 (T5 m) c 3)).trans (V6_of m (outs m) c _ (by decide)).symm
  | ⟨4, _⟩ => by
      have h : V6 m (outs m) c main_v25 = outs m 6 main_v25 c := Function.update_self _ _ _
      exact (h.trans (outs_6 m c)).symm
/-- Every other buffer holds at the exit what it held at the entry. -/
theorem hrest0 (c : Dev nD) : ∀ b, b ∉ Finset.univ.image (Pipeline.arrRef spec0) → V6 m (outs m) c b = V5 m c b :=
  fun b hb => V6_of m (outs m) c b fun h => hb (Finset.mem_image.mpr ⟨4, Finset.mem_univ _, by rw [List.mem_singleton.mp h]⟩)

set_option backward.isDefEq.respectTransparency.types false in
/-- Region 0 over the thread state: entered from every unscoped buffer at the contents before it, left at the
    contents after it. Its arrays are split out of the unscoped buffers and put back at the exit contents; the
    generator register goes into the pipeline's invariant and comes out; nothing is owed. -/
def reg0 : Pipeline.RegionSeg (pcfgs (F := F)) adm (pdats m) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (T5 m) c).loose
  hwaits := Pipeline.hwaits_of_owed_zero _ _ _ _ L' lv' 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (T5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T5 m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: an input's array is never written, the
    output's is the named fold. -/
theorem hF1 (c : Dev nD) (w : Fin cfg1.W) : (dat1 (T7 m) c).arrAt w cfg1.N = V8 m (outs m) c (Pipeline.arrRef spec1 w) :=
  match w with
  | ⟨0, _⟩ => (((dat1 (T7 m) c).arrAt_in 0 rfl _).trans (A_eq1 (T7 m) c 0)).trans (V8_of m (outs m) c _ (by decide)).symm
  | ⟨1, _⟩ => (((dat1 (T7 m) c).arrAt_in 1 rfl _).trans (A_eq1 (T7 m) c 1)).trans (V8_of m (outs m) c _ (by decide)).symm
  | ⟨2, _⟩ => (((dat1 (T7 m) c).arrAt_in 2 rfl _).trans (A_eq1 (T7 m) c 2)).trans (V8_of m (outs m) c _ (by decide)).symm
  | ⟨3, _⟩ => (((dat1 (T7 m) c).arrAt_in 3 rfl _).trans (A_eq1 (T7 m) c 3)).trans (V8_of m (outs m) c _ (by decide)).symm
  | ⟨4, _⟩ => by
      have h : V8 m (outs m) c main_v30 = outs m 8 main_v30 c := Function.update_self _ _ _
      exact (h.trans (outs_8 m c)).symm
/-- Every other buffer holds at the exit what it held at the entry. -/
theorem hrest1 (c : Dev nD) : ∀ b, b ∉ Finset.univ.image (Pipeline.arrRef spec1) → V8 m (outs m) c b = V7 m (outs m) c b :=
  fun b hb => V8_of m (outs m) c b fun h => hb (Finset.mem_image.mpr ⟨4, Finset.mem_univ _, by rw [List.mem_singleton.mp h]⟩)

set_option backward.isDefEq.respectTransparency.types false in
/-- Region 1 over the thread state: entered from every unscoped buffer at the contents before it, left at the
    contents after it. Its arrays are split out of the unscoped buffers and put back at the exit contents; the
    generator register goes into the pipeline's invariant and comes out; nothing is owed. -/
def reg1 : Pipeline.RegionSeg (pcfgs (F := F)) adm (pdats m) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (T7 m) c).loose
  hwaits := Pipeline.hwaits_of_owed_zero _ _ _ _ L' lv' 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (T7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T7 m c) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: an input's array is never written, the
    output's is the named fold. -/
theorem hF2 (c : Dev nD) (w : Fin cfg2.W) : (dat2 (T13 m) c).arrAt w cfg2.N = V14 m (outs m) c (Pipeline.arrRef spec2 w) :=
  match w with
  | ⟨0, _⟩ => (((dat2 (T13 m) c).arrAt_in 0 rfl _).trans (A_eq2 (T13 m) c 0)).trans (V14_of m (outs m) c _ (by decide)).symm
  | ⟨1, _⟩ => (((dat2 (T13 m) c).arrAt_in 1 rfl _).trans (A_eq2 (T13 m) c 1)).trans (V14_of m (outs m) c _ (by decide)).symm
  | ⟨2, _⟩ => (((dat2 (T13 m) c).arrAt_in 2 rfl _).trans (A_eq2 (T13 m) c 2)).trans (V14_of m (outs m) c _ (by decide)).symm
  | ⟨3, _⟩ => (((dat2 (T13 m) c).arrAt_in 3 rfl _).trans (A_eq2 (T13 m) c 3)).trans (V14_of m (outs m) c _ (by decide)).symm
  | ⟨4, _⟩ => by
      have h : V14 m (outs m) c main_v52 = outs m 14 main_v52 c := Function.update_self _ _ _
      exact (h.trans (outs_14 m c)).symm
/-- Every other buffer holds at the exit what it held at the entry. -/
theorem hrest2 (c : Dev nD) : ∀ b, b ∉ Finset.univ.image (Pipeline.arrRef spec2) → V14 m (outs m) c b = V13 m (outs m) c b :=
  fun b hb => V14_of m (outs m) c b fun h => hb (Finset.mem_image.mpr ⟨4, Finset.mem_univ _, by rw [List.mem_singleton.mp h]⟩)

set_option backward.isDefEq.respectTransparency.types false in
/-- Region 2 over the thread state: entered from every unscoped buffer at the contents before it, left at the
    contents after it. Its arrays are split out of the unscoped buffers and put back at the exit contents; the
    generator register goes into the pipeline's invariant and comes out; nothing is owed. -/
def reg2 : Pipeline.RegionSeg (pcfgs (F := F)) adm (pdats m) () defs₀ 𝒱₀' L' lv' 2 where
  win := launch2.win.to₀
  block_pos := launch2.block_pos
  stage_whole := launch2.stage_whole
  K := PEmpty
  osem k := k.elim
  ho := Pipeline.OwnSemFacts.none _
  hbody c := (body_obligation2 (T13 m) c).loose
  hwaits := Pipeline.hwaits_of_owed_zero _ _ _ _ L' lv' 2 fun _ _ => rfl
  pre c := iprop(StableHlo.held (c : Thread nD τ) (Pipeline.ucRefs τ sig) (V13 m (outs m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec2 c (T13 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T13 m c) (fun b => V14 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the pipeline leaves: an input's array is never written, the
    output's is the named fold. -/
theorem hF3 (c : Dev nD) (w : Fin cfg3.W) : (dat3 (T15 m) c).arrAt w cfg3.N = V16 m (outs m) c (Pipeline.arrRef spec3 w) :=
  match w with
  | ⟨0, _⟩ => (((dat3 (T15 m) c).arrAt_in 0 rfl _).trans (A_eq3 (T15 m) c 0)).trans (V16_of m (outs m) c _ (by decide)).symm
  | ⟨1, _⟩ => (((dat3 (T15 m) c).arrAt_in 1 rfl _).trans (A_eq3 (T15 m) c 1)).trans (V16_of m (outs m) c _ (by decide)).symm
  | ⟨2, _⟩ => (((dat3 (T15 m) c).arrAt_in 2 rfl _).trans (A_eq3 (T15 m) c 2)).trans (V16_of m (outs m) c _ (by decide)).symm
  | ⟨3, _⟩ => (((dat3 (T15 m) c).arrAt_in 3 rfl _).trans (A_eq3 (T15 m) c 3)).trans (V16_of m (outs m) c _ (by decide)).symm
  | ⟨4, _⟩ => by
      have h : V16 m (outs m) c main_v57 = outs m 16 main_v57 c := Function.update_self _ _ _
      exact (h.trans (outs_16 m c)).symm
/-- Every other buffer holds at the exit what it held at the entry. -/
theorem hrest3 (c : Dev nD) : ∀ b, b ∉ Finset.univ.image (Pipeline.arrRef spec3) → V16 m (outs m) c b = V15 m (outs m) c b :=
  fun b hb => V16_of m (outs m) c b fun h => hb (Finset.mem_image.mpr ⟨4, Finset.mem_univ _, by rw [List.mem_singleton.mp h]⟩)

set_option backward.isDefEq.respectTransparency.types false in
/-- Region 3 over the thread state: entered from every unscoped buffer at the contents before it, left at the
    contents after it. Its arrays are split out of the unscoped buffers and put back at the exit contents; the
    generator register goes into the pipeline's invariant and comes out; nothing is owed. -/
def reg3 : Pipeline.RegionSeg (pcfgs (F := F)) adm (pdats m) () defs₀ 𝒱₀' L' lv' 3 where
  win := launch3.win.to₀
  block_pos := launch3.block_pos
  stage_whole := launch3.stage_whole
  K := PEmpty
  osem k := k.elim
  ho := Pipeline.OwnSemFacts.none _
  hbody c := (body_obligation3 (T15 m) c).loose
  hwaits := Pipeline.hwaits_of_owed_zero _ _ _ _ L' lv' 3 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec3 c (T15 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T15 m c) (fun b => V16 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- At region 4's exit each of its arrays holds what the pipeline leaves: an input's array is never written, the
    output's is the named fold. -/
theorem hF4 (c : Dev nD) (w : Fin cfg4.W) : (dat4 (T19 m) c).arrAt w cfg4.N = V20 m (outs m) c (Pipeline.arrRef spec4 w) :=
  match w with
  | ⟨0, _⟩ => (((dat4 (T19 m) c).arrAt_in 0 rfl _).trans (A_eq4 (T19 m) c 0)).trans (V20_of m (outs m) c _ (by decide)).symm
  | ⟨1, _⟩ => (((dat4 (T19 m) c).arrAt_in 1 rfl _).trans (A_eq4 (T19 m) c 1)).trans (V20_of m (outs m) c _ (by decide)).symm
  | ⟨2, _⟩ => by
      have h : V20 m (outs m) c main_v77 = outs m 20 main_v77 c := Function.update_self _ _ _
      exact (h.trans (outs_20 m c)).symm
/-- Every other buffer holds at the exit what it held at the entry. -/
theorem hrest4 (c : Dev nD) : ∀ b, b ∉ Finset.univ.image (Pipeline.arrRef spec4) → V20 m (outs m) c b = V19 m (outs m) c b :=
  fun b hb => V20_of m (outs m) c b fun h => hb (Finset.mem_image.mpr ⟨2, Finset.mem_univ _, by rw [List.mem_singleton.mp h]⟩)

set_option backward.isDefEq.respectTransparency.types false in
/-- Region 4 over the thread state: entered from every unscoped buffer at the contents before it, left at the
    contents after it. Its arrays are split out of the unscoped buffers and put back at the exit contents; the
    generator register goes into the pipeline's invariant and comes out; nothing is owed. -/
def reg4 : Pipeline.RegionSeg (pcfgs (F := F)) adm (pdats m) () defs₀ 𝒱₀' L' lv' 4 where
  win := launch4.win.to₀
  block_pos := launch4.block_pos
  stage_whole := launch4.stage_whole
  K := PEmpty
  osem k := k.elim
  ho := Pipeline.OwnSemFacts.none _
  hbody c := (body_obligation4 (T19 m) c).loose
  hwaits := Pipeline.hwaits_of_owed_zero _ _ _ _ L' lv' 4 fun _ _ => rfl
  pre c := iprop(StableHlo.held (c : Thread nD τ) (Pipeline.ucRefs τ sig) (V19 m (outs m) c) ∗ R c)
  post c := iprop(StableHlo.held (c : Thread nD τ) (Pipeline.ucRefs τ sig) (V20 m (outs m) c) ∗ R c)
  X c := iprop(∃ r, prngReg c r)
  Y c := iprop(∃ r, prngReg c r)
  Z c := Pipeline.unscopedRest (Ix := Unit) (Name := ℕ) (U := UR sig nD τ) (Lvl := ℕ) spec4 c (T19 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T19 m c) (fun b => V20 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates without a fault, and at the
    end every unscoped buffer on every core holds the contents named after the last item. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V21 m (outs m) c b) := by
  refine Pipeline.θ_run_regions_kit_dev (pcfgs (F := F)) adm (pdats m) () cellOf_inj emb₁ defs₀ 𝒱₀' L' lv' m ρ main
    (segs m (outs m) 𝒱₀' L' lv' E' () (pdats m) (reg0 m) (reg1 m) (reg2 m) (reg3 m) (reg4 m))
    (fun c Q => by
      rewrite [main_chain c, Seg.run_eq_chain,
        show (segs m (outs m) 𝒱₀' L' lv' E' () (pdats m) (reg0 m) (reg1 m) (reg2 m) (reg3 m) (reg4 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E' 0 c))
    (Tₙ := fun c => StableHlo.held (c : Thread nD τ) (Pipeline.ucRefs τ sig) (V21 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L' lv' fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V21 m (outs m) c b)
    (hfin := fun c s' => by
      iintro ⟨Hh, HSI⟩
      unfold StableHlo.held
      imodintro
      iapply (pointsTo_read_all (Pipeline.ucRefs τ sig) (fun b => (((c : Thread nD τ)).1, b)) (V21 m (outs m) c) s')
      isplitl [Hh] <;> iassumption)
    (hQ := fun s h => h)

/-- The result buffer ends at the last contents' value of it, and every argument array ends as launched. -/
theorem run_res (ρ : Dev nD → PrngReg) :
    θ_run defs (onTc (τ := τ) (main (F := F))) ⟨m, fun _ => 0, ρ⟩ (fun r => ∀ c : Dev nD,
      r.2.mem ((c.tc : Thread nD τ).loc main_v78) = V21 m (outs m) c main_v78
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c (Proc.devRef .tc main_v78) (Finset.mem_filter.mpr ⟨StableHlo.devRef_mem_tcRefs main_v78, by decide⟩),
      (h c (Proc.devRef .tc main_arg0) (Finset.mem_filter.mpr ⟨StableHlo.devRef_mem_tcRefs main_arg0, by decide⟩)).trans (V21_main_arg0 m (outs m) c),
      (h c (Proc.devRef .tc main_arg1) (Finset.mem_filter.mpr ⟨StableHlo.devRef_mem_tcRefs main_arg1, by decide⟩)).trans (V21_main_arg1 m (outs m) c),
      (h c (Proc.devRef .tc main_arg2) (Finset.mem_filter.mpr ⟨StableHlo.devRef_mem_tcRefs main_arg2, by decide⟩)).trans (V21_main_arg2 m (outs m) c),
      (h c (Proc.devRef .tc main_arg3) (Finset.mem_filter.mpr ⟨StableHlo.devRef_mem_tcRefs main_arg3, by decide⟩)).trans (V21_main_arg3 m (outs m) c),
      (h c (Proc.devRef .tc main_arg4) (Finset.mem_filter.mpr ⟨StableHlo.devRef_mem_tcRefs main_arg4, by decide⟩)).trans (V21_main_arg4 m (outs m) c),
      (h c (Proc.devRef .tc main_arg5) (Finset.mem_filter.mpr ⟨StableHlo.devRef_mem_tcRefs main_arg5, by decide⟩)).trans (V21_main_arg5 m (outs m) c),
      (h c (Proc.devRef .tc main_arg6) (Finset.mem_filter.mpr ⟨StableHlo.devRef_mem_tcRefs main_arg6, by decide⟩)).trans (V21_main_arg6 m (outs m) c),
      (h c (Proc.devRef .tc main_arg7) (Finset.mem_filter.mpr ⟨StableHlo.devRef_mem_tcRefs main_arg7, by decide⟩)).trans (V21_main_arg7 m (outs m) c),
      (h c (Proc.devRef .tc main_arg8) (Finset.mem_filter.mpr ⟨StableHlo.devRef_mem_tcRefs main_arg8, by decide⟩)).trans (V21_main_arg8 m (outs m) c),
      (h c (Proc.devRef .tc main_arg9) (Finset.mem_filter.mpr ⟨StableHlo.devRef_mem_tcRefs main_arg9, by decide⟩)).trans (V21_main_arg9 m (outs m) c),
      (h c (Proc.devRef .tc main_arg10) (Finset.mem_filter.mpr ⟨StableHlo.devRef_mem_tcRefs main_arg10, by decide⟩)).trans (V21_main_arg10 m (outs m) c),
      (h c (Proc.devRef .tc main_arg11) (Finset.mem_filter.mpr ⟨StableHlo.devRef_mem_tcRefs main_arg11, by decide⟩)).trans (V21_main_arg11 m (outs m) c),
      (h c (Proc.devRef .tc main_arg12) (Finset.mem_filter.mpr ⟨StableHlo.devRef_mem_tcRefs main_arg12, by decide⟩)).trans (V21_main_arg12 m (outs m) c),
      (h c (Proc.devRef .tc main_arg13) (Finset.mem_filter.mpr ⟨StableHlo.devRef_mem_tcRefs main_arg13, by decide⟩)).trans (V21_main_arg13 m (outs m) c),
      (h c (Proc.devRef .tc main_arg14) (Finset.mem_filter.mpr ⟨StableHlo.devRef_mem_tcRefs main_arg14, by decide⟩)).trans (V21_main_arg14 m (outs m) c),
      (h c (Proc.devRef .tc main_arg15) (Finset.mem_filter.mpr ⟨StableHlo.devRef_mem_tcRefs main_arg15, by decide⟩)).trans (V21_main_arg15 m (outs m) c),
      (h c (Proc.devRef .tc main_arg16) (Finset.mem_filter.mpr ⟨StableHlo.devRef_mem_tcRefs main_arg16, by decide⟩)).trans (V21_main_arg16 m (outs m) c),
      (h c (Proc.devRef .tc main_arg17) (Finset.mem_filter.mpr ⟨StableHlo.devRef_mem_tcRefs main_arg17, by decide⟩)).trans (V21_main_arg17 m (outs m) c)⟩) (run_all m ρ)

/-- The frame: @main runs to the end without a fault and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => (h c).2) (run_res m ρ)

end Cert.Kernel.Frm

end
-- ==== Proof.KI.R0.lean ====
/-
  Region 0 of the idealized kernel's @main, the first edge-message call: per grid point t (100 points) the body
  loads rows 8000·t … 8000·t+7999 of the gathered node features and of the edge attributes, the whole 128×128 edge
  weight and the 1×128 bias row, and stores relu(h_src + edge_attr · We + bias) into the same rows of the message
  array. Stated at a parameter V, the buffer contents when the region is entered: each window's block at a point,
  what the one store leaves in the output's staging buffer, the body's triple, the pipeline's proof data and the
  body obligation at every point.
-/
import proofs.«419488_j13426067767699_1_alg».proof.Proof.Gen.KernelIdeal.Launch
import proofs.«419488_j13426067767699_1_alg».proof.Proof.Gen.KernelIdeal.Skeleton
import proofs.«419488_j13426067767699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched the block index has not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole staging buffer -/

abbrev r0_hs : Rect S8000x128 := Rect.unit (s := S8000x128) ![0, 0] S8000x128.size inb_S8000x128_S8000x128_0_0
abbrev r0_ea : Rect S8000x128 := Rect.unit (s := S8000x128) ![0, 0] S8000x128.size inb_S8000x128_S8000x128_0_0
abbrev r0_wt : Rect S128x128 := Rect.unit (s := S128x128) ![0, 0] S128x128.size inb_S128x128_S128x128_0_0
abbrev r0_bias : Rect S1x128 := Rect.unit (s := S1x128) ![0, 0] S1x128.size inb_S1x128_S1x128_0_0

/-! ## What the body leaves in the output window's buffer -/

/-- The message block after the body, from the four input blocks (gathered features, edge attributes, weight, bias
    row): its one store, of the body's arithmetic on the loaded blocks. -/
def out0_4 (x0 : Vec F S8000x128 .f32) (x1 : Vec F S8000x128 .f32) (x2 : Vec F S128x128 .f32) (x3 : Vec F S1x128 .f32) : Vec F S8000x128 .f32 :=
  View.canon [⟨r0_hs, k0_pay1 (View.ld x1 r0_ea) (View.ld x2 r0_wt) (View.ld x0 r0_hs) (View.ld x3 r0_bias)⟩]

/-- The one store is the whole buffer, so it covers it. -/
theorem cover0_4 (p0 : Vec F S8000x128 .f32) (y : S8000x128.Idx) :
    ∃ pc ∈ ([⟨r0_hs, p0⟩] : List (View.Piece (Elt F) S8000x128 .f32)), y ∈ pc.1.set :=
  View.cover_of_tiled [⟨r0_hs, p0⟩] S8000x128.size (by rfl) y

/-! ## The body's triple -/

set_option maxHeartbeats 1000000 in
/-- The kernel body on whole staging memrefs, the inputs' at contents x0 … x3 and the output's at anything, runs to the
    continuation holding the inputs' as they were and the output's at out0_4 of the inputs'. -/
theorem sound_kernel0 (c : Dev nD) (E : Set ℕ) (i : grid0.Coords)
    (arg1 : Memref sig .tc .vmem S8000x128 .f32) (harg1 : arg1.IsWhole) (arg2 : Memref sig .tc .vmem S8000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S8000x128 .f32) (harg5 : arg5.IsWhole)
    (x0 : Vec F S8000x128 .f32) (x1 : Vec F S8000x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__edge_message_kernel i arg1 harg1 arg2 harg2 arg3 harg3 arg4 harg4 arg5 harg5) K := by
  simp only [cc0__edge_message_kernel_eq_skeleton]; unfold cc0__edge_message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them; after the body at point t each
    input's buffer still at its block and the output's at out0_4 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.R1.lean ====
/-
  Region 1 of @main, the first node-update call: per grid point t (25 points) the body loads rows 2000·t …
  2000·t+1999 of the node features and of the aggregated messages, the whole 128×256 weight and the 1×256 bias row,
  and stores tanh((h + agg) · W + bias) into the same rows of the 256-wide result. Stated at a parameter V, the
  buffer contents when the region is entered: each window's block at a point, what the one store leaves in the
  output's staging buffer, the body's triple, the pipeline's proof data and the body obligation at every point.
-/
import proofs.«419488_j13426067767699_1_alg».proof.Proof.Gen.KernelIdeal.Launch
import proofs.«419488_j13426067767699_1_alg».proof.Proof.Gen.KernelIdeal.Skeleton
import proofs.«419488_j13426067767699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole staging buffer -/

abbrev r1_in0 : Rect S2000x128 := Rect.unit (s := S2000x128) ![0, 0] S2000x128.size inb_S2000x128_S2000x128_0_0
abbrev r1_in1 : Rect S2000x128 := Rect.unit (s := S2000x128) ![0, 0] S2000x128.size inb_S2000x128_S2000x128_0_0
abbrev r1_in2 : Rect S128x256 := Rect.unit (s := S128x256) ![0, 0] S128x256.size inb_S128x256_S128x256_0_0
abbrev r1_in3 : Rect S1x256 := Rect.unit (s := S1x256) ![0, 0] S1x256.size inb_S1x256_S1x256_0_0
abbrev r1_out : Rect S2000x256 := Rect.unit (s := S2000x256) ![0, 0] S2000x256.size inb_S2000x256_S2000x256_0_0

/-! ## What the body leaves in the output window's buffer -/

/-- The output block after the body, from the input blocks: its one store, of the body's arithmetic on the loaded
    blocks. -/
def out1_4 (x0 : Vec F S2000x128 .f32) (x1 : Vec F S2000x128 .f32) (x2 : Vec F S128x256 .f32) (x3 : Vec F S1x256 .f32) : Vec F S2000x256 .f32 :=
  View.canon [⟨r1_out, k1_pay1 (View.ld x0 r1_in0) (View.ld x1 r1_in1) (View.ld x2 r1_in2) (View.ld x3 r1_in3)⟩]

/-- The one store is the whole buffer, so it covers it. -/
theorem cover1_4 (p0 : Vec F S2000x256 .f32) (y : S2000x256.Idx) :
    ∃ pc ∈ ([⟨r1_out, p0⟩] : List (View.Piece (Elt F) S2000x256 .f32)), y ∈ pc.1.set :=
  View.cover_of_tiled [⟨r1_out, p0⟩] S2000x256.size (by rfl) y

/-! ## The body's triple -/

set_option maxHeartbeats 1000000 in
/-- The kernel body on whole staging memrefs, the inputs' at contents x0, x1, x2, x3 and the output's at anything, runs to
    the continuation holding the inputs' as they were and the output's at out1_4 of the inputs'. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S2000x256 .f32) (harg5 : arg5.IsWhole)
    (x0 : Vec F S2000x128 .f32) (x1 : Vec F S2000x128 .f32) (x2 : Vec F S128x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__node_update_kernel i arg1 harg1 arg2 harg2 arg3 harg3 arg4 harg4 arg5 harg5) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core c: the arrays as the region finds them; after the body at point t each
    input's buffer still at its block and the output's at out1_4 of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.R2.lean ====
/-
  Region 2 of @main, the second edge-message call: per grid point t (200 points) the body loads rows 4000·t …
  4000·t+3999 of the gathered 256-wide node features and of the 128-wide edge attributes, the whole 128×256 edge
  weight and the 1×256 bias row, and stores relu(h_src + edge_attr · We + bias) into the same rows of the message
  array. Stated at a parameter V, the buffer contents when the region is entered: each window's block at a point,
  what the one store leaves in the output's staging buffer, the body's triple, the pipeline's proof data and the
  body obligation at every point.
-/
import proofs.«419488_j13426067767699_1_alg».proof.Proof.Gen.KernelIdeal.Launch
import proofs.«419488_j13426067767699_1_alg».proof.Proof.Gen.KernelIdeal.Skeleton
import proofs.«419488_j13426067767699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched the block index has not moved), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole staging buffer -/

abbrev r2_in0 : Rect S4000x256 := Rect.unit (s := S4000x256) ![0, 0] S4000x256.size inb_S4000x256_S4000x256_0_0
abbrev r2_in1 : Rect S4000x128 := Rect.unit (s := S4000x128) ![0, 0] S4000x128.size inb_S4000x128_S4000x128_0_0
abbrev r2_in2 : Rect S128x256 := Rect.unit (s := S128x256) ![0, 0] S128x256.size inb_S128x256_S128x256_0_0
abbrev r2_in3 : Rect S1x256 := Rect.unit (s := S1x256) ![0, 0] S1x256.size inb_S1x256_S1x256_0_0
abbrev r2_out : Rect S4000x256 := Rect.unit (s := S4000x256) ![0, 0] S4000x256.size inb_S4000x256_S4000x256_0_0

/-! ## What the body leaves in the output window's buffer -/

/-- The output block after the body, from the input blocks: its one store, of the body's arithmetic on the loaded
    blocks. -/
def out2_4 (x0 : Vec F S4000x256 .f32) (x1 : Vec F S4000x128 .f32) (x2 : Vec F S128x256 .f32) (x3 : Vec F S1x256 .f32) : Vec F S4000x256 .f32 :=
  View.canon [⟨r2_out, k2_pay1 (View.ld x1 r2_in1) (View.ld x2 r2_in2) (View.ld x0 r2_in0) (View.ld x3 r2_in3)⟩]

/-- The one store is the whole buffer, so it covers it. -/
theorem cover2_4 (p0 : Vec F S4000x256 .f32) (y : S4000x256.Idx) :
    ∃ pc ∈ ([⟨r2_out, p0⟩] : List (View.Piece (Elt F) S4000x256 .f32)), y ∈ pc.1.set :=
  View.cover_of_tiled [⟨r2_out, p0⟩] S4000x256.size (by rfl) y

/-! ## The body's triple -/

set_option maxHeartbeats 1000000 in
/-- The kernel body on whole staging memrefs, the inputs' at contents x0, x1, x2, x3 and the output's at anything, runs to
    the continuation holding the inputs' as they were and the output's at out2_4 of the inputs'. -/
theorem sound_kernel2 (c : Dev nD) (E : Set ℕ) (i : grid2.Coords)
    (arg1 : Memref sig .tc .vmem S4000x256 .f32) (harg1 : arg1.IsWhole) (arg2 : Memref sig .tc .vmem S4000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S4000x256 .f32) (harg5 : arg5.IsWhole)
    (x0 : Vec F S4000x256 .f32) (x1 : Vec F S4000x128 .f32) (x2 : Vec F S128x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__edge_message_kernel i arg1 harg1 arg2 harg2 arg3 harg3 arg4 harg4 arg5 harg5) K := by
  simp only [cc2__edge_message_kernel_eq_skeleton]; unfold cc2__edge_message_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core c: the arrays as the region finds them; after the body at point t each
    input's buffer still at its block and the output's at out2_4 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.R3.lean ====
/-
  Region 3 of @main, the second node-update call: per grid point t (25 points) the body loads rows 2000·t …
  2000·t+1999 of the 256-wide node features and of the aggregated messages, the whole 256×256 weight and the 1×256
  bias row, and stores tanh((h + agg) · W + bias) into the same rows of the result. Stated at a parameter V, the
  buffer contents when the region is entered: each window's block at a point, what the one store leaves in the
  output's staging buffer, the body's triple, the pipeline's proof data and the body obligation at every point.
-/
import proofs.«419488_j13426067767699_1_alg».proof.Proof.Gen.KernelIdeal.Launch
import proofs.«419488_j13426067767699_1_alg».proof.Proof.Gen.KernelIdeal.Skeleton
import proofs.«419488_j13426067767699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (where it is not
    fetched the block index has not moved), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take a whole staging buffer -/

abbrev r3_in0 : Rect S2000x256 := Rect.unit (s := S2000x256) ![0, 0] S2000x256.size inb_S2000x256_S2000x256_0_0
abbrev r3_in1 : Rect S2000x256 := Rect.unit (s := S2000x256) ![0, 0] S2000x256.size inb_S2000x256_S2000x256_0_0
abbrev r3_in2 : Rect S256x256 := Rect.unit (s := S256x256) ![0, 0] S256x256.size inb_S256x256_S256x256_0_0
abbrev r3_in3 : Rect S1x256 := Rect.unit (s := S1x256) ![0, 0] S1x256.size inb_S1x256_S1x256_0_0
abbrev r3_out : Rect S2000x256 := Rect.unit (s := S2000x256) ![0, 0] S2000x256.size inb_S2000x256_S2000x256_0_0

/-! ## What the body leaves in the output window's buffer -/

/-- The output block after the body, from the input blocks: its one store, of the body's arithmetic on the loaded
    blocks. -/
def out3_4 (x0 : Vec F S2000x256 .f32) (x1 : Vec F S2000x256 .f32) (x2 : Vec F S256x256 .f32) (x3 : Vec F S1x256 .f32) : Vec F S2000x256 .f32 :=
  View.canon [⟨r3_out, k3_pay1 (View.ld x0 r3_in0) (View.ld x1 r3_in1) (View.ld x2 r3_in2) (View.ld x3 r3_in3)⟩]

/-- The one store is the whole buffer, so it covers it. -/
theorem cover3_4 (p0 : Vec F S2000x256 .f32) (y : S2000x256.Idx) :
    ∃ pc ∈ ([⟨r3_out, p0⟩] : List (View.Piece (Elt F) S2000x256 .f32)), y ∈ pc.1.set :=
  View.cover_of_tiled [⟨r3_out, p0⟩] S2000x256.size (by rfl) y

/-! ## The body's triple -/

set_option maxHeartbeats 1000000 in
/-- The kernel body on whole staging memrefs, the inputs' at contents x0, x1, x2, x3 and the output's at anything, runs to
    the continuation holding the inputs' as they were and the output's at out3_4 of the inputs'. -/
theorem sound_kernel3 (c : Dev nD) (E : Set ℕ) (i : grid3.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole)
    (x0 : Vec F S2000x256 .f32) (x1 : Vec F S2000x256 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__node_update_kernel i arg1 harg1 arg2 harg2 arg3 harg3 arg4 harg4 arg5 harg5) K := by
  simp only [cc3__node_update_kernel_eq_skeleton]; unfold cc3__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core c: the arrays as the region finds them; after the body at point t each
    input's buffer still at its block and the output's at out3_4 of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.R4.lean ====
/-
  Region 4 of @main, the final projection: per grid point t (25 points) the body loads rows 2000·t … 2000·t+1999
  of the 256-wide node features and the whole 256×128 weight, and stores tanh(h · W) into the same rows of the
  128-wide result. Stated at a parameter V, the buffer contents when the region is entered: each window's block at a
  point, what the one store leaves in the output's staging buffer, the body's triple, the pipeline's proof data and
  the body obligation at every point.
-/
import proofs.«419488_j13426067767699_1_alg».proof.Proof.Gen.KernelIdeal.Launch
import proofs.«419488_j13426067767699_1_alg».proof.Proof.Gen.KernelIdeal.Skeleton
import proofs.«419488_j13426067767699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (where it is not
    fetched the block index has not moved), for any proof data over these arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store take a whole staging buffer -/

abbrev r4_in0 : Rect S2000x256 := Rect.unit (s := S2000x256) ![0, 0] S2000x256.size inb_S2000x256_S2000x256_0_0
abbrev r4_in1 : Rect S256x128 := Rect.unit (s := S256x128) ![0, 0] S256x128.size inb_S256x128_S256x128_0_0
abbrev r4_out : Rect S2000x128 := Rect.unit (s := S2000x128) ![0, 0] S2000x128.size inb_S2000x128_S2000x128_0_0

/-! ## What the body leaves in the output window's buffer -/

/-- The output block after the body, from the input blocks: its one store, of the body's arithmetic on the loaded
    blocks. -/
def out4_2 (x0 : Vec F S2000x256 .f32) (x1 : Vec F S256x128 .f32) : Vec F S2000x128 .f32 :=
  View.canon [⟨r4_out, k4_pay1 (View.ld x0 r4_in0) (View.ld x1 r4_in1)⟩]

/-- The one store is the whole buffer, so it covers it. -/
theorem cover4_2 (p0 : Vec F S2000x128 .f32) (y : S2000x128.Idx) :
    ∃ pc ∈ ([⟨r4_out, p0⟩] : List (View.Piece (Elt F) S2000x128 .f32)), y ∈ pc.1.set :=
  View.cover_of_tiled [⟨r4_out, p0⟩] S2000x128.size (by rfl) y

/-! ## The body's triple -/

set_option maxHeartbeats 1000000 in
/-- The kernel body on whole staging memrefs, the inputs' at contents x0, x1 and the output's at anything, runs to
    the continuation holding the inputs' as they were and the output's at out4_2 of the inputs'. -/
theorem sound_kernel4 (c : Dev nD) (E : Set ℕ) (i : grid4.Coords)
    (arg1 : Memref sig .tc .vmem S2000x256 .f32) (harg1 : arg1.IsWhole) (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__final_fc_kernel i arg1 harg1 arg2 harg2 arg3 harg3) K := by
  simp only [cc4__final_fc_kernel_eq_skeleton]; unfold cc4__final_fc_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core c: the arrays as the region finds them; after the body at point t each
    input's buffer still at its block and the output's at out4_2 of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KI.Run.lean ====
/-
  The run of @main: what every buffer holds when the program ends. Between two items of @main (a stretch of host
  operations, or one of the five tiled regions) every unscoped buffer is held at contents named item by item: a host
  stretch applies its operations, a region changes its one output array to what its grid of write-backs leaves and
  nothing else. Each region is entered with its windows' arrays split out of the held buffers and left with them put
  back; its body obligation is the region's own. Every weakly fair execution from any memory with zero counters
  terminates without a fault, and at the end every unscoped buffer holds the last of these contents; the argument
  arrays among them are what they were at launch.
-/
import proofs.«419488_j13426067767699_1_alg».proof.Proof.KI.R0
import proofs.«419488_j13426067767699_1_alg».proof.Proof.KI.R1
import proofs.«419488_j13426067767699_1_alg».proof.Proof.KI.R2
import proofs.«419488_j13426067767699_1_alg».proof.Proof.KI.R3
import proofs.«419488_j13426067767699_1_alg».proof.Proof.KI.R4
import proofs.«419488_j13426067767699_1_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave, region by region

Each region's output array after the region is its proof data's last write-back fold, over the contents the region
was entered at; those contents depend on the earlier regions' outputs only, so the five are defined in order, each
over the outputs defined so far. -/

/-- The contents region 0 is entered at, read at the TensorCore's references. -/
abbrev T5 : (c : Dev nD) → (b : Ref sig .tc) → Buf (Elt F) ((c : Thread nD τ).loc b) := fun c b => V5 m c b
/-- What region 0 leaves in its output array. -/
def o6 (c : Dev nD) : Buf (Elt F) ((c : Thread nD τ).loc main_v25) := (dat0 (T5 m) c).arrAt 4 cfg0.N
def outs6 : Outs (F := F) := fun n r c => match n with
  | 6 => Function.update (V5 m c) main_v25 (o6 m c) r
  | _ => V0 m c r
abbrev S7 : (c : Dev nD) → (b : Ref sig .tc) → Buf (Elt F) ((c : Thread nD τ).loc b) := fun c b => V7 m (outs6 m) c b
/-- What region 1 leaves in its output array. -/
def o8 (c : Dev nD) : Buf (Elt F) ((c : Thread nD τ).loc main_v30) := (dat1 (S7 m) c).arrAt 4 cfg1.N
def outs8 : Outs (F := F) := fun n r c => match n with
  | 6 => Function.update (V5 m c) main_v25 (o6 m c) r
  | 8 => Function.update (V7 m (outs6 m) c) main_v30 (o8 m c) r
  | _ => V0 m c r
abbrev S13 : (c : Dev nD) → (b : Ref sig .tc) → Buf (Elt F) ((c : Thread nD τ).loc b) := fun c b => V13 m (outs8 m) c b
/-- What region 2 leaves in its output array. -/
def o14 (c : Dev nD) : Buf (Elt F) ((c : Thread nD τ).loc main_v52) := (dat2 (S13 m) c).arrAt 4 cfg2.N
def outs14 : Outs (F := F) := fun n r c => match n with
  | 6 => Function.update (V5 m c) main_v25 (o6 m c) r
  | 8 => Function.update (V7 m (outs6 m) c) main_v30 (o8 m c) r
  | 14 => Function.update (V13 m (outs8 m) c) main_v52 (o14 m c) r
  | _ => V0 m c r
abbrev S15 : (c : Dev nD) → (b : Ref sig .tc) → Buf (Elt F) ((c : Thread nD τ).loc b) := fun c b => V15 m (outs14 m) c b
/-- What region 3 leaves in its output array. -/
def o16 (c : Dev nD) : Buf (Elt F) ((c : Thread nD τ).loc main_v57) := (dat3 (S15 m) c).arrAt 4 cfg3.N
def outs16 : Outs (F := F) := fun n r c => match n with
  | 6 => Function.update (V5 m c) main_v25 (o6 m c) r
  | 8 => Function.update (V7 m (outs6 m) c) main_v30 (o8 m c) r
  | 14 => Function.update (V13 m (outs8 m) c) main_v52 (o14 m c) r
  | 16 => Function.update (V15 m (outs14 m) c) main_v57 (o16 m c) r
  | _ => V0 m c r
abbrev S19 : (c : Dev nD) → (b : Ref sig .tc) → Buf (Elt F) ((c : Thread nD τ).loc b) := fun c b => V19 m (outs16 m) c b
/-- What region 4 leaves in its output array. -/
def o20 (c : Dev nD) : Buf (Elt F) ((c : Thread nD τ).loc main_v77) := (dat4 (S19 m) c).arrAt 2 cfg4.N
/-- What the five regions leave: the unknowns the item-by-item contents are written over, now named. -/
def outs : Outs (F := F) := fun n r c => match n with
  | 6 => Function.update (V5 m c) main_v25 (o6 m c) r
  | 8 => Function.update (V7 m (outs6 m) c) main_v30 (o8 m c) r
  | 14 => Function.update (V13 m (outs8 m) c) main_v52 (o14 m c) r
  | 16 => Function.update (V15 m (outs14 m) c) main_v57 (o16 m c) r
  | 20 => Function.update (V19 m (outs16 m) c) main_v77 (o20 m c) r
  | _ => V0 m c r

/-- The contents each later region is entered at, written over all five outputs. -/
abbrev T7 : (c : Dev nD) → (b : Ref sig .tc) → Buf (Elt F) ((c : Thread nD τ).loc b) := fun c b => V7 m (outs m) c b
abbrev T13 : (c : Dev nD) → (b : Ref sig .tc) → Buf (Elt F) ((c : Thread nD τ).loc b) := fun c b => V13 m (outs m) c b
abbrev T15 : (c : Dev nD) → (b : Ref sig .tc) → Buf (Elt F) ((c : Thread nD τ).loc b) := fun c b => V15 m (outs m) c b
abbrev T19 : (c : Dev nD) → (b : Ref sig .tc) → Buf (Elt F) ((c : Thread nD τ).loc b) := fun c b => V19 m (outs m) c b
/-- They are the contents each output was defined over: the earlier outputs are the same terms. -/
theorem S7_eq : S7 m = T7 m := rfl
theorem S13_eq : S13 m = T13 m := rfl
theorem S15_eq : S15 m = T15 m := rfl
theorem S19_eq : S19 m = T19 m := rfl

/-- Each region's named output is its proof data's last write-back fold over its entry contents. -/
theorem outs_6 (c : Dev nD) : outs m 6 main_v25 c = (dat0 (T5 m) c).arrAt 4 cfg0.N := by
  unfold outs; exact Function.update_self _ _ _
theorem outs_8 (c : Dev nD) : outs m 8 main_v30 c = (dat1 (T7 m) c).arrAt 4 cfg1.N := by
  unfold outs; exact (Function.update_self _ _ _).trans (congrArg (fun T => (dat1 T c).arrAt 4 cfg1.N) (S7_eq m))
theorem outs_14 (c : Dev nD) : outs m 14 main_v52 c = (dat2 (T13 m) c).arrAt 4 cfg2.N := by
  unfold outs; exact (Function.update_self _ _ _).trans (congrArg (fun T => (dat2 T c).arrAt 4 cfg2.N) (S13_eq m))
theorem outs_16 (c : Dev nD) : outs m 16 main_v57 c = (dat3 (T15 m) c).arrAt 4 cfg3.N := by
  unfold outs; exact (Function.update_self _ _ _).trans (congrArg (fun T => (dat3 T c).arrAt 4 cfg3.N) (S15_eq m))
theorem outs_20 (c : Dev nD) : outs m 20 main_v77 c = (dat4 (T19 m) c).arrAt 2 cfg4.N := by
  unfold outs; exact (Function.update_self _ _ _).trans (congrArg (fun T => (dat4 T c).arrAt 2 cfg4.N) (S19_eq m))

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (T5 m) c
  | ⟨1, _⟩ => fun c => dat1 (T7 m) c
  | ⟨2, _⟩ => fun c => dat2 (T13 m) c
  | ⟨3, _⟩ => fun c => dat3 (T15 m) c
  | ⟨4, _⟩ => fun c => dat4 (T19 m) c

abbrev 𝒱₀' : Variants := Variants.none
abbrev L' : GSem nD τ sig → Finset Unit := fun _ => ∅
abbrev lv' : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev E' : Fin 6 → Dev nD → sProp 𝕄 := fun _ c => R c

/-! ## Region 0 -/

/-- At region 0's exit each of its arrays holds what the pipeline leaves: an input's array is never written, the
    output's is the named fold. -/
theorem hF0 (c : Dev nD) (w : Fin cfg0.W) : (dat0 (T5 m) c).arrAt w cfg0.N = V6 m (outs m) c (Pipeline.arrRef spec0 w) :=
  match w with
  | ⟨0, _⟩ => (((dat0 (T5 m) c).arrAt_in 0 rfl _).trans (A_eq0 (T5 m) c 0)).trans (V6_of m (outs m) c _ (by decide)).symm
  | ⟨1, _⟩ => (((dat0 (T5 m) c).arrAt_in 1 rfl _).trans (A_eq0 (T5 m) c 1)).trans (V6_of m (outs m) c _ (by decide)).symm
  | ⟨2, _⟩ => (((dat0 (T5 m) c).arrAt_in 2 rfl _).trans (A_eq0 (T5 m) c 2)).trans (V6_of m (outs m) c _ (by decide)).symm
  | ⟨3, _⟩ => (((dat0 (T5 m) c).arrAt_in 3 rfl _).trans (A_eq0 (T5 m) c 3)).trans (V6_of m (outs m) c _ (by decide)).symm
  | ⟨4, _⟩ => by
      have h : V6 m (outs m) c main_v25 = outs m 6 main_v25 c := Function.update_self _ _ _
      exact (h.trans (outs_6 m c)).symm
/-- Every other buffer holds at the exit what it held at the entry. -/
theorem hrest0 (c : Dev nD) : ∀ b, b ∉ Finset.univ.image (Pipeline.arrRef spec0) → V6 m (outs m) c b = V5 m c b :=
  fun b hb => V6_of m (outs m) c b fun h => hb (Finset.mem_image.mpr ⟨4, Finset.mem_univ _, by rw [List.mem_singleton.mp h]⟩)

set_option backward.isDefEq.respectTransparency.types false in
/-- Region 0 over the thread state: entered from every unscoped buffer at the contents before it, left at the
    contents after it. Its arrays are split out of the unscoped buffers and put back at the exit contents; the
    generator register goes into the pipeline's invariant and comes out; nothing is owed. -/
def reg0 : Pipeline.RegionSeg (pcfgs (F := F)) adm (pdats m) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (T5 m) c).loose
  hwaits := Pipeline.hwaits_of_owed_zero _ _ _ _ L' lv' 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (T5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T5 m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: an input's array is never written, the
    output's is the named fold. -/
theorem hF1 (c : Dev nD) (w : Fin cfg1.W) : (dat1 (T7 m) c).arrAt w cfg1.N = V8 m (outs m) c (Pipeline.arrRef spec1 w) :=
  match w with
  | ⟨0, _⟩ => (((dat1 (T7 m) c).arrAt_in 0 rfl _).trans (A_eq1 (T7 m) c 0)).trans (V8_of m (outs m) c _ (by decide)).symm
  | ⟨1, _⟩ => (((dat1 (T7 m) c).arrAt_in 1 rfl _).trans (A_eq1 (T7 m) c 1)).trans (V8_of m (outs m) c _ (by decide)).symm
  | ⟨2, _⟩ => (((dat1 (T7 m) c).arrAt_in 2 rfl _).trans (A_eq1 (T7 m) c 2)).trans (V8_of m (outs m) c _ (by decide)).symm
  | ⟨3, _⟩ => (((dat1 (T7 m) c).arrAt_in 3 rfl _).trans (A_eq1 (T7 m) c 3)).trans (V8_of m (outs m) c _ (by decide)).symm
  | ⟨4, _⟩ => by
      have h : V8 m (outs m) c main_v30 = outs m 8 main_v30 c := Function.update_self _ _ _
      exact (h.trans (outs_8 m c)).symm
/-- Every other buffer holds at the exit what it held at the entry. -/
theorem hrest1 (c : Dev nD) : ∀ b, b ∉ Finset.univ.image (Pipeline.arrRef spec1) → V8 m (outs m) c b = V7 m (outs m) c b :=
  fun b hb => V8_of m (outs m) c b fun h => hb (Finset.mem_image.mpr ⟨4, Finset.mem_univ _, by rw [List.mem_singleton.mp h]⟩)

set_option backward.isDefEq.respectTransparency.types false in
/-- Region 1 over the thread state: entered from every unscoped buffer at the contents before it, left at the
    contents after it. Its arrays are split out of the unscoped buffers and put back at the exit contents; the
    generator register goes into the pipeline's invariant and comes out; nothing is owed. -/
def reg1 : Pipeline.RegionSeg (pcfgs (F := F)) adm (pdats m) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (T7 m) c).loose
  hwaits := Pipeline.hwaits_of_owed_zero _ _ _ _ L' lv' 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (T7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T7 m c) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: an input's array is never written, the
    output's is the named fold. -/
theorem hF2 (c : Dev nD) (w : Fin cfg2.W) : (dat2 (T13 m) c).arrAt w cfg2.N = V14 m (outs m) c (Pipeline.arrRef spec2 w) :=
  match w with
  | ⟨0, _⟩ => (((dat2 (T13 m) c).arrAt_in 0 rfl _).trans (A_eq2 (T13 m) c 0)).trans (V14_of m (outs m) c _ (by decide)).symm
  | ⟨1, _⟩ => (((dat2 (T13 m) c).arrAt_in 1 rfl _).trans (A_eq2 (T13 m) c 1)).trans (V14_of m (outs m) c _ (by decide)).symm
  | ⟨2, _⟩ => (((dat2 (T13 m) c).arrAt_in 2 rfl _).trans (A_eq2 (T13 m) c 2)).trans (V14_of m (outs m) c _ (by decide)).symm
  | ⟨3, _⟩ => (((dat2 (T13 m) c).arrAt_in 3 rfl _).trans (A_eq2 (T13 m) c 3)).trans (V14_of m (outs m) c _ (by decide)).symm
  | ⟨4, _⟩ => by
      have h : V14 m (outs m) c main_v52 = outs m 14 main_v52 c := Function.update_self _ _ _
      exact (h.trans (outs_14 m c)).symm
/-- Every other buffer holds at the exit what it held at the entry. -/
theorem hrest2 (c : Dev nD) : ∀ b, b ∉ Finset.univ.image (Pipeline.arrRef spec2) → V14 m (outs m) c b = V13 m (outs m) c b :=
  fun b hb => V14_of m (outs m) c b fun h => hb (Finset.mem_image.mpr ⟨4, Finset.mem_univ _, by rw [List.mem_singleton.mp h]⟩)

set_option backward.isDefEq.respectTransparency.types false in
/-- Region 2 over the thread state: entered from every unscoped buffer at the contents before it, left at the
    contents after it. Its arrays are split out of the unscoped buffers and put back at the exit contents; the
    generator register goes into the pipeline's invariant and comes out; nothing is owed. -/
def reg2 : Pipeline.RegionSeg (pcfgs (F := F)) adm (pdats m) () defs₀ 𝒱₀' L' lv' 2 where
  win := launch2.win.to₀
  block_pos := launch2.block_pos
  stage_whole := launch2.stage_whole
  K := PEmpty
  osem k := k.elim
  ho := Pipeline.OwnSemFacts.none _
  hbody c := (body_obligation2 (T13 m) c).loose
  hwaits := Pipeline.hwaits_of_owed_zero _ _ _ _ L' lv' 2 fun _ _ => rfl
  pre c := iprop(StableHlo.held (c : Thread nD τ) (Pipeline.ucRefs τ sig) (V13 m (outs m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec2 c (T13 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T13 m c) (fun b => V14 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the pipeline leaves: an input's array is never written, the
    output's is the named fold. -/
theorem hF3 (c : Dev nD) (w : Fin cfg3.W) : (dat3 (T15 m) c).arrAt w cfg3.N = V16 m (outs m) c (Pipeline.arrRef spec3 w) :=
  match w with
  | ⟨0, _⟩ => (((dat3 (T15 m) c).arrAt_in 0 rfl _).trans (A_eq3 (T15 m) c 0)).trans (V16_of m (outs m) c _ (by decide)).symm
  | ⟨1, _⟩ => (((dat3 (T15 m) c).arrAt_in 1 rfl _).trans (A_eq3 (T15 m) c 1)).trans (V16_of m (outs m) c _ (by decide)).symm
  | ⟨2, _⟩ => (((dat3 (T15 m) c).arrAt_in 2 rfl _).trans (A_eq3 (T15 m) c 2)).trans (V16_of m (outs m) c _ (by decide)).symm
  | ⟨3, _⟩ => (((dat3 (T15 m) c).arrAt_in 3 rfl _).trans (A_eq3 (T15 m) c 3)).trans (V16_of m (outs m) c _ (by decide)).symm
  | ⟨4, _⟩ => by
      have h : V16 m (outs m) c main_v57 = outs m 16 main_v57 c := Function.update_self _ _ _
      exact (h.trans (outs_16 m c)).symm
/-- Every other buffer holds at the exit what it held at the entry. -/
theorem hrest3 (c : Dev nD) : ∀ b, b ∉ Finset.univ.image (Pipeline.arrRef spec3) → V16 m (outs m) c b = V15 m (outs m) c b :=
  fun b hb => V16_of m (outs m) c b fun h => hb (Finset.mem_image.mpr ⟨4, Finset.mem_univ _, by rw [List.mem_singleton.mp h]⟩)

set_option backward.isDefEq.respectTransparency.types false in
/-- Region 3 over the thread state: entered from every unscoped buffer at the contents before it, left at the
    contents after it. Its arrays are split out of the unscoped buffers and put back at the exit contents; the
    generator register goes into the pipeline's invariant and comes out; nothing is owed. -/
def reg3 : Pipeline.RegionSeg (pcfgs (F := F)) adm (pdats m) () defs₀ 𝒱₀' L' lv' 3 where
  win := launch3.win.to₀
  block_pos := launch3.block_pos
  stage_whole := launch3.stage_whole
  K := PEmpty
  osem k := k.elim
  ho := Pipeline.OwnSemFacts.none _
  hbody c := (body_obligation3 (T15 m) c).loose
  hwaits := Pipeline.hwaits_of_owed_zero _ _ _ _ L' lv' 3 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec3 c (T15 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T15 m c) (fun b => V16 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- At region 4's exit each of its arrays holds what the pipeline leaves: an input's array is never written, the
    output's is the named fold. -/
theorem hF4 (c : Dev nD) (w : Fin cfg4.W) : (dat4 (T19 m) c).arrAt w cfg4.N = V20 m (outs m) c (Pipeline.arrRef spec4 w) :=
  match w with
  | ⟨0, _⟩ => (((dat4 (T19 m) c).arrAt_in 0 rfl _).trans (A_eq4 (T19 m) c 0)).trans (V20_of m (outs m) c _ (by decide)).symm
  | ⟨1, _⟩ => (((dat4 (T19 m) c).arrAt_in 1 rfl _).trans (A_eq4 (T19 m) c 1)).trans (V20_of m (outs m) c _ (by decide)).symm
  | ⟨2, _⟩ => by
      have h : V20 m (outs m) c main_v77 = outs m 20 main_v77 c := Function.update_self _ _ _
      exact (h.trans (outs_20 m c)).symm
/-- Every other buffer holds at the exit what it held at the entry. -/
theorem hrest4 (c : Dev nD) : ∀ b, b ∉ Finset.univ.image (Pipeline.arrRef spec4) → V20 m (outs m) c b = V19 m (outs m) c b :=
  fun b hb => V20_of m (outs m) c b fun h => hb (Finset.mem_image.mpr ⟨2, Finset.mem_univ _, by rw [List.mem_singleton.mp h]⟩)

set_option backward.isDefEq.respectTransparency.types false in
/-- Region 4 over the thread state: entered from every unscoped buffer at the contents before it, left at the
    contents after it. Its arrays are split out of the unscoped buffers and put back at the exit contents; the
    generator register goes into the pipeline's invariant and comes out; nothing is owed. -/
def reg4 : Pipeline.RegionSeg (pcfgs (F := F)) adm (pdats m) () defs₀ 𝒱₀' L' lv' 4 where
  win := launch4.win.to₀
  block_pos := launch4.block_pos
  stage_whole := launch4.stage_whole
  K := PEmpty
  osem k := k.elim
  ho := Pipeline.OwnSemFacts.none _
  hbody c := (body_obligation4 (T19 m) c).loose
  hwaits := Pipeline.hwaits_of_owed_zero _ _ _ _ L' lv' 4 fun _ _ => rfl
  pre c := iprop(StableHlo.held (c : Thread nD τ) (Pipeline.ucRefs τ sig) (V19 m (outs m) c) ∗ R c)
  post c := iprop(StableHlo.held (c : Thread nD τ) (Pipeline.ucRefs τ sig) (V20 m (outs m) c) ∗ R c)
  X c := iprop(∃ r, prngReg c r)
  Y c := iprop(∃ r, prngReg c r)
  Z c := Pipeline.unscopedRest (Ix := Unit) (Name := ℕ) (U := UR sig nD τ) (Lvl := ℕ) spec4 c (T19 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T19 m c) (fun b => V20 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates without a fault, and at the
    end every unscoped buffer on every core holds the contents named after the last item. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V21 m (outs m) c b) := by
  refine Pipeline.θ_run_regions_kit_dev (pcfgs (F := F)) adm (pdats m) () cellOf_inj emb₁ defs₀ 𝒱₀' L' lv' m ρ main
    (segs m (outs m) 𝒱₀' L' lv' E' () (pdats m) (reg0 m) (reg1 m) (reg2 m) (reg3 m) (reg4 m))
    (fun c Q => by
      rewrite [main_chain c, Seg.run_eq_chain,
        show (segs m (outs m) 𝒱₀' L' lv' E' () (pdats m) (reg0 m) (reg1 m) (reg2 m) (reg3 m) (reg4 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E' 0 c))
    (Tₙ := fun c => StableHlo.held (c : Thread nD τ) (Pipeline.ucRefs τ sig) (V21 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L' lv' fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V21 m (outs m) c b)
    (hfin := fun c s' => by
      iintro ⟨Hh, HSI⟩
      unfold StableHlo.held
      imodintro
      iapply (pointsTo_read_all (Pipeline.ucRefs τ sig) (fun b => (((c : Thread nD τ)).1, b)) (V21 m (outs m) c) s')
      isplitl [Hh] <;> iassumption)
    (hQ := fun s h => h)

/-- The result buffer ends at the last contents' value of it, and every argument array ends as launched. -/
theorem run_res (ρ : Dev nD → PrngReg) :
    θ_run defs (onTc (τ := τ) (main (F := F))) ⟨m, fun _ => 0, ρ⟩ (fun r => ∀ c : Dev nD,
      r.2.mem ((c.tc : Thread nD τ).loc main_v78) = V21 m (outs m) c main_v78
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c (Proc.devRef .tc main_v78) (Finset.mem_filter.mpr ⟨StableHlo.devRef_mem_tcRefs main_v78, by decide⟩),
      (h c (Proc.devRef .tc main_arg0) (Finset.mem_filter.mpr ⟨StableHlo.devRef_mem_tcRefs main_arg0, by decide⟩)).trans (V21_main_arg0 m (outs m) c),
      (h c (Proc.devRef .tc main_arg1) (Finset.mem_filter.mpr ⟨StableHlo.devRef_mem_tcRefs main_arg1, by decide⟩)).trans (V21_main_arg1 m (outs m) c),
      (h c (Proc.devRef .tc main_arg2) (Finset.mem_filter.mpr ⟨StableHlo.devRef_mem_tcRefs main_arg2, by decide⟩)).trans (V21_main_arg2 m (outs m) c),
      (h c (Proc.devRef .tc main_arg3) (Finset.mem_filter.mpr ⟨StableHlo.devRef_mem_tcRefs main_arg3, by decide⟩)).trans (V21_main_arg3 m (outs m) c),
      (h c (Proc.devRef .tc main_arg4) (Finset.mem_filter.mpr ⟨StableHlo.devRef_mem_tcRefs main_arg4, by decide⟩)).trans (V21_main_arg4 m (outs m) c),
      (h c (Proc.devRef .tc main_arg5) (Finset.mem_filter.mpr ⟨StableHlo.devRef_mem_tcRefs main_arg5, by decide⟩)).trans (V21_main_arg5 m (outs m) c),
      (h c (Proc.devRef .tc main_arg6) (Finset.mem_filter.mpr ⟨StableHlo.devRef_mem_tcRefs main_arg6, by decide⟩)).trans (V21_main_arg6 m (outs m) c),
      (h c (Proc.devRef .tc main_arg7) (Finset.mem_filter.mpr ⟨StableHlo.devRef_mem_tcRefs main_arg7, by decide⟩)).trans (V21_main_arg7 m (outs m) c),
      (h c (Proc.devRef .tc main_arg8) (Finset.mem_filter.mpr ⟨StableHlo.devRef_mem_tcRefs main_arg8, by decide⟩)).trans (V21_main_arg8 m (outs m) c),
      (h c (Proc.devRef .tc main_arg9) (Finset.mem_filter.mpr ⟨StableHlo.devRef_mem_tcRefs main_arg9, by decide⟩)).trans (V21_main_arg9 m (outs m) c),
      (h c (Proc.devRef .tc main_arg10) (Finset.mem_filter.mpr ⟨StableHlo.devRef_mem_tcRefs main_arg10, by decide⟩)).trans (V21_main_arg10 m (outs m) c),
      (h c (Proc.devRef .tc main_arg11) (Finset.mem_filter.mpr ⟨StableHlo.devRef_mem_tcRefs main_arg11, by decide⟩)).trans (V21_main_arg11 m (outs m) c),
      (h c (Proc.devRef .tc main_arg12) (Finset.mem_filter.mpr ⟨StableHlo.devRef_mem_tcRefs main_arg12, by decide⟩)).trans (V21_main_arg12 m (outs m) c),
      (h c (Proc.devRef .tc main_arg13) (Finset.mem_filter.mpr ⟨StableHlo.devRef_mem_tcRefs main_arg13, by decide⟩)).trans (V21_main_arg13 m (outs m) c),
      (h c (Proc.devRef .tc main_arg14) (Finset.mem_filter.mpr ⟨StableHlo.devRef_mem_tcRefs main_arg14, by decide⟩)).trans (V21_main_arg14 m (outs m) c),
      (h c (Proc.devRef .tc main_arg15) (Finset.mem_filter.mpr ⟨StableHlo.devRef_mem_tcRefs main_arg15, by decide⟩)).trans (V21_main_arg15 m (outs m) c),
      (h c (Proc.devRef .tc main_arg16) (Finset.mem_filter.mpr ⟨StableHlo.devRef_mem_tcRefs main_arg16, by decide⟩)).trans (V21_main_arg16 m (outs m) c),
      (h c (Proc.devRef .tc main_arg17) (Finset.mem_filter.mpr ⟨StableHlo.devRef_mem_tcRefs main_arg17, by decide⟩)).trans (V21_main_arg17 m (outs m) c)⟩) (run_all m ρ)

/-- The frame: @main runs to the end without a fault and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => (h c).2) (run_res m ρ)

end Cert.KernelIdeal.Frm

end
-- ==== Proof.Spec.lean ====
/-
  The three pieces of arithmetic the network repeats, as functions of whole arrays read index by index over the
  extended reals: an edge's message, a node's update, and the final projection. Both programs are compared against
  these: the tiled kernels compute them block by block, the reference by whole-array operations.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Arr2 (a b : Nat) : Type := (⟨2, ![a, b]⟩ : Shape).Idx → EReal

/-- The message of edge e in feature column j: relu of the source node's feature plus the edge attributes' row e
    times column j of the edge weight plus the bias: max (h_src[e,j] + Σ_k attr[e,k]·We[k,j] + b[0,j], 0). -/
def msg {E K Fo : Nat} (hs : Arr2 E Fo) (ea : Arr2 E K) (We : Arr2 K Fo) (bias : Arr2 1 Fo) : Arr2 E Fo :=
  fun i => max ((hs i + ∑ k : Fin K, ea (ix2 (i 0) k) * We (ix2 k (i 1))) + bias (ix2 (0 : Fin 1) (i 1))) 0

/-- The update of node n in column j: tanh (Σ_k (h[n,k] + agg[n,k])·W[k,j] + b[0,j]). -/
def upd {N K Fo : Nat} (h agg : Arr2 N K) (W : Arr2 K Fo) (bias : Arr2 1 Fo) : Arr2 N Fo :=
  fun i => Ideal.tanh ((∑ k : Fin K, (h (ix2 (i 0) k) + agg (ix2 (i 0) k)) * W (ix2 k (i 1))) + bias (ix2 (0 : Fin 1) (i 1)))

/-- The final projection of node n in column j: tanh (Σ_k h[n,k]·W[k,j]). -/
def fc {N K Fo : Nat} (h : Arr2 N K) (W : Arr2 K Fo) : Arr2 N Fo :=
  fun i => Ideal.tanh (∑ k : Fin K, h (ix2 (i 0) k) * W (ix2 k (i 1)))

end Cert.Spec

end
-- ==== Proof.KI.Val0.lean ====
/-
  What region 0, the first edge-message call, leaves in its output array, over the extended reals: for every edge e
  and feature column j, max (h_src[e,j] + Σ_k attr[e,k]·We[k,j] + b[0,j], 0), as ONE function of the arrays the
  region found. The body's arithmetic is read at an index (the block product as a sum over the contraction index);
  each input block at grid point t is rows 8000·t … 8000·t+7999 of its array (the weight and the bias row whole);
  and the 100 blocks of 8000 rows tile the 800000 rows, so the blocks written back make up the whole array.
-/
import proofs.«419488_j13426067767699_1_alg».proof.Proof.KI.R0
import proofs.«419488_j13426067767699_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Frm Idealize.ShloMosaic Idealize.ShloMosaic.ValueIdx
open Idealize.ShloMosaic.TcCoe
open Idealize.ShloMosaic.Pipeline (Dat)

/-! ## The block product at an index -/

/-- The product's left operand is read in the output's row … -/
theorem lhs_prod0_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl
/-- … at the contraction position's column; -/
theorem lhs_prod0_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- the right operand at the contraction position's row … -/
theorem rhs_prod0_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
/-- … in the output's column. -/
theorem rhs_prod0_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

/-- A block of 8000 rows times the 128×128 weight into the zero block, at row p and column q: the sum over k of
    the row's k-th entry times the weight's entry (k, q). -/
theorem prod0_at (a : FVec Ideal S8000x128 .bf16) (b : FVec Ideal S128x128 .bf16) (p : Fin 8000) (q : Fin 128) :
    matmul dot_S8000x128_S128x128_S8000x128_1_0_0_1_n_n none a b (constant (F := Ideal) S8000x128 .f32 0x00000000#32) (ix2 p q)
      = ∑ k : Fin 128, a (ix2 p k) * b (ix2 k q) := by
  simp only [matmul]
  rw [Ideal.matmul_constant_zero_apply,
    ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q)
      ((contrEquiv1 dot_S8000x128_S128x128_S8000x128_1_0_0_1_n_n 128 rfl rfl).symm k) = ix2 p k :=
    funext fun a => Fin.ext (by
      match a with
      | ⟨0, _⟩ => exact lhs_prod0_0 _ _
      | ⟨1, _⟩ => exact (lhs_prod0_1 _ _).trans hk)
  have er : dot_S8000x128_S128x128_S8000x128_1_0_0_1_n_n.rhsIdx (ix2 p q)
      ((contrEquiv1 dot_S8000x128_S128x128_S8000x128_1_0_0_1_n_n 128 rfl rfl).symm k) = ix2 k q :=
    funext fun a => Fin.ext (by
      match a with
      | ⟨0, _⟩ => exact (rhs_prod0_0 _ _).trans hk
      | ⟨1, _⟩ => exact rhs_prod0_1 _ _)
  rw [el, er]

/-! ## The body's arithmetic at an index -/

/-- The bias row spread over the block's rows reads, at (p, q), the row's entry q. -/
theorem bias0_at (v : Vec Ideal S1x128 .f32) (p : Fin 8000) (q : Fin 128) :
    broadcastTo S8000x128 v broadcasts_S1x128_S8000x128 (ix2 p q) = v (ix2 (0 : Fin 1) q) :=
  broadcastTo_apply v broadcasts_S1x128_S8000x128 (ix2 p q) (ix2 (0 : Fin 1) q) (fun a => by
    match a with
    | ⟨0, _⟩ => rfl
    | ⟨1, _⟩ => rfl)

/-- The stored block at (p, q): relu of the gathered feature plus the attributes' row p times the weight's column q
    plus the bias's entry q. -/
theorem pay0_at (x0 : Vec Ideal S8000x128 .f32) (x2 : Vec Ideal S128x128 .f32) (x5 : Vec Ideal S8000x128 .f32)
    (x8 : Vec Ideal S1x128 .f32) (p : Fin 8000) (q : Fin 128) :
    k0_pay1 x0 x2 x5 x8 (ix2 p q)
      = max ((x5 (ix2 p q) + ∑ k : Fin 128, x0 (ix2 p k) * x2 (ix2 k q)) + x8 (ix2 (0 : Fin 1) q)) 0 := by
  unfold k0_pay1
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · rw [shapeCast_self]
      · refine (prod0_at _ _ p q).trans ?_
        rfl
    · rw [shapeCast_self]
      exact bias0_at x8 p q
  · show Ideal.ofBits .f32 0x00000000#32 = 0
    exact Ideal.ofBits_zero_f32

/-! ## From the blocks to the array -/

theorem origin0_zero : (![0, 0] : Fin 2 → Nat) = fun _ => 0 := funext fun a => by fin_cases a <;> rfl

/-- The windows' index maps over the 100 grid points: the three row-tiled windows' block at point t is block (t, 0);
    the weight's and the bias row's is block (0, 0). -/
theorem block0_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the T-th block of 8000 rows is row 8000·T + p of the 800000. -/
def rowOf0 (T : Nat) (hT : T < 100) (p : Fin 8000) : Fin 800000 := ⟨T * 8000 + 1 * p.val, by have := p.isLt; omega⟩

/-- The body's arithmetic on blocks that are rows 8000·T … of the feature and attribute arrays, the whole weight and
    the whole bias row, at (p, q), is the message at row 8000·T + p and column q. -/
theorem pay0_block (hs ea : Cert.Spec.Arr2 800000 128) (We : Cert.Spec.Arr2 128 128) (bias : Cert.Spec.Arr2 1 128)
    (x0 x1 : Vec Ideal S8000x128 .f32) (x2 : Vec Ideal S128x128 .f32) (x3 : Vec Ideal S1x128 .f32) (T : Nat) (hT : T < 100)
    (h0 : ∀ (p : Fin 8000) (q : Fin 128), x0 (ix2 p q) = hs (ix2 (rowOf0 T hT p) q))
    (h1 : ∀ (p : Fin 8000) (q : Fin 128), x1 (ix2 p q) = ea (ix2 (rowOf0 T hT p) q))
    (h2 : ∀ (k : Fin 128) (q : Fin 128), x2 (ix2 k q) = We (ix2 k q))
    (h3 : ∀ q : Fin 128, x3 (ix2 (0 : Fin 1) q) = bias (ix2 (0 : Fin 1) q))
    (p : Fin 8000) (q : Fin 128) :
    k0_pay1 x1 x2 x0 x3 (ix2 p q) = Cert.Spec.msg hs ea We bias (ix2 (rowOf0 T hT p) q) := by
  refine (pay0_at x1 x2 x0 x3 p q).trans ?_
  unfold Cert.Spec.msg
  show _ = max ((hs (ix2 (rowOf0 T hT p) q) + ∑ k : Fin 128, ea (ix2 (rowOf0 T hT p) k) * We (ix2 k q)) + bias (ix2 (0 : Fin 1) q)) 0
  rw [h0 p q, h3 q]
  refine congrArg (fun s => max ((hs (ix2 (rowOf0 T hT p) q) + s) + bias (ix2 (0 : Fin 1) q)) 0) ?_
  exact Finset.sum_congr rfl fun k _ => by rw [h1 p k, h2 k q]

variable (V : (c : Dev nD) → (b : Ref sig .tc) → Buf (Elt Ideal) ((c : Thread nD τ).loc b))

/-- What point t writes back is block t of the message array. -/
theorem flushed0 (c : Dev nD) (t : Fin cfg0.N) :
    (dat0 (F := Ideal) V c).flushed 4 t = ((cfg0.win 4).blk t).view.read (Elt Ideal)
      (Cert.Spec.msg (V c main_v23) (V c main_arg2) (V c main_arg5) (V c main_v24)) := by
  show (cfg0.win 4).cut (grid0.coords t) ((dat0 (F := Ideal) V c).after 4 t) = _
  rw [after0_4]
  unfold out0_4
  rw [View.canon_unit_zero origin0_zero]
  simp only [View.ld_unit_zero (S := S8000x128) origin0_zero, View.ld_unit_zero (S := S128x128) origin0_zero,
    View.ld_unit_zero (S := S1x128) origin0_zero]
  obtain ⟨e00, e01, e10, e11, e20, e21, e30, e31, e40, e41⟩ := block0_index t
  have hT : t.val < 100 := lt_of_lt_of_eq t.isLt N_0
  funext j
  obtain ⟨p, q, rfl⟩ : ∃ (p : Fin 8000) (q : Fin 128), j = ix2 p q := ⟨j 0, j 1, eq_ix2 j⟩
  have h0 : ∀ (p : Fin 8000) (q : Fin 128),
      (iblk0 V c 0 t : Vec Ideal S8000x128 .f32) (ix2 p q) = (V c main_v23 : Cert.Spec.Arr2 800000 128) (ix2 (rowOf0 t.val hT p) q) := by
    intro p q
    show V c main_v23 (((cfg0.win 0).blk t).view.emb (ix2 p q)) = V c main_v23 (ix2 (rowOf0 t.val hT p) q)
    refine congrArg (V c main_v23) (funext fun a => Fin.ext ?_)
    match a with
    | ⟨0, _⟩ => show win0_0.index t (0 : Fin 2) * 8000 + 1 * p.val = t.val * 8000 + 1 * p.val; rw [e00]
    | ⟨1, _⟩ => show win0_0.index t (1 : Fin 2) * 128 + 1 * q.val = q.val; rw [e01]; omega
  have h1 : ∀ (p : Fin 8000) (q : Fin 128),
      (iblk0 V c 1 t : Vec Ideal S8000x128 .f32) (ix2 p q) = (V c main_arg2 : Cert.Spec.Arr2 800000 128) (ix2 (rowOf0 t.val hT p) q) := by
    intro p q
    show V c main_arg2 (((cfg0.win 1).blk t).view.emb (ix2 p q)) = V c main_arg2 (ix2 (rowOf0 t.val hT p) q)
    refine congrArg (V c main_arg2) (funext fun a => Fin.ext ?_)
    match a with
    | ⟨0, _⟩ => show win0_1.index t (0 : Fin 2) * 8000 + 1 * p.val = t.val * 8000 + 1 * p.val; rw [e10]
    | ⟨1, _⟩ => show win0_1.index t (1 : Fin 2) * 128 + 1 * q.val = q.val; rw [e11]; omega
  have h2 : ∀ (k : Fin 128) (q : Fin 128),
      (iblk0 V c 2 t : Vec Ideal S128x128 .f32) (ix2 k q) = (V c main_arg5 : Cert.Spec.Arr2 128 128) (ix2 k q) := by
    intro k q
    show V c main_arg5 (((cfg0.win 2).blk t).view.emb (ix2 k q)) = V c main_arg5 (ix2 k q)
    refine congrArg (V c main_arg5) (funext fun a => Fin.ext ?_)
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  have h3 : ∀ q : Fin 128,
      (iblk0 V c 3 t : Vec Ideal S1x128 .f32) (ix2 (0 : Fin 1) q) = (V c main_v24 : Cert.Spec.Arr2 1 128) (ix2 (0 : Fin 1) q) := by
    intro q
    show V c main_v24 (((cfg0.win 3).blk t).view.emb (ix2 (0 : Fin 1) q)) = V c main_v24 (ix2 (0 : Fin 1) q)
    refine congrArg (V c main_v24) (funext fun a => Fin.ext ?_)
    match a with
    | ⟨0, _⟩ => show win0_3.index t (0 : Fin 2) * 1 + 1 * 0 = 0; rw [e30]
    | ⟨1, _⟩ => show win0_3.index t (1 : Fin 2) * 128 + 1 * q.val = q.val; rw [e31]; omega
  refine (pay0_block (V c main_v23) (V c main_arg2) (V c main_arg5) (V c main_v24)
    (iblk0 V c 0 t) (iblk0 V c 1 t) (iblk0 V c 2 t) (iblk0 V c 3 t) t.val hT h0 h1 h2 h3 p q).trans ?_
  show Cert.Spec.msg (V c main_v23) (V c main_arg2) (V c main_arg5) (V c main_v24) (ix2 (rowOf0 t.val hT p) q)
    = Cert.Spec.msg (V c main_v23) (V c main_arg2) (V c main_arg5) (V c main_v24) (((cfg0.win 4).blk t).view.emb (ix2 p q))
  refine congrArg (Cert.Spec.msg (V c main_v23) (V c main_arg2) (V c main_arg5) (V c main_v24)) (funext fun a => Fin.ext ?_)
  match a with
  | ⟨0, _⟩ => show t.val * 8000 + 1 * p.val = win0_4.index t (0 : Fin 2) * 8000 + 1 * p.val; rw [e40]
  | ⟨1, _⟩ => show q.val = win0_4.index t (1 : Fin 2) * 128 + 1 * q.val; rw [e41]; omega

/-- An index of the message array is in point t's block iff each coordinate is in the block's range on its axis. -/
theorem mem0_block (t : Fin cfg0.N) (i : S800000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v25).slice (win0_4.rect t)).set ↔ _
  rw [View.set_slice_whole, Rect.mem_set_unit]
  exact Iff.rfl

/-- Every row r is in the block of point r / 8000: the 100 blocks of 8000 rows tile the 800000. -/
theorem covered0 (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have ht : (i 0).val / 8000 < cfg0.N := lt_of_lt_of_eq (by omega : (i 0).val / 8000 < 100) N_0.symm
  obtain ⟨-, -, -, -, -, -, -, -, e40, e41⟩ := block0_index ⟨(i 0).val / 8000, ht⟩
  refine ⟨⟨(i 0).val / 8000, ht⟩, flush0_4 _, ?_⟩
  rw [mem0_block]
  intro a
  match a with
  | ⟨0, _⟩ =>
    show win0_4.index ⟨(i 0).val / 8000, ht⟩ (0 : Fin 2) * 8000 ≤ (i 0).val
      ∧ (i 0).val < win0_4.index ⟨(i 0).val / 8000, ht⟩ (0 : Fin 2) * 8000 + 8000
    rw [e40]
    show (i 0).val / 8000 * 8000 ≤ (i 0).val ∧ (i 0).val < (i 0).val / 8000 * 8000 + 8000
    omega
  | ⟨1, _⟩ =>
    show win0_4.index ⟨(i 0).val / 8000, ht⟩ (1 : Fin 2) * 128 ≤ (i 1).val
      ∧ (i 1).val < win0_4.index ⟨(i 0).val / 8000, ht⟩ (1 : Fin 2) * 128 + 128
    rw [e41]
    omega

/-- The message array after the region: the edge messages of the arrays the region found. -/
theorem final0 (c : Dev nD) : (dat0 (F := Ideal) V c).arrAt 4 cfg0.N
    = Cert.Spec.msg (V c main_v23) (V c main_arg2) (V c main_arg5) (V c main_v24) :=
  (dat0 (F := Ideal) V c).arrAt_eq_of_cover 4 (Cert.Spec.msg (V c main_v23) (V c main_arg2) (V c main_arg5) (V c main_v24))
    (fun t _ => flushed0 V c t) covered0

end Cert.KernelIdeal.Val

end
-- ==== Proof.KI.Val1.lean ====
/-
  What the first node-update region leaves in its result array, at the extended reals, as one function of the arrays
  it found: out[n, j] = tanh (Σ_k (h[n, k] + agg[n, k]) · W[k, j] + b[0, j]) for every node n < 50000 and column j < 256.
  The region works on 25 blocks of 2000 rows. First the block's arithmetic is read at one row and column: the two
  format changes are the identity, the block product into zero is the sum over the 128 shared coordinates, the bias row
  is laid along every row, and the hyperbolic tangent is taken entry by entry. Then each window's block at point t is
  placed in its array (rows 2000·t … 2000·t + 1999 for the features, the aggregate and the result; the whole weight and
  the whole bias row), so what point t writes back is block t of the update of the whole arrays; the 25 blocks tile the
  result (row r lies in block r / 2000), hence the array ends holding the update everywhere.
-/
import proofs.«419488_j13426067767699_1_alg».proof.Proof.KI.R1
import proofs.«419488_j13426067767699_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Frm Idealize.ShloMosaic Idealize.ShloMosaic.ValueIdx
open Idealize.ShloMosaic.TcCoe

/-! ## The block product at an index -/

/-- Row axis of the left operand: the output's row. -/
theorem lhs_upd_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
/-- Column axis of the left operand: the summation index. -/
theorem lhs_upd_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- Row axis of the right operand: the summation index. -/
theorem rhs_upd_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- Column axis of the right operand: the output's column. -/
theorem rhs_upd_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- A [2000,128] × [128,256] block product accumulated into zero, at row p and column q: Σ_k a[p,k]·b[k,q]. -/
theorem matmul_upd_apply (a : FVec Ideal S2000x128 .bf16) (b : FVec Ideal S128x256 .bf16) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k :=
    funext fun a => Fin.ext (by
      match a with
      | ⟨0, _⟩ => exact lhs_upd_0 _ _
      | ⟨1, _⟩ => exact (lhs_upd_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q :=
    funext fun a => Fin.ext (by
      match a with
      | ⟨0, _⟩ => exact (rhs_upd_0 _ _).trans hk
      | ⟨1, _⟩ => exact rhs_upd_1 _ _)
  rw [el, er]

/-- The bias row laid along every row of the block, at row p and column q: the row's entry q. -/
theorem bias_upd_apply (v : S1x256.Idx → EReal) (p : Fin 2000) (q : Fin 256) :
    broadcastTo S2000x256 v broadcasts_S1x256_S2000x256 (ix2 p q) = v (ix2 (0 : Fin 1) q) :=
  broadcastTo_apply v broadcasts_S1x256_S2000x256 (ix2 p q) (ix2 (0 : Fin 1) q) (by
    intro a
    match a with
    | ⟨0, _⟩ => rfl
    | ⟨1, _⟩ => rfl)

/-! ## The body's arithmetic at an index -/

/-- The update of one block at row p and column q: tanh (Σ_k (h[p,k] + agg[p,k])·W[k,q] + b[0,q]). -/
theorem pay_upd_apply (x0 x1 : Vec Ideal S2000x128 .f32) (x2 : Vec Ideal S128x256 .f32) (x3 : Vec Ideal S1x256 .f32)
    (p : Fin 2000) (q : Fin 256) :
    k1_pay1 x0 x1 x2 x3 (ix2 p q)
      = Ideal.tanh ((∑ k : Fin 128, (x0 (ix2 p k) + x1 (ix2 p k)) * x2 (ix2 k q)) + x3 (ix2 (0 : Fin 1) q)) := by
  unfold k1_pay1
  simp only [shapeCast_self]
  show Ideal.tanh (matmul dot_S2000x128_S128x256_S2000x256_1_0_0_1_n_n none _ _ (constant (F := Ideal) S2000x256 .f32 0x00000000#32) (ix2 p q)
      + broadcastTo S2000x256 x3 broadcasts_S1x256_S2000x256 (ix2 p q)) = _
  refine congrArg Ideal.tanh ?_
  refine (congrArg₂ (· + ·) (matmul_upd_apply _ _ p q) (bias_upd_apply x3 p q)).trans ?_
  rfl

/-! ## From blocks to the array -/

variable (V : (c : Dev nD) → (b : Ref sig .tc) → Buf (Elt Ideal) ((c : Thread nD τ).loc b))

/-- The origin of a rank-2 block. -/
theorem origin_zero : (![0, 0] : Fin 2 → Nat) = fun _ => 0 := funext fun a => by fin_cases a <;> rfl

/-- The block indices over the 25 grid points: the three row-tiled windows (features, aggregate, result) sit at block
    row t, column block 0; the weight and the bias row are always their one block. -/
theorem block_index_upd : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block t of the node features: its row p is row 2000·t + p of the array. -/
theorem feat_block_apply (c : Dev nD) (t : Fin cfg1.N) (x : S2000x128.Idx) (i : S50000x128.Idx)
    (h0 : (i 0).val = 2000 * t.val + (x 0).val) (h1 : (i 1).val = (x 1).val) :
    (iblk1 V c 0 t : Vec Ideal S2000x128 .f32) x = (V c main_v22 : S50000x128.Idx → EReal) i := by
  obtain ⟨e00, e01, -⟩ := block_index_upd t
  unfold iblk1
  rw [View.read_apply]
  show V c main_v22 _ = V c main_v22 _
  congr 1
  funext a
  apply Fin.ext
  match a with
  | ⟨0, _⟩ => show win1_0.index t (0 : Fin 2) * 2000 + 1 * (x 0).val = (i 0).val; omega
  | ⟨1, _⟩ => show win1_0.index t (1 : Fin 2) * 128 + 1 * (x 1).val = (i 1).val; omega

/-- Block t of the aggregated messages: its row p is row 2000·t + p of the array. -/
theorem agg_block_apply (c : Dev nD) (t : Fin cfg1.N) (x : S2000x128.Idx) (i : S50000x128.Idx)
    (h0 : (i 0).val = 2000 * t.val + (x 0).val) (h1 : (i 1).val = (x 1).val) :
    (iblk1 V c 1 t : Vec Ideal S2000x128 .f32) x = (V c main_v28 : S50000x128.Idx → EReal) i := by
  obtain ⟨-, -, e10, e11, -⟩ := block_index_upd t
  unfold iblk1
  rw [View.read_apply]
  show V c main_v28 _ = V c main_v28 _
  congr 1
  funext a
  apply Fin.ext
  match a with
  | ⟨0, _⟩ => show win1_1.index t (0 : Fin 2) * 2000 + 1 * (x 0).val = (i 0).val; omega
  | ⟨1, _⟩ => show win1_1.index t (1 : Fin 2) * 128 + 1 * (x 1).val = (i 1).val; omega

/-- The weight's one block is the whole weight. -/
theorem weight_block_apply (c : Dev nD) (t : Fin cfg1.N) (x : S128x256.Idx) :
    (iblk1 V c 2 t : Vec Ideal S128x256 .f32) x = (V c main_arg7 : S128x256.Idx → EReal) x := by
  obtain ⟨-, -, -, -, e20, e21, -⟩ := block_index_upd t
  unfold iblk1
  rw [View.read_apply]
  show V c main_arg7 _ = V c main_arg7 _
  congr 1
  funext a
  apply Fin.ext
  match a with
  | ⟨0, _⟩ => show win1_2.index t (0 : Fin 2) * 128 + 1 * (x 0).val = (x 0).val; omega
  | ⟨1, _⟩ => show win1_2.index t (1 : Fin 2) * 256 + 1 * (x 1).val = (x 1).val; omega

/-- The bias row's one block is the whole row. -/
theorem bias_block_apply (c : Dev nD) (t : Fin cfg1.N) (x : S1x256.Idx) :
    (iblk1 V c 3 t : Vec Ideal S1x256 .f32) x = (V c main_v29 : S1x256.Idx → EReal) x := by
  obtain ⟨-, -, -, -, -, -, e30, e31, -⟩ := block_index_upd t
  unfold iblk1
  rw [View.read_apply]
  show V c main_v29 _ = V c main_v29 _
  congr 1
  funext a
  apply Fin.ext
  match a with
  | ⟨0, _⟩ => show win1_3.index t (0 : Fin 2) * 1 + 1 * (x 0).val = (x 0).val; omega
  | ⟨1, _⟩ => show win1_3.index t (1 : Fin 2) * 256 + 1 * (x 1).val = (x 1).val; omega

/-- Row p of block t of the result is row r = 2000·t + p of the node update of the whole arrays: the block's arithmetic
    reads the features' and the aggregate's row r, the whole weight and the bias row. -/
theorem upd_block_apply (c : Dev nD) (t : Fin cfg1.N) (p : Fin 2000) (q : Fin 256) (r : Fin 50000)
    (hr : r.val = 2000 * t.val + p.val) :
    k1_pay1 (iblk1 V c 0 t) (iblk1 V c 1 t) (iblk1 V c 2 t) (iblk1 V c 3 t) (ix2 p q)
      = Cert.Spec.upd (V c main_v22) (V c main_v28) (V c main_arg7) (V c main_v29) (ix2 r q) := by
  refine (pay_upd_apply (iblk1 V c 0 t) (iblk1 V c 1 t) (iblk1 V c 2 t) (iblk1 V c 3 t) p q).trans ?_
  unfold Cert.Spec.upd
  refine congrArg Ideal.tanh (congrArg₂ (· + ·) (Finset.sum_congr rfl fun k _ =>
    congrArg₂ (· * ·) (congrArg₂ (· + ·) ?_ ?_) ?_) ?_)
  · exact feat_block_apply V c t (ix2 p k) (ix2 r k) hr rfl
  · exact agg_block_apply V c t (ix2 p k) (ix2 r k) hr rfl
  · exact weight_block_apply V c t (ix2 k q)
  · exact bias_block_apply V c t (ix2 (0 : Fin 1) q)

/-- What point t writes back is block t of the node update of the arrays the region found: rows 2000·t … 2000·t + 1999
    of tanh ((h + agg)·W + b). -/
theorem flushed_upd (c : Dev nD) (t : Fin cfg1.N) :
    (dat1 (F := Ideal) V c).flushed 4 t
      = ((cfg1.win 4).blk t).view.read (Elt Ideal) (Cert.Spec.upd (V c main_v22) (V c main_v28) (V c main_arg7) (V c main_v29)) := by
  show (cfg1.win 4).cut (grid1.coords t) ((dat1 V c).after 4 t) = _
  rw [after1_4]
  unfold out1_4
  rw [View.canon_unit_zero origin_zero]
  simp only [View.ld_unit_zero (S := S2000x128) origin_zero, View.ld_unit_zero (S := S128x256) origin_zero,
    View.ld_unit_zero (S := S1x256) origin_zero]
  obtain ⟨-, -, -, -, -, -, -, -, e40, e41⟩ := block_index_upd t
  funext j
  obtain ⟨p, q, rfl⟩ : ∃ (p : Fin 2000) (q : Fin 256), j = ix2 p q := ⟨j 0, j 1, eq_ix2 (n0 := 2000) (n1 := 256) j⟩
  show k1_pay1 (iblk1 V c 0 t) (iblk1 V c 1 t) (iblk1 V c 2 t) (iblk1 V c 3 t) (ix2 p q)
      = Cert.Spec.upd (V c main_v22) (V c main_v28) (V c main_arg7) (V c main_v29) (((cfg1.win 4).blk t).view.emb (ix2 p q))
  have hr : ((((cfg1.win 4).blk t).view.emb (ix2 p q)) 0).val = 2000 * t.val + p.val := by
    show win1_4.index t (0 : Fin 2) * 2000 + 1 * p.val = _
    omega
  have he : ((cfg1.win 4).blk t).view.emb (ix2 p q) = ix2 ((((cfg1.win 4).blk t).view.emb (ix2 p q)) 0) q := by
    funext a
    apply Fin.ext
    match a with
    | ⟨0, _⟩ => rfl
    | ⟨1, _⟩ => show win1_4.index t (1 : Fin 2) * 256 + 1 * q.val = q.val; omega
  rw [he]
  exact upd_block_apply V c t p q _ hr

/-- An index of the result is in point t's block iff each coordinate is in the block's range on its axis. -/
theorem mem_block_upd (t : Fin cfg1.N) (i : S50000x256.Idx) :
    i ∈ ((cfg1.win 4).blk t).view.set
      ↔ ∀ a : Fin 2, win1_4.index t a * S2000x256.size a ≤ (i a).val ∧ (i a).val < win1_4.index t a * S2000x256.size a + S2000x256.size a := by
  show i ∈ ((View.whole main_v30).slice (win1_4.rect t)).set ↔ _
  rw [View.set_slice_whole, Rect.mem_set_unit]
  exact Iff.rfl

/-- The 25 row blocks tile the result: row r is in the block of point r / 2000. -/
theorem cover_upd (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := rfl
  have ht : (i 0).val / 2000 < cfg1.N := by rw [hN]; omega
  obtain ⟨-, -, -, -, -, -, -, -, e40, e41⟩ := block_index_upd ⟨(i 0).val / 2000, ht⟩
  refine ⟨⟨(i 0).val / 2000, ht⟩, flush1_4 _, ?_⟩
  rw [mem_block_upd]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win1_4.index ⟨(i 0).val / 2000, ht⟩ (1 : Fin 2) * 256 ≤ (i 1).val
      ∧ (i 1).val < win1_4.index ⟨(i 0).val / 2000, ht⟩ (1 : Fin 2) * 256 + 256
    rw [e41]; omega

/-- The result array after the region: the node update tanh ((h + agg)·W + b) of the arrays the region found. -/
theorem final1 (c : Dev nD) :
    (dat1 (F := Ideal) V c).arrAt 4 cfg1.N = Cert.Spec.upd (V c main_v22) (V c main_v28) (V c main_arg7) (V c main_v29) :=
  (dat1 (F := Ideal) V c).arrAt_eq_of_cover 4 (Cert.Spec.upd (V c main_v22) (V c main_v28) (V c main_arg7) (V c main_v29))
    (fun t _ => flushed_upd V c t) cover_upd

end Cert.KernelIdeal.Val

end
-- ==== Proof.KI.Val2.lean ====
/-
  What region 2, the second edge-message call, leaves in its output array, over the extended reals: for every edge e
  and feature column j (256 of them), max (h_src[e,j] + Σ_k attr[e,k]·We[k,j] + b[0,j], 0) with k over the 128
  attribute columns, as ONE function of the arrays the region found. The body's arithmetic is read at an index (the
  block product as a sum over the contraction index); each input block at grid point t is rows 4000·t … 4000·t+3999
  of its array (the weight and the bias row whole); and the 200 blocks of 4000 rows tile the 800000 rows, so the
  blocks written back make up the whole array.
-/
import proofs.«419488_j13426067767699_1_alg».proof.Proof.KI.R2
import proofs.«419488_j13426067767699_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Frm Idealize.ShloMosaic Idealize.ShloMosaic.ValueIdx
open Idealize.ShloMosaic.TcCoe
open Idealize.ShloMosaic.Pipeline (Dat)

/-! ## The block product at an index -/

/-- The product's left operand is read in the output's row … -/
theorem lhs_prod2_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide),
    dif_pos (show (0 : Fin S4000x128.rank) ∈ dot_S4000x128_S128x256_S4000x256_1_0_0_1_n_n.lhsNonContracting by decide)]
  rfl
/-- … at the contraction position's column; -/
theorem lhs_prod2_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
/-- the right operand at the contraction position's row … -/
theorem rhs_prod2_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
/-- … in the output's column. -/
theorem rhs_prod2_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide),
    dif_pos (show (1 : Fin S128x256.rank) ∈ dot_S4000x128_S128x256_S4000x256_1_0_0_1_n_n.rhsNonContracting by decide)]
  rfl

/-- A block of 4000 rows of 128 entries times the 128×256 weight into the zero block, at row p and column q: the
    sum over k of the row's k-th entry times the weight's entry (k, q). -/
theorem prod2_at (a : FVec Ideal S4000x128 .bf16) (b : FVec Ideal S128x256 .bf16) (p : Fin 4000) (q : Fin 256) :
    matmul dot_S4000x128_S128x256_S4000x256_1_0_0_1_n_n none a b (constant (F := Ideal) S4000x256 .f32 0x00000000#32) (ix2 p q)
      = ∑ k : Fin 128, a (ix2 p k) * b (ix2 k q) := by
  simp only [matmul]
  rw [Ideal.matmul_constant_zero_apply,
    ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q)
      ((contrEquiv1 dot_S4000x128_S128x256_S4000x256_1_0_0_1_n_n 128 rfl rfl).symm k) = ix2 p k :=
    funext fun a => Fin.ext (by
      match a with
      | ⟨0, _⟩ => exact lhs_prod2_0 _ _
      | ⟨1, _⟩ => exact (lhs_prod2_1 _ _).trans hk)
  have er : dot_S4000x128_S128x256_S4000x256_1_0_0_1_n_n.rhsIdx (ix2 p q)
      ((contrEquiv1 dot_S4000x128_S128x256_S4000x256_1_0_0_1_n_n 128 rfl rfl).symm k) = ix2 k q :=
    funext fun a => Fin.ext (by
      match a with
      | ⟨0, _⟩ => exact (rhs_prod2_0 _ _).trans hk
      | ⟨1, _⟩ => exact rhs_prod2_1 _ _)
  rw [el, er]

/-! ## The body's arithmetic at an index -/

/-- The bias row spread over the block's rows reads, at (p, q), the row's entry q. -/
theorem bias2_at (v : Vec Ideal S1x256 .f32) (p : Fin 4000) (q : Fin 256) :
    broadcastTo S4000x256 v broadcasts_S1x256_S4000x256 (ix2 p q) = v (ix2 (0 : Fin 1) q) :=
  broadcastTo_apply v broadcasts_S1x256_S4000x256 (ix2 p q) (ix2 (0 : Fin 1) q) (fun a => by
    match a with
    | ⟨0, _⟩ => rfl
    | ⟨1, _⟩ => rfl)

/-- The stored block at (p, q): relu of the gathered feature plus the attributes' row p times the weight's column q
    plus the bias's entry q. -/
theorem pay2_at (x0 : Vec Ideal S4000x128 .f32) (x2 : Vec Ideal S128x256 .f32) (x5 : Vec Ideal S4000x256 .f32)
    (x8 : Vec Ideal S1x256 .f32) (p : Fin 4000) (q : Fin 256) :
    k2_pay1 x0 x2 x5 x8 (ix2 p q)
      = max ((x5 (ix2 p q) + ∑ k : Fin 128, x0 (ix2 p k) * x2 (ix2 k q)) + x8 (ix2 (0 : Fin 1) q)) 0 := by
  unfold k2_pay1
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · rw [shapeCast_self]
      · refine (prod2_at _ _ p q).trans ?_
        rfl
    · rw [shapeCast_self]
      exact bias2_at x8 p q
  · show Ideal.ofBits .f32 0x00000000#32 = 0
    exact Ideal.ofBits_zero_f32

/-! ## From the blocks to the array -/

theorem origin2_zero : (![0, 0] : Fin 2 → Nat) = fun _ => 0 := funext fun a => by fin_cases a <;> rfl

/-- The windows' index maps over the 200 grid points: the three row-tiled windows' block at point t is block (t, 0);
    the weight's and the bias row's is block (0, 0). -/
theorem block2_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the T-th block of 4000 rows is row 4000·T + p of the 800000. -/
def rowOf2 (T : Nat) (hT : T < 200) (p : Fin 4000) : Fin 800000 := ⟨T * 4000 + 1 * p.val, by have := p.isLt; omega⟩

/-- The body's arithmetic on blocks that are rows 4000·T … of the feature and attribute arrays, the whole weight and
    the whole bias row, at (p, q), is the message at row 4000·T + p and column q. -/
theorem pay2_block (hs : Cert.Spec.Arr2 800000 256) (ea : Cert.Spec.Arr2 800000 128) (We : Cert.Spec.Arr2 128 256)
    (bias : Cert.Spec.Arr2 1 256)
    (x0 : Vec Ideal S4000x256 .f32) (x1 : Vec Ideal S4000x128 .f32) (x2 : Vec Ideal S128x256 .f32) (x3 : Vec Ideal S1x256 .f32)
    (T : Nat) (hT : T < 200)
    (h0 : ∀ (p : Fin 4000) (q : Fin 256), x0 (ix2 p q) = hs (ix2 (rowOf2 T hT p) q))
    (h1 : ∀ (p : Fin 4000) (k : Fin 128), x1 (ix2 p k) = ea (ix2 (rowOf2 T hT p) k))
    (h2 : ∀ (k : Fin 128) (q : Fin 256), x2 (ix2 k q) = We (ix2 k q))
    (h3 : ∀ q : Fin 256, x3 (ix2 (0 : Fin 1) q) = bias (ix2 (0 : Fin 1) q))
    (p : Fin 4000) (q : Fin 256) :
    k2_pay1 x1 x2 x0 x3 (ix2 p q) = Cert.Spec.msg hs ea We bias (ix2 (rowOf2 T hT p) q) := by
  refine (pay2_at x1 x2 x0 x3 p q).trans ?_
  unfold Cert.Spec.msg
  show _ = max ((hs (ix2 (rowOf2 T hT p) q) + ∑ k : Fin 128, ea (ix2 (rowOf2 T hT p) k) * We (ix2 k q)) + bias (ix2 (0 : Fin 1) q)) 0
  rw [h0 p q, h3 q]
  refine congrArg (fun s => max ((hs (ix2 (rowOf2 T hT p) q) + s) + bias (ix2 (0 : Fin 1) q)) 0) ?_
  exact Finset.sum_congr rfl fun k _ => by rw [h1 p k, h2 k q]

variable (V : (c : Dev nD) → (b : Ref sig .tc) → Buf (Elt Ideal) ((c : Thread nD τ).loc b))

/-- What point t writes back is block t of the message array. -/
theorem flushed2 (c : Dev nD) (t : Fin cfg2.N) :
    (dat2 (F := Ideal) V c).flushed 4 t = ((cfg2.win 4).blk t).view.read (Elt Ideal)
      (Cert.Spec.msg (V c main_v50) (V c main_arg2) (V c main_arg11) (V c main_v51)) := by
  show (cfg2.win 4).cut (grid2.coords t) ((dat2 (F := Ideal) V c).after 4 t) = _
  rw [after2_4]
  unfold out2_4
  rw [View.canon_unit_zero origin2_zero]
  simp only [View.ld_unit_zero (S := S4000x256) origin2_zero, View.ld_unit_zero (S := S4000x128) origin2_zero,
    View.ld_unit_zero (S := S128x256) origin2_zero, View.ld_unit_zero (S := S1x256) origin2_zero]
  obtain ⟨e00, e01, e10, e11, e20, e21, e30, e31, e40, e41⟩ := block2_index t
  have hT : t.val < 200 := lt_of_lt_of_eq t.isLt N_2
  funext j
  obtain ⟨p, q, rfl⟩ : ∃ (p : Fin 4000) (q : Fin 256), j = ix2 p q := ⟨j 0, j 1, eq_ix2 j⟩
  have h0 : ∀ (p : Fin 4000) (q : Fin 256),
      (iblk2 V c 0 t : Vec Ideal S4000x256 .f32) (ix2 p q) = (V c main_v50 : Cert.Spec.Arr2 800000 256) (ix2 (rowOf2 t.val hT p) q) := by
    intro p q
    show V c main_v50 (((cfg2.win 0).blk t).view.emb (ix2 p q)) = V c main_v50 (ix2 (rowOf2 t.val hT p) q)
    refine congrArg (V c main_v50) (funext fun a => Fin.ext ?_)
    match a with
    | ⟨0, _⟩ => show win2_0.index t (0 : Fin 2) * 4000 + 1 * p.val = t.val * 4000 + 1 * p.val; rw [e00]
    | ⟨1, _⟩ => show win2_0.index t (1 : Fin 2) * 256 + 1 * q.val = q.val; rw [e01]; omega
  have h1 : ∀ (p : Fin 4000) (k : Fin 128),
      (iblk2 V c 1 t : Vec Ideal S4000x128 .f32) (ix2 p k) = (V c main_arg2 : Cert.Spec.Arr2 800000 128) (ix2 (rowOf2 t.val hT p) k) := by
    intro p k
    show V c main_arg2 (((cfg2.win 1).blk t).view.emb (ix2 p k)) = V c main_arg2 (ix2 (rowOf2 t.val hT p) k)
    refine congrArg (V c main_arg2) (funext fun a => Fin.ext ?_)
    match a with
    | ⟨0, _⟩ => show win2_1.index t (0 : Fin 2) * 4000 + 1 * p.val = t.val * 4000 + 1 * p.val; rw [e10]
    | ⟨1, _⟩ => show win2_1.index t (1 : Fin 2) * 128 + 1 * k.val = k.val; rw [e11]; omega
  have h2 : ∀ (k : Fin 128) (q : Fin 256),
      (iblk2 V c 2 t : Vec Ideal S128x256 .f32) (ix2 k q) = (V c main_arg11 : Cert.Spec.Arr2 128 256) (ix2 k q) := by
    intro k q
    show V c main_arg11 (((cfg2.win 2).blk t).view.emb (ix2 k q)) = V c main_arg11 (ix2 k q)
    refine congrArg (V c main_arg11) (funext fun a => Fin.ext ?_)
    match a with
    | ⟨0, _⟩ => show win2_2.index t (0 : Fin 2) * 128 + 1 * k.val = k.val; rw [e20]; omega
    | ⟨1, _⟩ => show win2_2.index t (1 : Fin 2) * 256 + 1 * q.val = q.val; rw [e21]; omega
  have h3 : ∀ q : Fin 256,
      (iblk2 V c 3 t : Vec Ideal S1x256 .f32) (ix2 (0 : Fin 1) q) = (V c main_v51 : Cert.Spec.Arr2 1 256) (ix2 (0 : Fin 1) q) := by
    intro q
    show V c main_v51 (((cfg2.win 3).blk t).view.emb (ix2 (0 : Fin 1) q)) = V c main_v51 (ix2 (0 : Fin 1) q)
    refine congrArg (V c main_v51) (funext fun a => Fin.ext ?_)
    match a with
    | ⟨0, _⟩ => show win2_3.index t (0 : Fin 2) * 1 + 1 * 0 = 0; rw [e30]
    | ⟨1, _⟩ => show win2_3.index t (1 : Fin 2) * 256 + 1 * q.val = q.val; rw [e31]; omega
  refine (pay2_block (V c main_v50) (V c main_arg2) (V c main_arg11) (V c main_v51)
    (iblk2 V c 0 t) (iblk2 V c 1 t) (iblk2 V c 2 t) (iblk2 V c 3 t) t.val hT h0 h1 h2 h3 p q).trans ?_
  show Cert.Spec.msg (V c main_v50) (V c main_arg2) (V c main_arg11) (V c main_v51) (ix2 (rowOf2 t.val hT p) q)
    = Cert.Spec.msg (V c main_v50) (V c main_arg2) (V c main_arg11) (V c main_v51) (((cfg2.win 4).blk t).view.emb (ix2 p q))
  refine congrArg (Cert.Spec.msg (V c main_v50) (V c main_arg2) (V c main_arg11) (V c main_v51)) (funext fun a => Fin.ext ?_)
  match a with
  | ⟨0, _⟩ => show t.val * 4000 + 1 * p.val = win2_4.index t (0 : Fin 2) * 4000 + 1 * p.val; rw [e40]
  | ⟨1, _⟩ => show q.val = win2_4.index t (1 : Fin 2) * 256 + 1 * q.val; rw [e41]; omega

/-- An index of the message array is in point t's block iff each coordinate is in the block's range on its axis. -/
theorem mem2_block (t : Fin cfg2.N) (i : S800000x256.Idx) :
    i ∈ ((cfg2.win 4).blk t).view.set ↔ ∀ a : Fin 2, win2_4.index t a * S4000x256.size a ≤ (i a).val
      ∧ (i a).val < win2_4.index t a * S4000x256.size a + S4000x256.size a := by
  show i ∈ ((View.whole main_v52).slice (win2_4.rect t)).set ↔ _
  rw [View.set_slice_whole, Rect.mem_set_unit]
  exact Iff.rfl

/-- Every row r is in the block of point r / 4000: the 200 blocks of 4000 rows tile the 800000. -/
theorem covered2 (i : S800000x256.Idx) :
    ∃ t : Fin cfg2.N, (cfg2.win 4).flush t = true ∧ i ∈ ((cfg2.win 4).blk t).view.set := by
  have hi0 : (i 0).val < 800000 := (i 0).isLt
  have hi1 : (i 1).val < 256 := (i 1).isLt
  have ht : (i 0).val / 4000 < cfg2.N := lt_of_lt_of_eq (by omega : (i 0).val / 4000 < 200) N_2.symm
  obtain ⟨-, -, -, -, -, -, -, -, e40, e41⟩ := block2_index ⟨(i 0).val / 4000, ht⟩
  refine ⟨⟨(i 0).val / 4000, ht⟩, flush2_4 _, ?_⟩
  rw [mem2_block]
  intro a
  match a with
  | ⟨0, _⟩ =>
    show win2_4.index ⟨(i 0).val / 4000, ht⟩ (0 : Fin 2) * 4000 ≤ (i 0).val
      ∧ (i 0).val < win2_4.index ⟨(i 0).val / 4000, ht⟩ (0 : Fin 2) * 4000 + 4000
    rw [e40]
    show (i 0).val / 4000 * 4000 ≤ (i 0).val ∧ (i 0).val < (i 0).val / 4000 * 4000 + 4000
    omega
  | ⟨1, _⟩ =>
    show win2_4.index ⟨(i 0).val / 4000, ht⟩ (1 : Fin 2) * 256 ≤ (i 1).val
      ∧ (i 1).val < win2_4.index ⟨(i 0).val / 4000, ht⟩ (1 : Fin 2) * 256 + 256
    rw [e41]
    omega

/-- The message array after the region: the edge messages of the arrays the region found. -/
theorem final2 (c : Dev nD) : (dat2 (F := Ideal) V c).arrAt 4 cfg2.N
    = Cert.Spec.msg (V c main_v50) (V c main_arg2) (V c main_arg11) (V c main_v51) :=
  (dat2 (F := Ideal) V c).arrAt_eq_of_cover 4 (Cert.Spec.msg (V c main_v50) (V c main_arg2) (V c main_arg11) (V c main_v51))
    (fun t _ => flushed2 V c t) covered2

end Cert.KernelIdeal.Val

end
-- ==== Proof.KI.Val3.lean ====
/-
  What region 3 (the second node update) leaves in its output array, as one function of the arrays it found: every
  entry (n, j) of the 50000 × 256 result is tanh (Σ_k (h[n,k] + agg[n,k]) · W[k,j] + b[0,j]), the shared
  specification's update. The body's arithmetic is read at an index of a block; each grid point's block of the result
  is the block of that one function; and the 25 blocks of 2000 rows tile the array.
-/
import proofs.«419488_j13426067767699_1_alg».proof.Proof.KI.R3
import proofs.«419488_j13426067767699_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Frm Idealize.ShloMosaic Idealize.ShloMosaic.ValueIdx
open Idealize.ShloMosaic.TcCoe
open Idealize.ShloMosaic.Pipeline (Dat)

/-! ## The block product at an index -/

/-- On its row axis the left operand's index at output (p, q) is the output's row. -/
theorem lhs_row3 (j : S2000x256.Idx) (k : dot_S2000x256_S256x256_S2000x256_1_0_0_1_n_n.contr.Idx) :
    (dot_S2000x256_S256x256_S2000x256_1_0_0_1_n_n.lhsIdx j k 0).val = (j 0).val := by
  simp [DotDims.lhsIdx, dot_S2000x256_S256x256_S2000x256_1_0_0_1_n_n]; rfl

/-- On its column axis the left operand's index is the contraction position. -/
theorem lhs_contr3 (j : S2000x256.Idx) (k : dot_S2000x256_S256x256_S2000x256_1_0_0_1_n_n.contr.Idx) :
    (dot_S2000x256_S256x256_S2000x256_1_0_0_1_n_n.lhsIdx j k 1).val = (k ⟨0, by decide⟩).val :=
  DotDims.lhsIdx_val_of_single _ rfl j k

/-- On its row axis the right operand's index is the contraction position. -/
theorem rhs_contr3 (j : S2000x256.Idx) (k : dot_S2000x256_S256x256_S2000x256_1_0_0_1_n_n.contr.Idx) :
    (dot_S2000x256_S256x256_S2000x256_1_0_0_1_n_n.rhsIdx j k 0).val = (k ⟨0, by decide⟩).val :=
  DotDims.rhsIdx_val_of_single _ rfl j k

/-- On its column axis the right operand's index at output (p, q) is the output's column. -/
theorem rhs_col3 (j : S2000x256.Idx) (k : dot_S2000x256_S256x256_S2000x256_1_0_0_1_n_n.contr.Idx) :
    (dot_S2000x256_S256x256_S2000x256_1_0_0_1_n_n.rhsIdx j k 1).val = (j 1).val := by
  simp [DotDims.rhsIdx, dot_S2000x256_S256x256_S2000x256_1_0_0_1_n_n]; rfl

/-- Row p of the left block against column q of the right block: the operand indices of the block product at
    output (p, q) and contraction position k are (p, k) and (k, q). -/
theorem lhs_at3 (p : Fin 2000) (q : Fin 256) (k : Fin 256) :
    dot_S2000x256_S256x256_S2000x256_1_0_0_1_n_n.lhsIdx (ix2 p q)
      ((contrEquiv1 dot_S2000x256_S256x256_S2000x256_1_0_0_1_n_n 256 rfl rfl).symm k) = ix2 p k := by
  funext a; apply Fin.ext
  match a with
  | ⟨0, _⟩ => exact lhs_row3 _ _
  | ⟨1, _⟩ => exact (lhs_contr3 _ _).trans (contrEquiv1_symm_val dot_S2000x256_S256x256_S2000x256_1_0_0_1_n_n 256 rfl rfl k)

/-- … and of the right operand (k, q). -/
theorem rhs_at3 (p : Fin 2000) (q : Fin 256) (k : Fin 256) :
    dot_S2000x256_S256x256_S2000x256_1_0_0_1_n_n.rhsIdx (ix2 p q)
      ((contrEquiv1 dot_S2000x256_S256x256_S2000x256_1_0_0_1_n_n 256 rfl rfl).symm k) = ix2 k q := by
  funext a; apply Fin.ext
  match a with
  | ⟨0, _⟩ => exact (rhs_contr3 _ _).trans (contrEquiv1_symm_val dot_S2000x256_S256x256_S2000x256_1_0_0_1_n_n 256 rfl rfl k)
  | ⟨1, _⟩ => exact rhs_col3 _ _

/-- The one-row bias spread down the 2000 rows reads, at (p, q), the row's entry (0, q). -/
theorem bias_row_at3 (x3 : Vec Ideal S1x256 .f32) (p : Fin 2000) (q : Fin 256) :
    broadcastTo S2000x256 x3 broadcasts_S1x256_S2000x256 (ix2 p q) = x3 (ix2 (0 : Fin 1) q) := by
  refine broadcastTo_apply x3 broadcasts_S1x256_S2000x256 (ix2 p q) (ix2 (0 : Fin 1) q) fun a => ?_
  match a with
  | ⟨0, _⟩ => rfl
  | ⟨1, _⟩ => rfl

/-- The body's arithmetic at entry (p, q) of the block: tanh of row p of the sum of the feature block and the
    aggregate block against column q of the weight, plus the bias row's entry q. The narrowing format changes are the
    identity on extended reals, and the product into the zero block is the plain sum over the contracted coordinate. -/
theorem update_block_at3 (x0 x1 : Vec Ideal S2000x256 .f32) (x2 : Vec Ideal S256x256 .f32) (x3 : Vec Ideal S1x256 .f32)
    (p : Fin 2000) (q : Fin 256) :
    k3_pay1 x0 x1 x2 x3 (ix2 p q)
      = Ideal.tanh ((∑ k : Fin 256, (x0 (ix2 p k) + x1 (ix2 p k)) * x2 (ix2 k q)) + x3 (ix2 (0 : Fin 1) q)) := by
  unfold k3_pay1
  show Ideal.tanh (FloatOps.matmul dot_S2000x256_S256x256_S2000x256_1_0_0_1_n_n none _ _ (constant (F := Ideal) S2000x256 .f32 0x00000000#32) (ix2 p q)
    + broadcastTo S2000x256 (shapeCast S1x256 x3 shapeCasts_S1x256_S1x256) broadcasts_S1x256_S2000x256 (ix2 p q)) = _
  refine congrArg Ideal.tanh ?_
  refine congrArg₂ (· + ·) ?_ ?_
  · refine (Ideal.matmul_constant_zero_apply dot_S2000x256_S256x256_S2000x256_1_0_0_1_n_n none _ _ (ix2 p q)).trans ?_
    refine (Equiv.sum_comp (contrEquiv1 dot_S2000x256_S256x256_S2000x256_1_0_0_1_n_n 256 rfl rfl).symm _).symm.trans ?_
    refine Finset.sum_congr rfl fun k _ => ?_
    rw [lhs_at3, rhs_at3]
    show ((shapeCast S2000x256 x0 shapeCasts_S2000x256_S2000x256) (ix2 p k)
      + (shapeCast S2000x256 x1 shapeCasts_S2000x256_S2000x256) (ix2 p k)) * x2 (ix2 k q) = _
    exact congrArg₂ (fun v w : Vec Ideal S2000x256 .f32 => (v (ix2 p k) + w (ix2 p k)) * x2 (ix2 k q))
      (shapeCast_self x0 _) (shapeCast_self x1 _)
  · refine (bias_row_at3 _ p q).trans ?_
    exact congrArg (fun v : Vec Ideal S1x256 .f32 => v (ix2 (0 : Fin 1) q)) (shapeCast_self x3 _)

/-! ## Each point's block of the result -/

variable (V : (c : Dev nD) → (b : Ref sig .tc) → Buf (Elt Ideal) ((c : Thread nD τ).loc b))

/-- The zero offsets of a rectangle that is its whole buffer. -/
theorem zero_offsets3 : (![0, 0] : Fin 2 → Nat) = fun _ => 0 := funext fun a => by fin_cases a <;> rfl

/-- The windows' index maps over the 25 grid points: the feature, aggregate and result windows sit at block (t, 0),
    the weight and bias windows at block (0, 0). -/
theorem block_indices3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The feature window's block at point t is rows 2000·t … 2000·t + 1999 of the feature array. -/
theorem feature_block_at3 (c : Dev nD) (t : Fin cfg3.N) (p : Fin 2000) (k : Fin 256) (i : S50000x256.Idx)
    (h0 : (i 0).val = 2000 * t.val + p.val) (h1 : (i 1).val = k.val) :
    (iblk3 V c 0 t : Vec Ideal S2000x256 .f32) (ix2 p k) = (V c main_v49 : S50000x256.Idx → EReal) i := by
  obtain ⟨e0, e1, -⟩ := block_indices3 t
  unfold iblk3
  rw [View.read_apply]
  show V c main_v49 _ = V c main_v49 i
  congr 1
  funext a; apply Fin.ext
  match a with
  | ⟨0, _⟩ => show win3_0.index t (0 : Fin 2) * 2000 + 1 * p.val = (i 0).val; rw [e0, h0]; omega
  | ⟨1, _⟩ => show win3_0.index t (1 : Fin 2) * 256 + 1 * k.val = (i 1).val; rw [e1, h1]; omega

/-- The aggregate window's block at point t is the same rows of the aggregated messages. -/
theorem aggregate_block_at3 (c : Dev nD) (t : Fin cfg3.N) (p : Fin 2000) (k : Fin 256) (i : S50000x256.Idx)
    (h0 : (i 0).val = 2000 * t.val + p.val) (h1 : (i 1).val = k.val) :
    (iblk3 V c 1 t : Vec Ideal S2000x256 .f32) (ix2 p k) = (V c main_v55 : S50000x256.Idx → EReal) i := by
  obtain ⟨-, -, e2, e3, -⟩ := block_indices3 t
  unfold iblk3
  rw [View.read_apply]
  show V c main_v55 _ = V c main_v55 i
  congr 1
  funext a; apply Fin.ext
  match a with
  | ⟨0, _⟩ => show win3_1.index t (0 : Fin 2) * 2000 + 1 * p.val = (i 0).val; rw [e2, h0]; omega
  | ⟨1, _⟩ => show win3_1.index t (1 : Fin 2) * 256 + 1 * k.val = (i 1).val; rw [e3, h1]; omega

/-- The weight window's block at every point is the whole weight. -/
theorem weight_block_at3 (c : Dev nD) (t : Fin cfg3.N) (k : Fin 256) (q : Fin 256) (i : S256x256.Idx)
    (h0 : (i 0).val = k.val) (h1 : (i 1).val = q.val) :
    (iblk3 V c 2 t : Vec Ideal S256x256 .f32) (ix2 k q) = (V c main_arg13 : S256x256.Idx → EReal) i := by
  obtain ⟨-, -, -, -, e4, e5, -⟩ := block_indices3 t
  unfold iblk3
  rw [View.read_apply]
  show V c main_arg13 _ = V c main_arg13 i
  congr 1
  funext a; apply Fin.ext
  match a with
  | ⟨0, _⟩ => show win3_2.index t (0 : Fin 2) * 256 + 1 * k.val = (i 0).val; rw [e4, h0]; omega
  | ⟨1, _⟩ => show win3_2.index t (1 : Fin 2) * 256 + 1 * q.val = (i 1).val; rw [e5, h1]; omega

/-- The bias window's block at every point is the whole bias row. -/
theorem bias_block_at3 (c : Dev nD) (t : Fin cfg3.N) (z : Fin 1) (q : Fin 256) (i : S1x256.Idx)
    (h0 : (i 0).val = z.val) (h1 : (i 1).val = q.val) :
    (iblk3 V c 3 t : Vec Ideal S1x256 .f32) (ix2 z q) = (V c main_v56 : S1x256.Idx → EReal) i := by
  obtain ⟨-, -, -, -, -, -, e6, e7, -⟩ := block_indices3 t
  unfold iblk3
  rw [View.read_apply]
  show V c main_v56 _ = V c main_v56 i
  congr 1
  funext a; apply Fin.ext
  match a with
  | ⟨0, _⟩ => show win3_3.index t (0 : Fin 2) * 1 + 1 * z.val = (i 0).val; rw [e6, h0]; omega
  | ⟨1, _⟩ => show win3_3.index t (1 : Fin 2) * 256 + 1 * q.val = (i 1).val; rw [e7, h1]; omega

/-- The result window's block at point t sits at rows 2000·t … of the result array, all 256 columns. -/
theorem result_block_row3 (t : Fin cfg3.N) (p : Fin 2000) (q : Fin 256) :
    ((((cfg3.win 4).blk t).view.emb (ix2 p q)) 0).val = 2000 * t.val + p.val := by
  obtain ⟨-, -, -, -, -, -, -, -, e8, -⟩ := block_indices3 t
  show win3_4.index t (0 : Fin 2) * 2000 + 1 * p.val = _
  rw [e8]; omega

/-- … and its columns are the array's. -/
theorem result_block_col3 (t : Fin cfg3.N) (p : Fin 2000) (q : Fin 256) :
    ((((cfg3.win 4).blk t).view.emb (ix2 p q)) 1).val = q.val := by
  obtain ⟨-, -, -, -, -, -, -, -, -, e9⟩ := block_indices3 t
  show win3_4.index t (1 : Fin 2) * 256 + 1 * q.val = _
  rw [e9]; omega

/-- What point t writes back is block t of the update of the arrays the region found: entry (p, q) of the block is
    tanh of row 2000·t + p of features plus aggregate against column q of the weight, plus the bias at q. -/
theorem written_back_block3 (c : Dev nD) (t : Fin cfg3.N) :
    (dat3 (F := Ideal) V c).flushed 4 t
      = ((cfg3.win 4).blk t).view.read (Elt Ideal)
          (Cert.Spec.upd (V c main_v49) (V c main_v55) (V c main_arg13) (V c main_v56)) := by
  show (cfg3.win 4).cut (grid3.coords t) ((dat3 V c).after 4 t) = _
  rw [after3_4]
  unfold out3_4
  rw [View.canon_unit_zero zero_offsets3]
  simp only [View.ld_unit_zero (S := S2000x256) zero_offsets3, View.ld_unit_zero (S := S256x256) zero_offsets3,
    View.ld_unit_zero (S := S1x256) zero_offsets3]
  funext j
  obtain ⟨p, q, rfl⟩ : ∃ (p : Fin 2000) (q : Fin 256), j = ix2 p q := ⟨j 0, j 1, eq_ix2 j⟩
  show k3_pay1 (iblk3 V c 0 t) (iblk3 V c 1 t) (iblk3 V c 2 t) (iblk3 V c 3 t) (ix2 p q)
    = Cert.Spec.upd (V c main_v49) (V c main_v55) (V c main_arg13) (V c main_v56)
        (((cfg3.win 4).blk t).view.emb (ix2 p q))
  refine (update_block_at3 (iblk3 V c 0 t) (iblk3 V c 1 t) (iblk3 V c 2 t) (iblk3 V c 3 t) p q).trans ?_
  unfold Cert.Spec.upd
  refine congrArg Ideal.tanh (congrArg₂ (· + ·) (Finset.sum_congr rfl fun k _ => ?_) ?_)
  · exact congrArg₂ (· * ·)
      (congrArg₂ (· + ·)
        (feature_block_at3 V c t p k _ (result_block_row3 t p q) rfl)
        (aggregate_block_at3 V c t p k _ (result_block_row3 t p q) rfl))
      (weight_block_at3 V c t k q _ rfl (result_block_col3 t p q))
  · exact bias_block_at3 V c t 0 q _ rfl (result_block_col3 t p q)

/-! ## The blocks tile the array -/

/-- An index of the result array is in point t's block iff each coordinate is in the block's range on its axis. -/
theorem mem_result_block3 (t : Fin cfg3.N) (i : S50000x256.Idx) :
    i ∈ ((cfg3.win 4).blk t).view.set ↔ ∀ a : Fin 2, win3_4.index t a * S2000x256.size a ≤ (i a).val
      ∧ (i a).val < win3_4.index t a * S2000x256.size a + S2000x256.size a := by
  show i ∈ ((View.whole main_v57).slice (win3_4.rect t)).set ↔ _
  rw [View.set_slice_whole, Rect.mem_set_unit]
  exact Iff.rfl

/-- The 25 blocks of 2000 rows tile the 50000 rows: row r lies in the block of point r / 2000, and every point
    writes its block back. -/
theorem result_covered3 (i : S50000x256.Idx) :
    ∃ t : Fin cfg3.N, (cfg3.win 4).flush t = true ∧ i ∈ ((cfg3.win 4).blk t).view.set := by
  have hi0 : (i 0).val < 50000 := (i 0).isLt
  have hi1 : (i 1).val < 256 := (i 1).isLt
  obtain ⟨t, ht⟩ : ∃ t : Fin cfg3.N, t.val = (i 0).val / 2000 :=
    ⟨⟨(i 0).val / 2000, by show (i 0).val / 2000 < 25; omega⟩, rfl⟩
  obtain ⟨-, -, -, -, -, -, -, -, e8, e9⟩ := block_indices3 t
  refine ⟨t, flush3_4 t, ?_⟩
  rw [mem_result_block3]
  intro a
  match a with
  | ⟨0, _⟩ =>
    show win3_4.index t (0 : Fin 2) * 2000 ≤ (i 0).val ∧ (i 0).val < win3_4.index t (0 : Fin 2) * 2000 + 2000
    rw [e8, ht]; omega
  | ⟨1, _⟩ =>
    show win3_4.index t (1 : Fin 2) * 256 ≤ (i 1).val ∧ (i 1).val < win3_4.index t (1 : Fin 2) * 256 + 256
    rw [e9]; omega

/-! ## The array after the region -/

/-- After the last point the result array holds the update of the features, the aggregated messages, the weight and
    the bias the region found: entry (n, j) is tanh (Σ_k (h[n,k] + agg[n,k]) · W[k,j] + b[0,j]). -/
theorem final3 (c : Dev nD) :
    (dat3 (F := Ideal) V c).arrAt 4 cfg3.N
      = Cert.Spec.upd (V c main_v49) (V c main_v55) (V c main_arg13) (V c main_v56) :=
  (dat3 (F := Ideal) V c).arrAt_eq_of_cover 4
    (Cert.Spec.upd (V c main_v49) (V c main_v55) (V c main_arg13) (V c main_v56))
    (fun t _ => written_back_block3 V c t) result_covered3

end Cert.KernelIdeal.Val

end
-- ==== Proof.KI.Val4.lean ====
/-
  What region 4 (the final projection) leaves in its output array, as one function of the arrays it found: every
  entry (n, j) of the 50000 × 128 result is tanh (Σ_k h[n,k] · W[k,j]), the shared specification's projection. The
  body's arithmetic is read at an index of a block; each grid point's block of the result is the block of that one
  function; and the 25 blocks of 2000 rows tile the array.
-/
import proofs.«419488_j13426067767699_1_alg».proof.Proof.KI.R4
import proofs.«419488_j13426067767699_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Frm Idealize.ShloMosaic Idealize.ShloMosaic.ValueIdx
open Idealize.ShloMosaic.TcCoe
open Idealize.ShloMosaic.Pipeline (Dat)

/-! ## The block product at an index -/

/-- On its row axis the left operand's index at output (p, q) is the output's row. -/
theorem lhs_row4 (j : S2000x128.Idx) (k : dot_S2000x256_S256x128_S2000x128_1_0_0_1_n_n.contr.Idx) :
    (dot_S2000x256_S256x128_S2000x128_1_0_0_1_n_n.lhsIdx j k 0).val = (j 0).val := by
  simp [DotDims.lhsIdx, dot_S2000x256_S256x128_S2000x128_1_0_0_1_n_n]; rfl

/-- On its column axis the left operand's index is the contraction position. -/
theorem lhs_contr4 (j : S2000x128.Idx) (k : dot_S2000x256_S256x128_S2000x128_1_0_0_1_n_n.contr.Idx) :
    (dot_S2000x256_S256x128_S2000x128_1_0_0_1_n_n.lhsIdx j k 1).val = (k ⟨0, by decide⟩).val :=
  DotDims.lhsIdx_val_of_single _ rfl j k

/-- On its row axis the right operand's index is the contraction position. -/
theorem rhs_contr4 (j : S2000x128.Idx) (k : dot_S2000x256_S256x128_S2000x128_1_0_0_1_n_n.contr.Idx) :
    (dot_S2000x256_S256x128_S2000x128_1_0_0_1_n_n.rhsIdx j k 0).val = (k ⟨0, by decide⟩).val :=
  DotDims.rhsIdx_val_of_single _ rfl j k

/-- On its column axis the right operand's index at output (p, q) is the output's column. -/
theorem rhs_col4 (j : S2000x128.Idx) (k : dot_S2000x256_S256x128_S2000x128_1_0_0_1_n_n.contr.Idx) :
    (dot_S2000x256_S256x128_S2000x128_1_0_0_1_n_n.rhsIdx j k 1).val = (j 1).val := by
  simp [DotDims.rhsIdx, dot_S2000x256_S256x128_S2000x128_1_0_0_1_n_n]; rfl

/-- Row p of the left block against column q of the right block: the operand indices of the block product at
    output (p, q) and contraction position k are (p, k) and (k, q). -/
theorem lhs_at4 (p : Fin 2000) (q : Fin 128) (k : Fin 256) :
    dot_S2000x256_S256x128_S2000x128_1_0_0_1_n_n.lhsIdx (ix2 p q)
      ((contrEquiv1 dot_S2000x256_S256x128_S2000x128_1_0_0_1_n_n 256 rfl rfl).symm k) = ix2 p k := by
  funext a; apply Fin.ext
  match a with
  | ⟨0, _⟩ => exact lhs_row4 _ _
  | ⟨1, _⟩ => exact (lhs_contr4 _ _).trans (contrEquiv1_symm_val dot_S2000x256_S256x128_S2000x128_1_0_0_1_n_n 256 rfl rfl k)

/-- … and of the right operand (k, q). -/
theorem rhs_at4 (p : Fin 2000) (q : Fin 128) (k : Fin 256) :
    dot_S2000x256_S256x128_S2000x128_1_0_0_1_n_n.rhsIdx (ix2 p q)
      ((contrEquiv1 dot_S2000x256_S256x128_S2000x128_1_0_0_1_n_n 256 rfl rfl).symm k) = ix2 k q := by
  funext a; apply Fin.ext
  match a with
  | ⟨0, _⟩ => exact (rhs_contr4 _ _).trans (contrEquiv1_symm_val dot_S2000x256_S256x128_S2000x128_1_0_0_1_n_n 256 rfl rfl k)
  | ⟨1, _⟩ => exact rhs_col4 _ _

/-- The body's arithmetic at entry (p, q) of the block: tanh of row p of the feature block against column q of the
    weight. The two narrowing format changes are the identity on extended reals, and the product into the zero block
    is the plain sum over the contracted coordinate. -/
theorem projection_block_at4 (x0 : Vec Ideal S2000x256 .f32) (x1 : Vec Ideal S256x128 .f32) (p : Fin 2000) (q : Fin 128) :
    k4_pay1 x0 x1 (ix2 p q) = Ideal.tanh (∑ k : Fin 256, x0 (ix2 p k) * x1 (ix2 k q)) := by
  unfold k4_pay1
  show Ideal.tanh (FloatOps.matmul dot_S2000x256_S256x128_S2000x128_1_0_0_1_n_n none _ _ (constant (F := Ideal) S2000x128 .f32 0x00000000#32) (ix2 p q)) = _
  refine congrArg Ideal.tanh ?_
  refine (Ideal.matmul_constant_zero_apply dot_S2000x256_S256x128_S2000x128_1_0_0_1_n_n none _ _ (ix2 p q)).trans ?_
  refine (Equiv.sum_comp (contrEquiv1 dot_S2000x256_S256x128_S2000x128_1_0_0_1_n_n 256 rfl rfl).symm _).symm.trans ?_
  refine Finset.sum_congr rfl fun k _ => ?_
  rw [lhs_at4, rhs_at4]
  show (shapeCast S2000x256 x0 shapeCasts_S2000x256_S2000x256) (ix2 p k) * x1 (ix2 k q) = _
  exact congrArg (fun v : Vec Ideal S2000x256 .f32 => v (ix2 p k) * x1 (ix2 k q)) (shapeCast_self x0 _)

/-! ## Each point's block of the result -/

variable (V : (c : Dev nD) → (b : Ref sig .tc) → Buf (Elt Ideal) ((c : Thread nD τ).loc b))

/-- The zero offsets of a rectangle that is its whole buffer. -/
theorem zero_offsets4 : (![0, 0] : Fin 2 → Nat) = fun _ => 0 := funext fun a => by fin_cases a <;> rfl

/-- The windows' index maps over the 25 grid points: the feature window and the result window sit at block (t, 0), the
    weight window at block (0, 0). -/
theorem block_indices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature window's block at point t is rows 2000·t … 2000·t + 1999 of the feature array. -/
theorem feature_block_at4 (c : Dev nD) (t : Fin cfg4.N) (p : Fin 2000) (k : Fin 256) (i : S50000x256.Idx)
    (h0 : (i 0).val = 2000 * t.val + p.val) (h1 : (i 1).val = k.val) :
    (iblk4 V c 0 t : Vec Ideal S2000x256 .f32) (ix2 p k) = (V c main_v76 : S50000x256.Idx → EReal) i := by
  obtain ⟨e0, e1, -⟩ := block_indices4 t
  unfold iblk4
  rw [View.read_apply]
  show V c main_v76 _ = V c main_v76 i
  congr 1
  funext a; apply Fin.ext
  match a with
  | ⟨0, _⟩ => show win4_0.index t (0 : Fin 2) * 2000 + 1 * p.val = (i 0).val; rw [e0, h0]; omega
  | ⟨1, _⟩ => show win4_0.index t (1 : Fin 2) * 256 + 1 * k.val = (i 1).val; rw [e1, h1]; omega

/-- The weight window's block at every point is the whole weight. -/
theorem weight_block_at4 (c : Dev nD) (t : Fin cfg4.N) (k : Fin 256) (q : Fin 128) (i : S256x128.Idx)
    (h0 : (i 0).val = k.val) (h1 : (i 1).val = q.val) :
    (iblk4 V c 1 t : Vec Ideal S256x128 .f32) (ix2 k q) = (V c main_arg17 : S256x128.Idx → EReal) i := by
  obtain ⟨-, -, e2, e3, -⟩ := block_indices4 t
  unfold iblk4
  rw [View.read_apply]
  show V c main_arg17 _ = V c main_arg17 i
  congr 1
  funext a; apply Fin.ext
  match a with
  | ⟨0, _⟩ => show win4_1.index t (0 : Fin 2) * 256 + 1 * k.val = (i 0).val; rw [e2, h0]; omega
  | ⟨1, _⟩ => show win4_1.index t (1 : Fin 2) * 128 + 1 * q.val = (i 1).val; rw [e3, h1]; omega

/-- The result window's block at point t sits at rows 2000·t … of the result array, all 128 columns. -/
theorem result_block_row4 (t : Fin cfg4.N) (p : Fin 2000) (q : Fin 128) :
    ((((cfg4.win 2).blk t).view.emb (ix2 p q)) 0).val = 2000 * t.val + p.val := by
  obtain ⟨-, -, -, -, e4, -⟩ := block_indices4 t
  show win4_2.index t (0 : Fin 2) * 2000 + 1 * p.val = _
  rw [e4]; omega

/-- … and its columns are the array's. -/
theorem result_block_col4 (t : Fin cfg4.N) (p : Fin 2000) (q : Fin 128) :
    ((((cfg4.win 2).blk t).view.emb (ix2 p q)) 1).val = q.val := by
  obtain ⟨-, -, -, -, -, e5⟩ := block_indices4 t
  show win4_2.index t (1 : Fin 2) * 128 + 1 * q.val = _
  rw [e5]; omega

/-- What point t writes back is block t of the projection of the arrays the region found: entry (p, q) of the block
    is tanh of row 2000·t + p of the features against column q of the weight. -/
theorem written_back_block4 (c : Dev nD) (t : Fin cfg4.N) :
    (dat4 (F := Ideal) V c).flushed 2 t
      = ((cfg4.win 2).blk t).view.read (Elt Ideal) (Cert.Spec.fc (V c main_v76) (V c main_arg17)) := by
  show (cfg4.win 2).cut (grid4.coords t) ((dat4 V c).after 2 t) = _
  rw [after4_2]
  unfold out4_2
  rw [View.canon_unit_zero zero_offsets4]
  simp only [View.ld_unit_zero (S := S2000x256) zero_offsets4, View.ld_unit_zero (S := S256x128) zero_offsets4]
  funext j
  obtain ⟨p, q, rfl⟩ : ∃ (p : Fin 2000) (q : Fin 128), j = ix2 p q := ⟨j 0, j 1, eq_ix2 j⟩
  show k4_pay1 (iblk4 V c 0 t) (iblk4 V c 1 t) (ix2 p q)
    = Cert.Spec.fc (V c main_v76) (V c main_arg17) (((cfg4.win 2).blk t).view.emb (ix2 p q))
  refine (projection_block_at4 (iblk4 V c 0 t) (iblk4 V c 1 t) p q).trans ?_
  unfold Cert.Spec.fc
  refine congrArg Ideal.tanh (Finset.sum_congr rfl fun k _ => ?_)
  exact congrArg₂ (· * ·)
    (feature_block_at4 V c t p k _ (result_block_row4 t p q) rfl)
    (weight_block_at4 V c t k q _ rfl (result_block_col4 t p q))

/-! ## The blocks tile the array -/

/-- An index of the result array is in point t's block iff each coordinate is in the block's range on its axis. -/
theorem mem_result_block4 (t : Fin cfg4.N) (i : S50000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v77).slice (win4_2.rect t)).set ↔ _
  rw [View.set_slice_whole, Rect.mem_set_unit]
  exact Iff.rfl

/-- The 25 blocks of 2000 rows tile the 50000 rows: row r lies in the block of point r / 2000, and every point
    writes its block back. -/
theorem result_covered4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ : ∃ t : Fin cfg4.N, t.val = (i 0).val / 2000 :=
    ⟨⟨(i 0).val / 2000, by show (i 0).val / 2000 < 25; omega⟩, rfl⟩
  obtain ⟨-, -, -, -, e4, e5⟩ := block_indices4 t
  refine ⟨t, flush4_2 t, ?_⟩
  rw [mem_result_block4]
  intro a
  match a with
  | ⟨0, _⟩ =>
    show win4_2.index t (0 : Fin 2) * 2000 ≤ (i 0).val ∧ (i 0).val < win4_2.index t (0 : Fin 2) * 2000 + 2000
    rw [e4, ht]; omega
  | ⟨1, _⟩ =>
    show win4_2.index t (1 : Fin 2) * 128 ≤ (i 1).val ∧ (i 1).val < win4_2.index t (1 : Fin 2) * 128 + 128
    rw [e5]; omega

/-! ## The array after the region -/

/-- After the last point the result array holds the projection of the features and the weight the region found:
    entry (n, j) is tanh (Σ_k h[n,k] · W[k,j]). -/
theorem final4 (c : Dev nD) :
    (dat4 (F := Ideal) V c).arrAt 2 cfg4.N = Cert.Spec.fc (V c main_v76) (V c main_arg17) :=
  (dat4 (F := Ideal) V c).arrAt_eq_of_cover 2 (Cert.Spec.fc (V c main_v76) (V c main_arg17))
    (fun t _ => written_back_block4 V c t) result_covered4

end Cert.KernelIdeal.Val

end
-- ==== Proof.KI.Stages.lean ====
/-
  The host-side stages of the idealized kernel program between its five tiled regions, each as the composition of
  the functions of the operations that compute it, in program order: the two rows of the edge index, batch
  normalization at widths 128 and 256, the filled row gather at both widths, a bias vector as a one-row matrix, the
  segment sum by destination at both widths, and the final concatenation along the columns.
-/
import proofs.«419488_j13426067767699_1_alg».proof.Proof.Gen.KernelIdeal
import Idealize.ShloMosaic.PureOps

noncomputable section

namespace Cert.KernelIdeal.Hand

open Cert.KernelIdeal Cert.KernelIdeal.Gen Idealize.ShloMosaic

variable {F : FTy → Type} [FloatOps F]

/-- Row 0 of the 2×800000 edge index, as a vector: the source node of each edge. -/
def kSrc (ei : IVec S2x800000 32) : IVec S800000 32 :=
  let v0 : IVec S1x800000 32 := extractStridedSlice S1x800000 ![0, 0] ei slices_S2x800000_S1x800000_0_0
  shapeCast S800000 v0 shapeCasts_S1x800000_S800000

/-- Row 1 of the edge index, as a vector: the destination node of each edge. -/
def kDst (ei : IVec S2x800000 32) : IVec S800000 32 :=
  let v2 : IVec S1x800000 32 := extractStridedSlice S1x800000 ![1, 0] ei slices_S2x800000_S1x800000_1_0
  shapeCast S800000 v2 shapeCasts_S1x800000_S800000

/-- Batch normalization over the 50000 rows at width 128: the column means m = (Σ_n x[n,j]) / 50000, the column
    variances v = (Σ_n (x[n,j] - m[j])²) / (50000 - 0) (the not-a-number pattern where 50000 - 0 is not positive), and
    g[j] · (x[n,j] - m[j]) · rsqrt (v[j] + 1e-5) + b[j]. -/
def kBn128 (x : FVec F S50000x128 .f32) (g b : FVec F S128 .f32) : FVec F S50000x128 .f32 :=
  -- the column means
  let cst : FVec F S_ .f32 := constant S_ .f32 0x00000000#32
  let v4 : FVec F S128 .f32 := Host.reduceAdd x cst reducesTo_S50000x128_S128_d0 h_S_
  let cst_0 : FVec F S_ .f32 := constant S_ .f32 0x47435000#32
  let v5 : FVec F S128 .f32 := broadcastInDim S128 ![] bcast_S_S128 cst_0
  let v6 : FVec F S128 .f32 := Host.divf v4 v5
  let c : IVec S_ 32 := constantI S_ 32 0#32
  -- the column variances, with 0 degrees of freedom taken off
  let w_cst : FVec F S_ .f32 := constant S_ .f32 0x00000000#32
  let w0 : FVec F S128 .f32 := Host.reduceAdd x w_cst reducesTo_S50000x128_S128_d0 h_S_
  let w1 : FVec F S1x128 .f32 := broadcastInDim S1x128 ![1] bcast_S128_S1x128_1 w0
  let w_cst_0 : FVec F S_ .f32 := constant S_ .f32 0x47435000#32
  let w2 : FVec F S1x128 .f32 := broadcastInDim S1x128 ![] bcast_S_S1x128 w_cst_0
  let w3 : FVec F S1x128 .f32 := Host.divf w1 w2
  let w4 : FVec F S50000x128 .f32 := broadcastInDim S50000x128 ![0, 1] bcast_S1x128_S50000x128_0_1 w3
  let w5 : FVec F S50000x128 .f32 := subf x w4
  let w6 : FVec F S50000x128 .f32 := mulf w5 w5
  let w7 : FVec F S_ .f32 := sitofp .f32 c
  let w_cst_1 : FVec F S_ .f32 := constant S_ .f32 0x47435000#32
  let w8 : FVec F S_ .f32 := subf w_cst_1 w7
  let w_cst_2 : FVec F S_ .f32 := constant S_ .f32 0x00000000#32
  let w9 : FVec F S128 .f32 := Host.reduceAdd w6 w_cst_2 reducesTo_S50000x128_S128_d0 h_S_
  let w10 : FVec F S128 .f32 := broadcastInDim S128 ![] bcast_S_S128 w8
  let w11 : FVec F S128 .f32 := Host.divf w9 w10
  let w_cst_3 : FVec F S_ .f32 := constant S_ .f32 0x00000000#32
  let w12 : IVec S_ 1 := cmpf .ogt w8 w_cst_3
  let w_cst_4 : FVec F S_ .f32 := constant S_ .f32 0x7FC00000#32
  let u0 : FVec F S_ .f32 := id w_cst_4
  let u1 : FVec F S128 .f32 := broadcastInDim S128 ![] bcast_S_S128 u0
  let v7 : FVec F S128 .f32 := select (broadcastInDim S128 ![] bcast_S_S128 w12) w11 u1
  -- centre, scale by the weight and the inverse deviation, shift by the bias
  let v8 : FVec F S1x128 .f32 := broadcastInDim S1x128 ![1] bcast_S128_S1x128_1 v6
  let v9 : FVec F S50000x128 .f32 := broadcastInDim S50000x128 ![0, 1] bcast_S1x128_S50000x128_0_1 v8
  let v10 : FVec F S50000x128 .f32 := subf x v9
  let v11 : FVec F S1x128 .f32 := broadcastInDim S1x128 ![1] bcast_S128_S1x128_1 g
  let v12 : FVec F S50000x128 .f32 := broadcastInDim S50000x128 ![0, 1] bcast_S1x128_S50000x128_0_1 v11
  let v13 : FVec F S50000x128 .f32 := mulf v12 v10
  let cst_1 : FVec F S_ .f32 := constant S_ .f32 0x3727C5AC#32
  let v14 : FVec F S128 .f32 := broadcastInDim S128 ![] bcast_S_S128 cst_1
  let v15 : FVec F S128 .f32 := addf v7 v14
  let v16 : FVec F S128 .f32 := Host.rsqrt v15
  let v17 : FVec F S1x128 .f32 := broadcastInDim S1x128 ![1] bcast_S128_S1x128_1 v16
  let v18 : FVec F S50000x128 .f32 := broadcastInDim S50000x128 ![0, 1] bcast_S1x128_S50000x128_0_1 v17
  let v19 : FVec F S50000x128 .f32 := mulf v13 v18
  let v20 : FVec F S1x128 .f32 := broadcastInDim S1x128 ![1] bcast_S128_S1x128_1 b
  let v21 : FVec F S50000x128 .f32 := broadcastInDim S50000x128 ![0, 1] bcast_S1x128_S50000x128_0_1 v20
  addf v19 v21

/-- Batch normalization over the 50000 rows at width 256: the column means m = (Σ_n x[n,j]) / 50000, the column
    variances v = (Σ_n (x[n,j] - m[j])²) / (50000 - 0) (the not-a-number pattern where 50000 - 0 is not positive), and
    g[j] · (x[n,j] - m[j]) · rsqrt (v[j] + 1e-5) + b[j]. -/
def kBn256 (x : FVec F S50000x256 .f32) (g b : FVec F S256 .f32) : FVec F S50000x256 .f32 :=
  -- the column means
  let cst : FVec F S_ .f32 := constant S_ .f32 0x00000000#32
  let v4 : FVec F S256 .f32 := Host.reduceAdd x cst reducesTo_S50000x256_S256_d0 h_S_
  let cst_0 : FVec F S_ .f32 := constant S_ .f32 0x47435000#32
  let v5 : FVec F S256 .f32 := broadcastInDim S256 ![] bcast_S_S256 cst_0
  let v6 : FVec F S256 .f32 := Host.divf v4 v5
  let c : IVec S_ 32 := constantI S_ 32 0#32
  -- the column variances, with 0 degrees of freedom taken off
  let w_cst : FVec F S_ .f32 := constant S_ .f32 0x00000000#32
  let w0 : FVec F S256 .f32 := Host.reduceAdd x w_cst reducesTo_S50000x256_S256_d0 h_S_
  let w1 : FVec F S1x256 .f32 := broadcastInDim S1x256 ![1] bcast_S256_S1x256_1 w0
  let w_cst_0 : FVec F S_ .f32 := constant S_ .f32 0x47435000#32
  let w2 : FVec F S1x256 .f32 := broadcastInDim S1x256 ![] bcast_S_S1x256 w_cst_0
  let w3 : FVec F S1x256 .f32 := Host.divf w1 w2
  let w4 : FVec F S50000x256 .f32 := broadcastInDim S50000x256 ![0, 1] bcast_S1x256_S50000x256_0_1 w3
  let w5 : FVec F S50000x256 .f32 := subf x w4
  let w6 : FVec F S50000x256 .f32 := mulf w5 w5
  let w7 : FVec F S_ .f32 := sitofp .f32 c
  let w_cst_1 : FVec F S_ .f32 := constant S_ .f32 0x47435000#32
  let w8 : FVec F S_ .f32 := subf w_cst_1 w7
  let w_cst_2 : FVec F S_ .f32 := constant S_ .f32 0x00000000#32
  let w9 : FVec F S256 .f32 := Host.reduceAdd w6 w_cst_2 reducesTo_S50000x256_S256_d0 h_S_
  let w10 : FVec F S256 .f32 := broadcastInDim S256 ![] bcast_S_S256 w8
  let w11 : FVec F S256 .f32 := Host.divf w9 w10
  let w_cst_3 : FVec F S_ .f32 := constant S_ .f32 0x00000000#32
  let w12 : IVec S_ 1 := cmpf .ogt w8 w_cst_3
  let w_cst_4 : FVec F S_ .f32 := constant S_ .f32 0x7FC00000#32
  let u0 : FVec F S_ .f32 := id w_cst_4
  let u1 : FVec F S256 .f32 := broadcastInDim S256 ![] bcast_S_S256 u0
  let v7 : FVec F S256 .f32 := select (broadcastInDim S256 ![] bcast_S_S256 w12) w11 u1
  -- centre, scale by the weight and the inverse deviation, shift by the bias
  let v8 : FVec F S1x256 .f32 := broadcastInDim S1x256 ![1] bcast_S256_S1x256_1 v6
  let v9 : FVec F S50000x256 .f32 := broadcastInDim S50000x256 ![0, 1] bcast_S1x256_S50000x256_0_1 v8
  let v10 : FVec F S50000x256 .f32 := subf x v9
  let v11 : FVec F S1x256 .f32 := broadcastInDim S1x256 ![1] bcast_S256_S1x256_1 g
  let v12 : FVec F S50000x256 .f32 := broadcastInDim S50000x256 ![0, 1] bcast_S1x256_S50000x256_0_1 v11
  let v13 : FVec F S50000x256 .f32 := mulf v12 v10
  let cst_1 : FVec F S_ .f32 := constant S_ .f32 0x3727C5AC#32
  let v14 : FVec F S256 .f32 := broadcastInDim S256 ![] bcast_S_S256 cst_1
  let v15 : FVec F S256 .f32 := addf v7 v14
  let v16 : FVec F S256 .f32 := Host.rsqrt v15
  let v17 : FVec F S1x256 .f32 := broadcastInDim S1x256 ![1] bcast_S256_S1x256_1 v16
  let v18 : FVec F S50000x256 .f32 := broadcastInDim S50000x256 ![0, 1] bcast_S1x256_S50000x256_0_1 v17
  let v19 : FVec F S50000x256 .f32 := mulf v13 v18
  let v20 : FVec F S1x256 .f32 := broadcastInDim S1x256 ![1] bcast_S256_S1x256_1 b
  let v21 : FVec F S50000x256 .f32 := broadcastInDim S50000x256 ![0, 1] bcast_S1x256_S50000x256_0_1 v20
  addf v19 v21

/-- Row gather with out-of-range rows filled: a negative index has 50000 added; where the resulting index lies in
    0 … 49999 the result row is that row of h (the gather itself clamps), elsewhere every entry of the row is the
    not-a-number pattern. -/
def kTake128 (h : FVec F S50000x128 .f32) (src : IVec S800000 32) : FVec F S800000x128 .f32 :=
  let c : IVec S_ 32 := constantI S_ 32 0#32
  let v0 : IVec S800000 32 := broadcastInDim S800000 ![] bcast_S_S800000 c
  let v1 : IVec S800000 1 := cmpi .slt src v0
  let c_0 : IVec S_ 32 := constantI S_ 32 50000#32
  let v2 : IVec S800000 32 := broadcastInDim S800000 ![] bcast_S_S800000 c_0
  let v3 : IVec S800000 32 := addi src v2
  let v4 : IVec S800000 32 := select v1 v3 src
  let v5 : IVec S800000x1 32 := broadcastInDim S800000x1 ![0] bcast_S800000_S800000x1_0 v4
  let c_1 : IVec S1 32 := constantI S1 32 49999#32
  let c_2 : IVec S_ 32 := constantI S_ 32 0#32
  let v6 : IVec S800000x1 32 := broadcastInDim S800000x1 ![] bcast_S_S800000x1 c_2
  let v7 : IVec S800000x1 1 := cmpi .sge v5 v6
  let v8 : IVec S1x1 32 := broadcastInDim S1x1 ![1] bcast_S1_S1x1_1 c_1
  let v9 : IVec S800000x1 32 := broadcastInDim S800000x1 ![0, 1] bcast_S1x1_S800000x1_0_1 v8
  let v10 : IVec S800000x1 1 := cmpi .sle v5 v9
  let v11 : IVec S800000x1 1 := andi v7 v10
  let c_3 : IVec S_ 1 := constantI S_ 1 1#1
  let v12 : IVec S800000 1 := Host.reduce IntOp.andi v11 c_3 reducesTo_S800000x1_S800000_d1 h_S_
  let v13 : FVec F S800000x128 .f32 := Host.gather gather_S50000x128_S800000x1_S800000x128_1_0_n_n_0_1_1128 h v5
  let v14 : IVec S800000x128 1 := broadcastInDim S800000x128 ![0] bcast_S800000_S800000x128_0 v12
  let cst : FVec F S_ .f32 := constant S_ .f32 0x7FC00000#32
  let v15 : FVec F S800000x128 .f32 := broadcastInDim S800000x128 ![] bcast_S_S800000x128 cst
  select v14 v13 v15

/-- Row gather with out-of-range rows filled: a negative index has 50000 added; where the resulting index lies in
    0 … 49999 the result row is that row of h (the gather itself clamps), elsewhere every entry of the row is the
    not-a-number pattern. -/
def kTake256 (h : FVec F S50000x256 .f32) (src : IVec S800000 32) : FVec F S800000x256 .f32 :=
  let c : IVec S_ 32 := constantI S_ 32 0#32
  let v0 : IVec S800000 32 := broadcastInDim S800000 ![] bcast_S_S800000 c
  let v1 : IVec S800000 1 := cmpi .slt src v0
  let c_0 : IVec S_ 32 := constantI S_ 32 50000#32
  let v2 : IVec S800000 32 := broadcastInDim S800000 ![] bcast_S_S800000 c_0
  let v3 : IVec S800000 32 := addi src v2
  let v4 : IVec S800000 32 := select v1 v3 src
  let v5 : IVec S800000x1 32 := broadcastInDim S800000x1 ![0] bcast_S800000_S800000x1_0 v4
  let c_1 : IVec S1 32 := constantI S1 32 49999#32
  let c_2 : IVec S_ 32 := constantI S_ 32 0#32
  let v6 : IVec S800000x1 32 := broadcastInDim S800000x1 ![] bcast_S_S800000x1 c_2
  let v7 : IVec S800000x1 1 := cmpi .sge v5 v6
  let v8 : IVec S1x1 32 := broadcastInDim S1x1 ![1] bcast_S1_S1x1_1 c_1
  let v9 : IVec S800000x1 32 := broadcastInDim S800000x1 ![0, 1] bcast_S1x1_S800000x1_0_1 v8
  let v10 : IVec S800000x1 1 := cmpi .sle v5 v9
  let v11 : IVec S800000x1 1 := andi v7 v10
  let c_3 : IVec S_ 1 := constantI S_ 1 1#1
  let v12 : IVec S800000 1 := Host.reduce IntOp.andi v11 c_3 reducesTo_S800000x1_S800000_d1 h_S_
  let v13 : FVec F S800000x256 .f32 := Host.gather gather_S50000x256_S800000x1_S800000x256_1_0_n_n_0_1_1256 h v5
  let v14 : IVec S800000x256 1 := broadcastInDim S800000x256 ![0] bcast_S800000_S800000x256_0 v12
  let cst : FVec F S_ .f32 := constant S_ .f32 0x7FC00000#32
  let v15 : FVec F S800000x256 .f32 := broadcastInDim S800000x256 ![] bcast_S_S800000x256 cst
  select v14 v13 v15

/-- A bias vector of length 128 as a 1×128 matrix. -/
def kRow128 (b : FVec F S128 .f32) : FVec F S1x128 .f32 :=
  shapeCast S1x128 b shapeCasts_S128_S1x128

/-- A bias vector of length 256 as a 1×256 matrix. -/
def kRow256 (b : FVec F S256 .f32) : FVec F S1x256 .f32 :=
  shapeCast S1x256 b shapeCasts_S256_S1x256

/-- Segment sum by destination: from the zero array, row e of msg is added into row dst[e], for every edge e. -/
def kAgg128 (msg : FVec F S800000x128 .f32) (dst : IVec S800000 32) : FVec F S50000x128 .f32 :=
  let cst : FVec F S_ .f32 := constant S_ .f32 0x00000000#32
  let z : FVec F S50000x128 .f32 := broadcastInDim S50000x128 ![] bcast_S_S50000x128 cst
  let col : IVec S800000x1 32 := broadcastInDim S800000x1 ![0] bcast_S800000_S800000x1_0 dst
  Host.scatterAdd scatter_S50000x128_S800000x1_S800000x128_1_0_0_1 z col msg

/-- Segment sum by destination: from the zero array, row e of msg is added into row dst[e], for every edge e. -/
def kAgg256 (msg : FVec F S800000x256 .f32) (dst : IVec S800000 32) : FVec F S50000x256 .f32 :=
  let cst : FVec F S_ .f32 := constant S_ .f32 0x00000000#32
  let z : FVec F S50000x256 .f32 := broadcastInDim S50000x256 ![] bcast_S_S50000x256 cst
  let col : IVec S800000x1 32 := broadcastInDim S800000x1 ![0] bcast_S800000_S800000x1_0 dst
  Host.scatterAdd scatter_S50000x256_S800000x1_S800000x256_1_0_0_1 z col msg

/-- The result: the two normalized hidden layers and the final projection side by side, 256 + 256 + 128 columns. -/
def kOut (h1 h2 : FVec F S50000x256 .f32) (h3 : FVec F S50000x128 .f32) : FVec F S50000x640 .f32 :=
  concatenate S50000x640 1 [⟨S50000x256, h1⟩, ⟨S50000x256, h2⟩, ⟨S50000x128, h3⟩]
    concatenates_S50000x256_S50000x256_S50000x128_S50000x640_d1

end Cert.KernelIdeal.Hand

end
-- ==== Proof.KI.ResDef.lean ====
/-
  The kernel program's result as ONE term of the argument arrays, at the ideal instance: the host stages it shares with
  the reference (batch normalisation, the take, the scatter-add, the concatenate) around the three pieces of
  arithmetic its tiled regions compute, each read as a whole-array function (the shared specification):
  h = BN(x); m0 = message(take h src, attr, We0, be0); h1 = BN(update(h, agg m0 dst, W0, b0)); the same once more at
  width 256; h3 = projection(h2, Wfc); the result is the three blocks side by side.
-/
import proofs.«419488_j13426067767699_1_alg».proof.Proof.KI.Stages
import proofs.«419488_j13426067767699_1_alg».proof.Proof.Spec

noncomputable section

namespace Cert.KernelIdeal.Hand

open Cert.KernelIdeal Cert.KernelIdeal.Gen Idealize.ShloMosaic

/-- The kernel program's result term. -/
def kRes (x : FVec Ideal S50000x128 .f32) (ei : IVec S2x800000 32) (ea : FVec Ideal S800000x128 .f32) (gin bin : FVec Ideal S128 .f32)
    (We0 : FVec Ideal S128x128 .f32) (be0 : FVec Ideal S128 .f32) (W0 : FVec Ideal S128x256 .f32) (b0 g0 bb0 : FVec Ideal S256 .f32)
    (We1 : FVec Ideal S128x256 .f32) (be1 : FVec Ideal S256 .f32) (W1 : FVec Ideal S256x256 .f32) (b1 g1 bb1 : FVec Ideal S256 .f32)
    (Wfc : FVec Ideal S256x128 .f32) : FVec Ideal S50000x640 .f32 :=
  let src := kSrc ei
  let dst := kDst ei
  let h := kBn128 (F := Ideal) x gin bin
  let m0 := Cert.Spec.msg (kTake128 (F := Ideal) h src) ea We0 (kRow128 (F := Ideal) be0)
  let h1 := kBn256 (F := Ideal) (Cert.Spec.upd h (kAgg128 (F := Ideal) m0 dst) W0 (kRow256 (F := Ideal) b0)) g0 bb0
  let m1 := Cert.Spec.msg (kTake256 (F := Ideal) h1 src) ea We1 (kRow256 (F := Ideal) be1)
  let h2 := kBn256 (F := Ideal) (Cert.Spec.upd h1 (kAgg256 (F := Ideal) m1 dst) W1 (kRow256 (F := Ideal) b1)) g1 bb1
  kOut (F := Ideal) h1 h2 (Cert.Spec.fc h2 Wfc)

end Cert.KernelIdeal.Hand

end
-- ==== Proof.KI.HostVals.lean ====
/-
  The contents of the buffers the five tiled regions and the final result read, in the idealized kernel program:
  each host stretch is computed once from arbitrary starting contents, as the stage function of its operands, and
  the values are then carried from the stretch that wrote them to the item that reads them across the stretches
  and regions in between, none of which writes them.
-/
import proofs.«419488_j13426067767699_1_alg».proof.Proof.Gen.KernelIdeal.Regions
import proofs.«419488_j13426067767699_1_alg».proof.Proof.KI.Stages
import Idealize.ShloMosaic.Lib.StableHlo.Run

set_option maxRecDepth 4096

noncomputable section

namespace Cert.KernelIdeal.Hand

open Cert.KernelIdeal Cert.KernelIdeal.Gen Idealize.ShloMosaic Idealize.ShloMosaic.TcCoe

variable {F : FTy → Type} [FloatOps F]

/-! ## Batch normalization in three parts: means, variances, normalization -/

/-- The column means at width 128: (Σ_n x[n,j]) / 50000. -/
def kMean128 (x : FVec F S50000x128 .f32) : FVec F S128 .f32 :=
  let cst : FVec F S_ .f32 := constant S_ .f32 0x00000000#32
  let v4 : FVec F S128 .f32 := Host.reduceAdd x cst reducesTo_S50000x128_S128_d0 h_S_
  let cst_0 : FVec F S_ .f32 := constant S_ .f32 0x47435000#32
  let v5 : FVec F S128 .f32 := broadcastInDim S128 ![] bcast_S_S128 cst_0
  Host.divf v4 v5

/-- The column variances at width 128 with d degrees of freedom taken off: (Σ_n (x[n,j] - mean_j)²) / (50000 - d), the
    not-a-number pattern where 50000 - d is not positive. -/
def kVar128 (x : FVec F S50000x128 .f32) (c : IVec S_ 32) : FVec F S128 .f32 :=
  let w_cst : FVec F S_ .f32 := constant S_ .f32 0x00000000#32
  let w0 : FVec F S128 .f32 := Host.reduceAdd x w_cst reducesTo_S50000x128_S128_d0 h_S_
  let w1 : FVec F S1x128 .f32 := broadcastInDim S1x128 ![1] bcast_S128_S1x128_1 w0
  let w_cst_0 : FVec F S_ .f32 := constant S_ .f32 0x47435000#32
  let w2 : FVec F S1x128 .f32 := broadcastInDim S1x128 ![] bcast_S_S1x128 w_cst_0
  let w3 : FVec F S1x128 .f32 := Host.divf w1 w2
  let w4 : FVec F S50000x128 .f32 := broadcastInDim S50000x128 ![0, 1] bcast_S1x128_S50000x128_0_1 w3
  let w5 : FVec F S50000x128 .f32 := subf x w4
  let w6 : FVec F S50000x128 .f32 := mulf w5 w5
  let w7 : FVec F S_ .f32 := sitofp .f32 c
  let w_cst_1 : FVec F S_ .f32 := constant S_ .f32 0x47435000#32
  let w8 : FVec F S_ .f32 := subf w_cst_1 w7
  let w_cst_2 : FVec F S_ .f32 := constant S_ .f32 0x00000000#32
  let w9 : FVec F S128 .f32 := Host.reduceAdd w6 w_cst_2 reducesTo_S50000x128_S128_d0 h_S_
  let w10 : FVec F S128 .f32 := broadcastInDim S128 ![] bcast_S_S128 w8
  let w11 : FVec F S128 .f32 := Host.divf w9 w10
  let w_cst_3 : FVec F S_ .f32 := constant S_ .f32 0x00000000#32
  let w12 : IVec S_ 1 := cmpf .ogt w8 w_cst_3
  let w_cst_4 : FVec F S_ .f32 := constant S_ .f32 0x7FC00000#32
  let u0 : FVec F S_ .f32 := id w_cst_4
  let u1 : FVec F S128 .f32 := broadcastInDim S128 ![] bcast_S_S128 u0
  select (broadcastInDim S128 ![] bcast_S_S128 w12) w11 u1

/-- Centring by the mean, scaling by the weight and by rsqrt (variance + 1e-5), shifting by the bias, at width 128. -/
def kNorm128 (x : FVec F S50000x128 .f32) (v6 v7 g b : FVec F S128 .f32) : FVec F S50000x128 .f32 :=
  let v8 : FVec F S1x128 .f32 := broadcastInDim S1x128 ![1] bcast_S128_S1x128_1 v6
  let v9 : FVec F S50000x128 .f32 := broadcastInDim S50000x128 ![0, 1] bcast_S1x128_S50000x128_0_1 v8
  let v10 : FVec F S50000x128 .f32 := subf x v9
  let v11 : FVec F S1x128 .f32 := broadcastInDim S1x128 ![1] bcast_S128_S1x128_1 g
  let v12 : FVec F S50000x128 .f32 := broadcastInDim S50000x128 ![0, 1] bcast_S1x128_S50000x128_0_1 v11
  let v13 : FVec F S50000x128 .f32 := mulf v12 v10
  let cst_1 : FVec F S_ .f32 := constant S_ .f32 0x3727C5AC#32
  let v14 : FVec F S128 .f32 := broadcastInDim S128 ![] bcast_S_S128 cst_1
  let v15 : FVec F S128 .f32 := addf v7 v14
  let v16 : FVec F S128 .f32 := Host.rsqrt v15
  let v17 : FVec F S1x128 .f32 := broadcastInDim S1x128 ![1] bcast_S128_S1x128_1 v16
  let v18 : FVec F S50000x128 .f32 := broadcastInDim S50000x128 ![0, 1] bcast_S1x128_S50000x128_0_1 v17
  let v19 : FVec F S50000x128 .f32 := mulf v13 v18
  let v20 : FVec F S1x128 .f32 := broadcastInDim S1x128 ![1] bcast_S128_S1x128_1 b
  let v21 : FVec F S50000x128 .f32 := broadcastInDim S50000x128 ![0, 1] bcast_S1x128_S50000x128_0_1 v20
  addf v19 v21

/-- Batch normalization is the normalization by its own means and variances (no degrees of freedom taken off). -/
theorem kBn128_eq (x : FVec F S50000x128 .f32) (g b : FVec F S128 .f32) :
    kBn128 x g b = kNorm128 x (kMean128 x) (kVar128 x (constantI S_ 32 0#32)) g b := rfl

/-- The column means at width 256: (Σ_n x[n,j]) / 50000. -/
def kMean256 (x : FVec F S50000x256 .f32) : FVec F S256 .f32 :=
  let cst : FVec F S_ .f32 := constant S_ .f32 0x00000000#32
  let v4 : FVec F S256 .f32 := Host.reduceAdd x cst reducesTo_S50000x256_S256_d0 h_S_
  let cst_0 : FVec F S_ .f32 := constant S_ .f32 0x47435000#32
  let v5 : FVec F S256 .f32 := broadcastInDim S256 ![] bcast_S_S256 cst_0
  Host.divf v4 v5

/-- The column variances at width 256 with d degrees of freedom taken off: (Σ_n (x[n,j] - mean_j)²) / (50000 - d), the
    not-a-number pattern where 50000 - d is not positive. -/
def kVar256 (x : FVec F S50000x256 .f32) (c : IVec S_ 32) : FVec F S256 .f32 :=
  let w_cst : FVec F S_ .f32 := constant S_ .f32 0x00000000#32
  let w0 : FVec F S256 .f32 := Host.reduceAdd x w_cst reducesTo_S50000x256_S256_d0 h_S_
  let w1 : FVec F S1x256 .f32 := broadcastInDim S1x256 ![1] bcast_S256_S1x256_1 w0
  let w_cst_0 : FVec F S_ .f32 := constant S_ .f32 0x47435000#32
  let w2 : FVec F S1x256 .f32 := broadcastInDim S1x256 ![] bcast_S_S1x256 w_cst_0
  let w3 : FVec F S1x256 .f32 := Host.divf w1 w2
  let w4 : FVec F S50000x256 .f32 := broadcastInDim S50000x256 ![0, 1] bcast_S1x256_S50000x256_0_1 w3
  let w5 : FVec F S50000x256 .f32 := subf x w4
  let w6 : FVec F S50000x256 .f32 := mulf w5 w5
  let w7 : FVec F S_ .f32 := sitofp .f32 c
  let w_cst_1 : FVec F S_ .f32 := constant S_ .f32 0x47435000#32
  let w8 : FVec F S_ .f32 := subf w_cst_1 w7
  let w_cst_2 : FVec F S_ .f32 := constant S_ .f32 0x00000000#32
  let w9 : FVec F S256 .f32 := Host.reduceAdd w6 w_cst_2 reducesTo_S50000x256_S256_d0 h_S_
  let w10 : FVec F S256 .f32 := broadcastInDim S256 ![] bcast_S_S256 w8
  let w11 : FVec F S256 .f32 := Host.divf w9 w10
  let w_cst_3 : FVec F S_ .f32 := constant S_ .f32 0x00000000#32
  let w12 : IVec S_ 1 := cmpf .ogt w8 w_cst_3
  let w_cst_4 : FVec F S_ .f32 := constant S_ .f32 0x7FC00000#32
  let u0 : FVec F S_ .f32 := id w_cst_4
  let u1 : FVec F S256 .f32 := broadcastInDim S256 ![] bcast_S_S256 u0
  select (broadcastInDim S256 ![] bcast_S_S256 w12) w11 u1

/-- Centring by the mean, scaling by the weight and by rsqrt (variance + 1e-5), shifting by the bias, at width 256. -/
def kNorm256 (x : FVec F S50000x256 .f32) (v6 v7 g b : FVec F S256 .f32) : FVec F S50000x256 .f32 :=
  let v8 : FVec F S1x256 .f32 := broadcastInDim S1x256 ![1] bcast_S256_S1x256_1 v6
  let v9 : FVec F S50000x256 .f32 := broadcastInDim S50000x256 ![0, 1] bcast_S1x256_S50000x256_0_1 v8
  let v10 : FVec F S50000x256 .f32 := subf x v9
  let v11 : FVec F S1x256 .f32 := broadcastInDim S1x256 ![1] bcast_S256_S1x256_1 g
  let v12 : FVec F S50000x256 .f32 := broadcastInDim S50000x256 ![0, 1] bcast_S1x256_S50000x256_0_1 v11
  let v13 : FVec F S50000x256 .f32 := mulf v12 v10
  let cst_1 : FVec F S_ .f32 := constant S_ .f32 0x3727C5AC#32
  let v14 : FVec F S256 .f32 := broadcastInDim S256 ![] bcast_S_S256 cst_1
  let v15 : FVec F S256 .f32 := addf v7 v14
  let v16 : FVec F S256 .f32 := Host.rsqrt v15
  let v17 : FVec F S1x256 .f32 := broadcastInDim S1x256 ![1] bcast_S256_S1x256_1 v16
  let v18 : FVec F S50000x256 .f32 := broadcastInDim S50000x256 ![0, 1] bcast_S1x256_S50000x256_0_1 v17
  let v19 : FVec F S50000x256 .f32 := mulf v13 v18
  let v20 : FVec F S1x256 .f32 := broadcastInDim S1x256 ![1] bcast_S256_S1x256_1 b
  let v21 : FVec F S50000x256 .f32 := broadcastInDim S50000x256 ![0, 1] bcast_S1x256_S50000x256_0_1 v20
  addf v19 v21

/-- Batch normalization is the normalization by its own means and variances (no degrees of freedom taken off). -/
theorem kBn256_eq (x : FVec F S50000x256 .f32) (g b : FVec F S256 .f32) :
    kBn256 x g b = kNorm256 x (kMean256 x) (kVar256 x (constantI S_ 32 0#32)) g b := rfl

/-! ## What each host stretch computes, from any contents W it starts at -/

section Stretch
variable (W : Valuation τ sig (Elt F))

set_option maxHeartbeats 4000000 in
/-- The first stretch leaves the source row of the edge index in %1. -/
theorem s0_v1 : StableHlo.after hostOps0 W (Proc.devRef .tc main_v1) = kSrc (W (Proc.devRef .tc main_arg1)) := by after_results <;> rfl

set_option maxHeartbeats 4000000 in
/-- The first stretch leaves the destination row of the edge index in %3. -/
theorem s0_v3 : StableHlo.after hostOps0 W (Proc.devRef .tc main_v3) = kDst (W (Proc.devRef .tc main_arg1)) := by after_results <;> rfl

set_option maxHeartbeats 4000000 in
/-- The first stretch leaves the column means of the input in %6. -/
theorem s0_v6 : StableHlo.after hostOps0 W (Proc.devRef .tc main_v6) = kMean128 (W (Proc.devRef .tc main_arg0)) := by after_results <;> rfl

set_option maxHeartbeats 4000000 in
/-- The first stretch leaves the integer 0 in %c. -/
theorem s0_c : StableHlo.after hostOps0 W (Proc.devRef .tc main_c) = (constantI S_ 32 0#32 : IVec S_ 32) := by after_results <;> rfl

set_option maxHeartbeats 4000000 in
/-- The variance call leaves the column variances of the input in %7. -/
theorem s01_v7 : StableHlo.after hostOps0_1 W (Proc.devRef .tc main_v7) = kVar128 (W (Proc.devRef .tc main_arg0)) (W (Proc.devRef .tc main_c)) := by
  after_results
  simp only [StableHlo.TRef.ofBuf, StableHlo.TRef.toBuf, cast_eq]
  rfl

set_option maxHeartbeats 4000000 in
/-- The third stretch normalizes the input by %6 and %7 into %22. -/
theorem s02_v22 : StableHlo.after hostOps0_2 W (Proc.devRef .tc main_v22) = kNorm128 (W (Proc.devRef .tc main_arg0)) (W (Proc.devRef .tc main_v6)) (W (Proc.devRef .tc main_v7)) (W (Proc.devRef .tc main_arg3)) (W (Proc.devRef .tc main_arg4)) := by after_results <;> rfl

set_option maxHeartbeats 4000000 in
/-- The gather call leaves the rows of %22 at the sources %1 in %23. -/
theorem s03_v23 : StableHlo.after hostOps0_3 W (Proc.devRef .tc main_v23) = kTake128 (W (Proc.devRef .tc main_v22)) (W (Proc.devRef .tc main_v1)) := by
  after_results
  simp only [StableHlo.TRef.ofBuf, StableHlo.TRef.toBuf, cast_eq]
  rfl

set_option maxHeartbeats 4000000 in
/-- The bias %arg6 as a one-row matrix in %24. -/
theorem s04_v24 : StableHlo.after hostOps0_4 W (Proc.devRef .tc main_v24) = kRow128 (W (Proc.devRef .tc main_arg6)) := by after_results <;> rfl

set_option maxHeartbeats 4000000 in
/-- The segment sum of the messages %25 by the destinations %3 in %28. -/
theorem s1_v28 : StableHlo.after hostOps1 W (Proc.devRef .tc main_v28) = kAgg128 (W (Proc.devRef .tc main_v25)) (W (Proc.devRef .tc main_v3)) := by after_results <;> rfl

set_option maxHeartbeats 4000000 in
/-- The bias %arg8 as a one-row matrix in %29. -/
theorem s1_v29 : StableHlo.after hostOps1 W (Proc.devRef .tc main_v29) = kRow256 (W (Proc.devRef .tc main_arg8)) := by after_results <;> rfl

set_option maxHeartbeats 4000000 in
/-- The column means of %30 in %33. -/
theorem s2_v33 : StableHlo.after hostOps2 W (Proc.devRef .tc main_v33) = kMean256 (W (Proc.devRef .tc main_v30)) := by after_results <;> rfl

set_option maxHeartbeats 4000000 in
/-- The integer 0 in %c_5. -/
theorem s2_c5 : StableHlo.after hostOps2 W (Proc.devRef .tc main_c_5) = (constantI S_ 32 0#32 : IVec S_ 32) := by after_results <;> rfl

set_option maxHeartbeats 4000000 in
/-- The column variances of %30 in %34. -/
theorem s21_v34 : StableHlo.after hostOps2_1 W (Proc.devRef .tc main_v34) = kVar256 (W (Proc.devRef .tc main_v30)) (W (Proc.devRef .tc main_c_5)) := by
  after_results
  simp only [StableHlo.TRef.ofBuf, StableHlo.TRef.toBuf, cast_eq]
  rfl

set_option maxHeartbeats 4000000 in
/-- The normalization of %30 by %33 and %34 in %49. -/
theorem s22_v49 : StableHlo.after hostOps2_2 W (Proc.devRef .tc main_v49) = kNorm256 (W (Proc.devRef .tc main_v30)) (W (Proc.devRef .tc main_v33)) (W (Proc.devRef .tc main_v34)) (W (Proc.devRef .tc main_arg9)) (W (Proc.devRef .tc main_arg10)) := by after_results <;> rfl

set_option maxHeartbeats 4000000 in
/-- The rows of %49 at the sources %1 in %50. -/
theorem s23_v50 : StableHlo.after hostOps2_3 W (Proc.devRef .tc main_v50) = kTake256 (W (Proc.devRef .tc main_v49)) (W (Proc.devRef .tc main_v1)) := by
  after_results
  simp only [StableHlo.TRef.ofBuf, StableHlo.TRef.toBuf, cast_eq]
  rfl

set_option maxHeartbeats 4000000 in
/-- The bias %arg12 as a one-row matrix in %51. -/
theorem s24_v51 : StableHlo.after hostOps2_4 W (Proc.devRef .tc main_v51) = kRow256 (W (Proc.devRef .tc main_arg12)) := by after_results <;> rfl

set_option maxHeartbeats 4000000 in
/-- The segment sum of the messages %52 by the destinations %3 in %55. -/
theorem s3_v55 : StableHlo.after hostOps3 W (Proc.devRef .tc main_v55) = kAgg256 (W (Proc.devRef .tc main_v52)) (W (Proc.devRef .tc main_v3)) := by after_results <;> rfl

set_option maxHeartbeats 4000000 in
/-- The bias %arg14 as a one-row matrix in %56. -/
theorem s3_v56 : StableHlo.after hostOps3 W (Proc.devRef .tc main_v56) = kRow256 (W (Proc.devRef .tc main_arg14)) := by after_results <;> rfl

set_option maxHeartbeats 4000000 in
/-- The column means of %57 in %60. -/
theorem s4_v60 : StableHlo.after hostOps4 W (Proc.devRef .tc main_v60) = kMean256 (W (Proc.devRef .tc main_v57)) := by after_results <;> rfl

set_option maxHeartbeats 4000000 in
/-- The integer 0 in %c_10. -/
theorem s4_c10 : StableHlo.after hostOps4 W (Proc.devRef .tc main_c_10) = (constantI S_ 32 0#32 : IVec S_ 32) := by after_results <;> rfl

set_option maxHeartbeats 4000000 in
/-- The column variances of %57 in %61. -/
theorem s41_v61 : StableHlo.after hostOps4_1 W (Proc.devRef .tc main_v61) = kVar256 (W (Proc.devRef .tc main_v57)) (W (Proc.devRef .tc main_c_10)) := by
  after_results
  simp only [StableHlo.TRef.ofBuf, StableHlo.TRef.toBuf, cast_eq]
  rfl

set_option maxHeartbeats 4000000 in
/-- The normalization of %57 by %60 and %61 in %76. -/
theorem s42_v76 : StableHlo.after hostOps4_2 W (Proc.devRef .tc main_v76) = kNorm256 (W (Proc.devRef .tc main_v57)) (W (Proc.devRef .tc main_v60)) (W (Proc.devRef .tc main_v61)) (W (Proc.devRef .tc main_arg15)) (W (Proc.devRef .tc main_arg16)) := by after_results <;> rfl

set_option maxHeartbeats 4000000 in
/-- The last stretch puts %49, %76 and %77 side by side in %78. -/
theorem s5_v78 : StableHlo.after hostOps5 W (Proc.devRef .tc main_v78) = kOut (W (Proc.devRef .tc main_v49)) (W (Proc.devRef .tc main_v76)) (W (Proc.devRef .tc main_v77)) := by after_results <;> rfl

end Stretch

/-! ## The buffers' contents where the regions and the result read them -/

section Values
variable (m : (ℓ : Loc nD τ sig) → Buf (Elt F) ℓ) (outs : Outs (F := F)) (c : Dev nD)

/-- After the first stretch %1 holds the edges' sources. -/
theorem v1_1 : V1 m c main_v1 = kSrc (m ((c : Thread nD τ).loc main_arg1)) := s0_v1 (V0 m c)

/-- After the first stretch %3 holds the edges' destinations. -/
theorem v3_1 : V1 m c main_v3 = kDst (m ((c : Thread nD τ).loc main_arg1)) := s0_v3 (V0 m c)

/-- After the first stretch %6 holds the input's column means. -/
theorem v6_1 : V1 m c main_v6 = kMean128 (m ((c : Thread nD τ).loc main_arg0)) := s0_v6 (V0 m c)

/-- After the first stretch %c holds 0. -/
theorem c_1 : V1 m c main_c = (constantI S_ 32 0#32 : IVec S_ 32) := s0_c (V0 m c)

/-- Argument 0 is still at its launch contents after item 0. -/
theorem arg0_1 : V1 m c main_arg0 = (m ((c : Thread nD τ).loc main_arg0)) := by
  rw [V1_of m c main_arg0 (by decide)] <;> rfl

/-- After the variance call %7 holds the input's column variances. -/
theorem v7_2 : V2 m c main_v7 = kVar128 (m ((c : Thread nD τ).loc main_arg0)) (constantI S_ 32 0#32 : IVec S_ 32) := (s01_v7 (V1 m c)).trans (by rw [arg0_1 m c, c_1 m c])

/-- The means are still in %6 after the variance call. -/
theorem v6_2 : V2 m c main_v6 = kMean128 (m ((c : Thread nD τ).loc main_arg0)) := by
  rw [V2_of m c main_v6 (by decide)]; exact v6_1 m c

/-- Argument 0 is still at its launch contents after item 1. -/
theorem arg0_2 : V2 m c main_arg0 = (m ((c : Thread nD τ).loc main_arg0)) := by
  rw [V2_of m c main_arg0 (by decide), V1_of m c main_arg0 (by decide)] <;> rfl

/-- Argument 3 is still at its launch contents after item 1. -/
theorem arg3_2 : V2 m c main_arg3 = (m ((c : Thread nD τ).loc main_arg3)) := by
  rw [V2_of m c main_arg3 (by decide), V1_of m c main_arg3 (by decide)] <;> rfl

/-- Argument 4 is still at its launch contents after item 1. -/
theorem arg4_2 : V2 m c main_arg4 = (m ((c : Thread nD τ).loc main_arg4)) := by
  rw [V2_of m c main_arg4 (by decide), V1_of m c main_arg4 (by decide)] <;> rfl

/-- After the third stretch %22 holds the normalized input. -/
theorem v22_3 : V3 m c main_v22 = kBn128 (m ((c : Thread nD τ).loc main_arg0)) (m ((c : Thread nD τ).loc main_arg3)) (m ((c : Thread nD τ).loc main_arg4)) := by
  rw [kBn128_eq]
  refine (s02_v22 (V2 m c)).trans ?_
  rw [arg0_2 m c, arg3_2 m c, arg4_2 m c, v6_2 m c, v7_2 m c]

/-- The sources are still in %1 after the third stretch. -/
theorem v1_3 : V3 m c main_v1 = kSrc (m ((c : Thread nD τ).loc main_arg1)) := by
  rw [V3_of m c main_v1 (by decide), V2_of m c main_v1 (by decide)]; exact v1_1 m c

/-- After the gather call %23 holds the normalized input's rows at the sources. -/
theorem v23_4 : V4 m c main_v23 = kTake128 (kBn128 (m ((c : Thread nD τ).loc main_arg0)) (m ((c : Thread nD τ).loc main_arg3)) (m ((c : Thread nD τ).loc main_arg4))) (kSrc (m ((c : Thread nD τ).loc main_arg1))) := (s03_v23 (V3 m c)).trans (by rw [v22_3 m c, v1_3 m c])

/-- Region 0's first operand: the gathered rows of the normalized input. -/
theorem in0_0 : V5 m c main_v23 = kTake128 (kBn128 (m ((c : Thread nD τ).loc main_arg0)) (m ((c : Thread nD τ).loc main_arg3)) (m ((c : Thread nD τ).loc main_arg4))) (kSrc (m ((c : Thread nD τ).loc main_arg1))) := by
  rw [V5_of m c main_v23 (by decide)]; exact v23_4 m c

/-- Region 0's second operand: the edge attributes. -/
theorem in0_1 : V5 m c main_arg2 = (m ((c : Thread nD τ).loc main_arg2)) := by
  rw [V5_of m c main_arg2 (by decide), V4_of m c main_arg2 (by decide), V3_of m c main_arg2 (by decide), V2_of m c main_arg2 (by decide), V1_of m c main_arg2 (by decide)] <;> rfl

/-- Region 0's third operand: the first edge weight. -/
theorem in0_2 : V5 m c main_arg5 = (m ((c : Thread nD τ).loc main_arg5)) := by
  rw [V5_of m c main_arg5 (by decide), V4_of m c main_arg5 (by decide), V3_of m c main_arg5 (by decide), V2_of m c main_arg5 (by decide), V1_of m c main_arg5 (by decide)] <;> rfl

/-- Argument 6 is still at its launch contents after item 3. -/
theorem arg6_4 : V4 m c main_arg6 = (m ((c : Thread nD τ).loc main_arg6)) := by
  rw [V4_of m c main_arg6 (by decide), V3_of m c main_arg6 (by decide), V2_of m c main_arg6 (by decide), V1_of m c main_arg6 (by decide)] <;> rfl

/-- Region 0's fourth operand: the first edge bias as a row. -/
theorem in0_3 : V5 m c main_v24 = kRow128 (m ((c : Thread nD τ).loc main_arg6)) := (s04_v24 (V4 m c)).trans (by rw [arg6_4 m c])

/-- Region 1's first operand: the normalized input. -/
theorem in1_0 : V7 m outs c main_v22 = kBn128 (m ((c : Thread nD τ).loc main_arg0)) (m ((c : Thread nD τ).loc main_arg3)) (m ((c : Thread nD τ).loc main_arg4)) := by
  rw [V7_of m outs c main_v22 (by decide), V6_of m outs c main_v22 (by decide), V5_of m c main_v22 (by decide), V4_of m c main_v22 (by decide)]; exact v22_3 m c

/-- Region 0 leaves its output in %25. -/
theorem v25_6 : V6 m outs c main_v25 = outs 6 main_v25 c := by
  show Function.update _ _ _ _ = _
  rw [Function.update_self]

/-- The destinations are still in %3 after region 0. -/
theorem v3_6 : V6 m outs c main_v3 = kDst (m ((c : Thread nD τ).loc main_arg1)) := by
  rw [V6_of m outs c main_v3 (by decide), V5_of m c main_v3 (by decide), V4_of m c main_v3 (by decide), V3_of m c main_v3 (by decide), V2_of m c main_v3 (by decide)]; exact v3_1 m c

/-- Region 1's second operand: the segment sum of region 0's messages. -/
theorem in1_1 : V7 m outs c main_v28 = kAgg128 (outs 6 main_v25 c) (kDst (m ((c : Thread nD τ).loc main_arg1))) := (s1_v28 (V6 m outs c)).trans (by rw [v25_6 m outs c, v3_6 m outs c])

/-- Region 1's third operand: the first node weight. -/
theorem in1_2 : V7 m outs c main_arg7 = (m ((c : Thread nD τ).loc main_arg7)) := by
  rw [V7_of m outs c main_arg7 (by decide), V6_of m outs c main_arg7 (by decide), V5_of m c main_arg7 (by decide), V4_of m c main_arg7 (by decide), V3_of m c main_arg7 (by decide), V2_of m c main_arg7 (by decide), V1_of m c main_arg7 (by decide)] <;> rfl

/-- Argument 8 is still at its launch contents after item 5. -/
theorem arg8_6 : V6 m outs c main_arg8 = (m ((c : Thread nD τ).loc main_arg8)) := by
  rw [V6_of m outs c main_arg8 (by decide), V5_of m c main_arg8 (by decide), V4_of m c main_arg8 (by decide), V3_of m c main_arg8 (by decide), V2_of m c main_arg8 (by decide), V1_of m c main_arg8 (by decide)] <;> rfl

/-- Region 1's fourth operand: the first node bias as a row. -/
theorem in1_3 : V7 m outs c main_v29 = kRow256 (m ((c : Thread nD τ).loc main_arg8)) := (s1_v29 (V6 m outs c)).trans (by rw [arg8_6 m outs c])

/-- Region 1 leaves its output in %30. -/
theorem v30_8 : V8 m outs c main_v30 = outs 8 main_v30 c := by
  show Function.update _ _ _ _ = _
  rw [Function.update_self]

/-- The column means of region 1's output. -/
theorem v33_9 : V9 m outs c main_v33 = kMean256 (outs 8 main_v30 c) := (s2_v33 (V8 m outs c)).trans (by rw [v30_8 m outs c])

/-- The integer 0 in %c_5. -/
theorem c5_9 : V9 m outs c main_c_5 = (constantI S_ 32 0#32 : IVec S_ 32) := s2_c5 (V8 m outs c)

/-- Region 1's output is still in %30. -/
theorem v30_9 : V9 m outs c main_v30 = outs 8 main_v30 c := by
  rw [V9_of m outs c main_v30 (by decide)]; exact v30_8 m outs c

/-- The column variances of region 1's output. -/
theorem v34_10 : V10 m outs c main_v34 = kVar256 (outs 8 main_v30 c) (constantI S_ 32 0#32 : IVec S_ 32) := (s21_v34 (V9 m outs c)).trans (by rw [v30_9 m outs c, c5_9 m outs c])

/-- Region 1's output is still in %30. -/
theorem v30_10 : V10 m outs c main_v30 = outs 8 main_v30 c := by
  rw [V10_of m outs c main_v30 (by decide)]; exact v30_9 m outs c

/-- The means are still in %33. -/
theorem v33_10 : V10 m outs c main_v33 = kMean256 (outs 8 main_v30 c) := by
  rw [V10_of m outs c main_v33 (by decide)]; exact v33_9 m outs c

/-- Argument 9 is still at its launch contents after item 9. -/
theorem arg9_10 : V10 m outs c main_arg9 = (m ((c : Thread nD τ).loc main_arg9)) := by
  rw [V10_of m outs c main_arg9 (by decide), V9_of m outs c main_arg9 (by decide), V8_of m outs c main_arg9 (by decide), V7_of m outs c main_arg9 (by decide), V6_of m outs c main_arg9 (by decide), V5_of m c main_arg9 (by decide), V4_of m c main_arg9 (by decide), V3_of m c main_arg9 (by decide), V2_of m c main_arg9 (by decide), V1_of m c main_arg9 (by decide)] <;> rfl

/-- Argument 10 is still at its launch contents after item 9. -/
theorem arg10_10 : V10 m outs c main_arg10 = (m ((c : Thread nD τ).loc main_arg10)) := by
  rw [V10_of m outs c main_arg10 (by decide), V9_of m outs c main_arg10 (by decide), V8_of m outs c main_arg10 (by decide), V7_of m outs c main_arg10 (by decide), V6_of m outs c main_arg10 (by decide), V5_of m c main_arg10 (by decide), V4_of m c main_arg10 (by decide), V3_of m c main_arg10 (by decide), V2_of m c main_arg10 (by decide), V1_of m c main_arg10 (by decide)] <;> rfl

/-- The normalized first hidden layer. -/
theorem v49_11 : V11 m outs c main_v49 = kBn256 (outs 8 main_v30 c) (m ((c : Thread nD τ).loc main_arg9)) (m ((c : Thread nD τ).loc main_arg10)) := by
  rw [kBn256_eq]
  refine (s22_v49 (V10 m outs c)).trans ?_
  rw [v30_10 m outs c, v33_10 m outs c, v34_10 m outs c, arg9_10 m outs c, arg10_10 m outs c]

/-- The sources are still in %1. -/
theorem v1_11 : V11 m outs c main_v1 = kSrc (m ((c : Thread nD τ).loc main_arg1)) := by
  rw [V11_of m outs c main_v1 (by decide), V10_of m outs c main_v1 (by decide), V9_of m outs c main_v1 (by decide), V8_of m outs c main_v1 (by decide), V7_of m outs c main_v1 (by decide), V6_of m outs c main_v1 (by decide), V5_of m c main_v1 (by decide), V4_of m c main_v1 (by decide), V3_of m c main_v1 (by decide), V2_of m c main_v1 (by decide)]; exact v1_1 m c

/-- The rows of the normalized first hidden layer at the sources. -/
theorem v50_12 : V12 m outs c main_v50 = kTake256 (kBn256 (outs 8 main_v30 c) (m ((c : Thread nD τ).loc main_arg9)) (m ((c : Thread nD τ).loc main_arg10))) (kSrc (m ((c : Thread nD τ).loc main_arg1))) := (s23_v50 (V11 m outs c)).trans (by rw [v49_11 m outs c, v1_11 m outs c])

/-- Region 2's first operand: the gathered rows of the normalized first hidden layer. -/
theorem in2_0 : V13 m outs c main_v50 = kTake256 (kBn256 (outs 8 main_v30 c) (m ((c : Thread nD τ).loc main_arg9)) (m ((c : Thread nD τ).loc main_arg10))) (kSrc (m ((c : Thread nD τ).loc main_arg1))) := by
  rw [V13_of m outs c main_v50 (by decide)]; exact v50_12 m outs c

/-- Region 2's second operand: the edge attributes. -/
theorem in2_1 : V13 m outs c main_arg2 = (m ((c : Thread nD τ).loc main_arg2)) := by
  rw [V13_of m outs c main_arg2 (by decide), V12_of m outs c main_arg2 (by decide), V11_of m outs c main_arg2 (by decide), V10_of m outs c main_arg2 (by decide), V9_of m outs c main_arg2 (by decide), V8_of m outs c main_arg2 (by decide), V7_of m outs c main_arg2 (by decide), V6_of m outs c main_arg2 (by decide), V5_of m c main_arg2 (by decide), V4_of m c main_arg2 (by decide), V3_of m c main_arg2 (by decide), V2_of m c main_arg2 (by decide), V1_of m c main_arg2 (by decide)] <;> rfl

/-- Region 2's third operand: the second edge weight. -/
theorem in2_2 : V13 m outs c main_arg11 = (m ((c : Thread nD τ).loc main_arg11)) := by
  rw [V13_of m outs c main_arg11 (by decide), V12_of m outs c main_arg11 (by decide), V11_of m outs c main_arg11 (by decide), V10_of m outs c main_arg11 (by decide), V9_of m outs c main_arg11 (by decide), V8_of m outs c main_arg11 (by decide), V7_of m outs c main_arg11 (by decide), V6_of m outs c main_arg11 (by decide), V5_of m c main_arg11 (by decide), V4_of m c main_arg11 (by decide), V3_of m c main_arg11 (by decide), V2_of m c main_arg11 (by decide), V1_of m c main_arg11 (by decide)] <;> rfl

/-- Argument 12 is still at its launch contents after item 11. -/
theorem arg12_12 : V12 m outs c main_arg12 = (m ((c : Thread nD τ).loc main_arg12)) := by
  rw [V12_of m outs c main_arg12 (by decide), V11_of m outs c main_arg12 (by decide), V10_of m outs c main_arg12 (by decide), V9_of m outs c main_arg12 (by decide), V8_of m outs c main_arg12 (by decide), V7_of m outs c main_arg12 (by decide), V6_of m outs c main_arg12 (by decide), V5_of m c main_arg12 (by decide), V4_of m c main_arg12 (by decide), V3_of m c main_arg12 (by decide), V2_of m c main_arg12 (by decide), V1_of m c main_arg12 (by decide)] <;> rfl

/-- Region 2's fourth operand: the second edge bias as a row. -/
theorem in2_3 : V13 m outs c main_v51 = kRow256 (m ((c : Thread nD τ).loc main_arg12)) := (s24_v51 (V12 m outs c)).trans (by rw [arg12_12 m outs c])

/-- Region 3's first operand: the normalized first hidden layer. -/
theorem in3_0 : V15 m outs c main_v49 = kBn256 (outs 8 main_v30 c) (m ((c : Thread nD τ).loc main_arg9)) (m ((c : Thread nD τ).loc main_arg10)) := by
  rw [V15_of m outs c main_v49 (by decide), V14_of m outs c main_v49 (by decide), V13_of m outs c main_v49 (by decide), V12_of m outs c main_v49 (by decide)]; exact v49_11 m outs c

/-- Region 2 leaves its output in %52. -/
theorem v52_14 : V14 m outs c main_v52 = outs 14 main_v52 c := by
  show Function.update _ _ _ _ = _
  rw [Function.update_self]

/-- The destinations are still in %3 after region 2. -/
theorem v3_14 : V14 m outs c main_v3 = kDst (m ((c : Thread nD τ).loc main_arg1)) := by
  rw [V14_of m outs c main_v3 (by decide), V13_of m outs c main_v3 (by decide), V12_of m outs c main_v3 (by decide), V11_of m outs c main_v3 (by decide), V10_of m outs c main_v3 (by decide), V9_of m outs c main_v3 (by decide), V8_of m outs c main_v3 (by decide), V7_of m outs c main_v3 (by decide), V6_of m outs c main_v3 (by decide), V5_of m c main_v3 (by decide), V4_of m c main_v3 (by decide), V3_of m c main_v3 (by decide), V2_of m c main_v3 (by decide)]; exact v3_1 m c

/-- Region 3's second operand: the segment sum of region 2's messages. -/
theorem in3_1 : V15 m outs c main_v55 = kAgg256 (outs 14 main_v52 c) (kDst (m ((c : Thread nD τ).loc main_arg1))) := (s3_v55 (V14 m outs c)).trans (by rw [v52_14 m outs c, v3_14 m outs c])

/-- Region 3's third operand: the second node weight. -/
theorem in3_2 : V15 m outs c main_arg13 = (m ((c : Thread nD τ).loc main_arg13)) := by
  rw [V15_of m outs c main_arg13 (by decide), V14_of m outs c main_arg13 (by decide), V13_of m outs c main_arg13 (by decide), V12_of m outs c main_arg13 (by decide), V11_of m outs c main_arg13 (by decide), V10_of m outs c main_arg13 (by decide), V9_of m outs c main_arg13 (by decide), V8_of m outs c main_arg13 (by decide), V7_of m outs c main_arg13 (by decide), V6_of m outs c main_arg13 (by decide), V5_of m c main_arg13 (by decide), V4_of m c main_arg13 (by decide), V3_of m c main_arg13 (by decide), V2_of m c main_arg13 (by decide), V1_of m c main_arg13 (by decide)] <;> rfl

/-- Argument 14 is still at its launch contents after item 13. -/
theorem arg14_14 : V14 m outs c main_arg14 = (m ((c : Thread nD τ).loc main_arg14)) := by
  rw [V14_of m outs c main_arg14 (by decide), V13_of m outs c main_arg14 (by decide), V12_of m outs c main_arg14 (by decide), V11_of m outs c main_arg14 (by decide), V10_of m outs c main_arg14 (by decide), V9_of m outs c main_arg14 (by decide), V8_of m outs c main_arg14 (by decide), V7_of m outs c main_arg14 (by decide), V6_of m outs c main_arg14 (by decide), V5_of m c main_arg14 (by decide), V4_of m c main_arg14 (by decide), V3_of m c main_arg14 (by decide), V2_of m c main_arg14 (by decide), V1_of m c main_arg14 (by decide)] <;> rfl

/-- Region 3's fourth operand: the second node bias as a row. -/
theorem in3_3 : V15 m outs c main_v56 = kRow256 (m ((c : Thread nD τ).loc main_arg14)) := (s3_v56 (V14 m outs c)).trans (by rw [arg14_14 m outs c])

/-- Region 3 leaves its output in %57. -/
theorem v57_16 : V16 m outs c main_v57 = outs 16 main_v57 c := by
  show Function.update _ _ _ _ = _
  rw [Function.update_self]

/-- The column means of region 3's output. -/
theorem v60_17 : V17 m outs c main_v60 = kMean256 (outs 16 main_v57 c) := (s4_v60 (V16 m outs c)).trans (by rw [v57_16 m outs c])

/-- The integer 0 in %c_10. -/
theorem c10_17 : V17 m outs c main_c_10 = (constantI S_ 32 0#32 : IVec S_ 32) := s4_c10 (V16 m outs c)

/-- Region 3's output is still in %57. -/
theorem v57_17 : V17 m outs c main_v57 = outs 16 main_v57 c := by
  rw [V17_of m outs c main_v57 (by decide)]; exact v57_16 m outs c

/-- The column variances of region 3's output. -/
theorem v61_18 : V18 m outs c main_v61 = kVar256 (outs 16 main_v57 c) (constantI S_ 32 0#32 : IVec S_ 32) := (s41_v61 (V17 m outs c)).trans (by rw [v57_17 m outs c, c10_17 m outs c])

/-- Region 3's output is still in %57. -/
theorem v57_18 : V18 m outs c main_v57 = outs 16 main_v57 c := by
  rw [V18_of m outs c main_v57 (by decide)]; exact v57_17 m outs c

/-- The means are still in %60. -/
theorem v60_18 : V18 m outs c main_v60 = kMean256 (outs 16 main_v57 c) := by
  rw [V18_of m outs c main_v60 (by decide)]; exact v60_17 m outs c

/-- Argument 15 is still at its launch contents after item 17. -/
theorem arg15_18 : V18 m outs c main_arg15 = (m ((c : Thread nD τ).loc main_arg15)) := by
  rw [V18_of m outs c main_arg15 (by decide), V17_of m outs c main_arg15 (by decide), V16_of m outs c main_arg15 (by decide), V15_of m outs c main_arg15 (by decide), V14_of m outs c main_arg15 (by decide), V13_of m outs c main_arg15 (by decide), V12_of m outs c main_arg15 (by decide), V11_of m outs c main_arg15 (by decide), V10_of m outs c main_arg15 (by decide), V9_of m outs c main_arg15 (by decide), V8_of m outs c main_arg15 (by decide), V7_of m outs c main_arg15 (by decide), V6_of m outs c main_arg15 (by decide), V5_of m c main_arg15 (by decide), V4_of m c main_arg15 (by decide), V3_of m c main_arg15 (by decide), V2_of m c main_arg15 (by decide), V1_of m c main_arg15 (by decide)] <;> rfl

/-- Argument 16 is still at its launch contents after item 17. -/
theorem arg16_18 : V18 m outs c main_arg16 = (m ((c : Thread nD τ).loc main_arg16)) := by
  rw [V18_of m outs c main_arg16 (by decide), V17_of m outs c main_arg16 (by decide), V16_of m outs c main_arg16 (by decide), V15_of m outs c main_arg16 (by decide), V14_of m outs c main_arg16 (by decide), V13_of m outs c main_arg16 (by decide), V12_of m outs c main_arg16 (by decide), V11_of m outs c main_arg16 (by decide), V10_of m outs c main_arg16 (by decide), V9_of m outs c main_arg16 (by decide), V8_of m outs c main_arg16 (by decide), V7_of m outs c main_arg16 (by decide), V6_of m outs c main_arg16 (by decide), V5_of m c main_arg16 (by decide), V4_of m c main_arg16 (by decide), V3_of m c main_arg16 (by decide), V2_of m c main_arg16 (by decide), V1_of m c main_arg16 (by decide)] <;> rfl

/-- Region 4's first operand: the normalized second hidden layer. -/
theorem in4_0 : V19 m outs c main_v76 = kBn256 (outs 16 main_v57 c) (m ((c : Thread nD τ).loc main_arg15)) (m ((c : Thread nD τ).loc main_arg16)) := by
  rw [kBn256_eq]
  refine (s42_v76 (V18 m outs c)).trans ?_
  rw [v57_18 m outs c, v60_18 m outs c, v61_18 m outs c, arg15_18 m outs c, arg16_18 m outs c]

/-- Region 4's second operand: the final weight. -/
theorem in4_1 : V19 m outs c main_arg17 = (m ((c : Thread nD τ).loc main_arg17)) := by
  rw [V19_of m outs c main_arg17 (by decide), V18_of m outs c main_arg17 (by decide), V17_of m outs c main_arg17 (by decide), V16_of m outs c main_arg17 (by decide), V15_of m outs c main_arg17 (by decide), V14_of m outs c main_arg17 (by decide), V13_of m outs c main_arg17 (by decide), V12_of m outs c main_arg17 (by decide), V11_of m outs c main_arg17 (by decide), V10_of m outs c main_arg17 (by decide), V9_of m outs c main_arg17 (by decide), V8_of m outs c main_arg17 (by decide), V7_of m outs c main_arg17 (by decide), V6_of m outs c main_arg17 (by decide), V5_of m c main_arg17 (by decide), V4_of m c main_arg17 (by decide), V3_of m c main_arg17 (by decide), V2_of m c main_arg17 (by decide), V1_of m c main_arg17 (by decide)] <;> rfl

/-- Region 4 leaves its output in %77. -/
theorem v77_20 : V20 m outs c main_v77 = outs 20 main_v77 c := by
  show Function.update _ _ _ _ = _
  rw [Function.update_self]

/-- The normalized first hidden layer is still in %49 after region 4. -/
theorem v49_20 : V20 m outs c main_v49 = kBn256 (outs 8 main_v30 c) (m ((c : Thread nD τ).loc main_arg9)) (m ((c : Thread nD τ).loc main_arg10)) := by
  rw [V20_of m outs c main_v49 (by decide), V19_of m outs c main_v49 (by decide), V18_of m outs c main_v49 (by decide), V17_of m outs c main_v49 (by decide), V16_of m outs c main_v49 (by decide), V15_of m outs c main_v49 (by decide), V14_of m outs c main_v49 (by decide), V13_of m outs c main_v49 (by decide), V12_of m outs c main_v49 (by decide)]; exact v49_11 m outs c

/-- The normalized second hidden layer is still in %76 after region 4. -/
theorem v76_20 : V20 m outs c main_v76 = kBn256 (outs 16 main_v57 c) (m ((c : Thread nD τ).loc main_arg15)) (m ((c : Thread nD τ).loc main_arg16)) := by
  rw [V20_of m outs c main_v76 (by decide)]; exact in4_0 m outs c

/-- The program's result: the two normalized hidden layers and region 4's output side by side. -/
theorem res_eq : V21 m outs c main_v78 = kOut (kBn256 (outs 8 main_v30 c) (m ((c : Thread nD τ).loc main_arg9)) (m ((c : Thread nD τ).loc main_arg10))) (kBn256 (outs 16 main_v57 c) (m ((c : Thread nD τ).loc main_arg15)) (m ((c : Thread nD τ).loc main_arg16))) (outs 20 main_v77 c) := (s5_v78 (V20 m outs c)).trans (by rw [v49_20 m outs c, v76_20 m outs c, v77_20 m outs c])

end Values

end Cert.KernelIdeal.Hand

end
-- ==== Proof.KI.Result.lean ====
/-
  The idealized kernel program's result buffer as one term of its argument arrays. The program alternates host
  stages with five tiled regions. Each region's output array is, by its value theorem, the shared whole-array
  function (an edge message, a node update, or the final projection) of the arrays the region was entered at; each of
  those arrays is, in turn, a host stage of the argument arrays and of the earlier regions' outputs. Substituting
  region by region, in program order, gives the first layer's messages, the first hidden layer's update, the second
  layer's messages, the second hidden layer's update and the projection, and the last host stage lays the two
  normalized hidden layers and the projection side by side.
-/
import proofs.«419488_j13426067767699_1_alg».proof.Proof.KI.Run
import proofs.«419488_j13426067767699_1_alg».proof.Proof.KI.Val0
import proofs.«419488_j13426067767699_1_alg».proof.Proof.KI.Val1
import proofs.«419488_j13426067767699_1_alg».proof.Proof.KI.Val2
import proofs.«419488_j13426067767699_1_alg».proof.Proof.KI.Val3
import proofs.«419488_j13426067767699_1_alg».proof.Proof.KI.Val4
import proofs.«419488_j13426067767699_1_alg».proof.Proof.KI.ResDef
import proofs.«419488_j13426067767699_1_alg».proof.Proof.KI.HostVals

set_option maxRecDepth 16384

noncomputable section

namespace Cert.KernelIdeal.Hand

open Cert.KernelIdeal Cert.KernelIdeal.Gen Idealize.ShloMosaic Idealize.ShloMosaic.TcCoe

variable (m : (ℓ : Loc nD τ sig) → Buf (Elt Ideal) ℓ) (c : Dev nD)

-- argument array r of the program, on core c
set_option quotPrecheck false in
local notation "𝔞" r:max => m ((c : Thread nD τ).loc r)

/-! ## The stages, named -/

/-- The normalized input features: BN(x). -/
abbrev hid0 : FVec Ideal S50000x128 .f32 := kBn128 (F := Ideal) (𝔞 main_arg0) (𝔞 main_arg3) (𝔞 main_arg4)

/-- The first layer's edge messages: relu (h[src] + attr·We0 + be0). -/
abbrev mes0 : FVec Ideal S800000x128 .f32 :=
  Cert.Spec.msg (kTake128 (F := Ideal) (hid0 m c) (kSrc (𝔞 main_arg1))) (𝔞 main_arg2) (𝔞 main_arg5) (kRow128 (F := Ideal) (𝔞 main_arg6))

/-- The first hidden layer before normalization: tanh ((h + agg)·W0 + b0), agg the segment sum of the messages. -/
abbrev pre1 : FVec Ideal S50000x256 .f32 :=
  Cert.Spec.upd (hid0 m c) (kAgg128 (F := Ideal) (mes0 m c) (kDst (𝔞 main_arg1))) (𝔞 main_arg7) (kRow256 (F := Ideal) (𝔞 main_arg8))

/-- The first hidden layer: BN of the update. -/
abbrev hid1 : FVec Ideal S50000x256 .f32 := kBn256 (F := Ideal) (pre1 m c) (𝔞 main_arg9) (𝔞 main_arg10)

/-- The second layer's edge messages: relu (h1[src] + attr·We1 + be1). -/
abbrev mes1 : FVec Ideal S800000x256 .f32 :=
  Cert.Spec.msg (kTake256 (F := Ideal) (hid1 m c) (kSrc (𝔞 main_arg1))) (𝔞 main_arg2) (𝔞 main_arg11) (kRow256 (F := Ideal) (𝔞 main_arg12))

/-- The second hidden layer before normalization: tanh ((h1 + agg)·W1 + b1). -/
abbrev pre2 : FVec Ideal S50000x256 .f32 :=
  Cert.Spec.upd (hid1 m c) (kAgg256 (F := Ideal) (mes1 m c) (kDst (𝔞 main_arg1))) (𝔞 main_arg13) (kRow256 (F := Ideal) (𝔞 main_arg14))

/-- The second hidden layer: BN of the update. -/
abbrev hid2 : FVec Ideal S50000x256 .f32 := kBn256 (F := Ideal) (pre2 m c) (𝔞 main_arg15) (𝔞 main_arg16)

/-- The final projection: tanh (h2·Wfc). -/
abbrev proj3 : FVec Ideal S50000x128 .f32 := Cert.Spec.fc (hid2 m c) (𝔞 main_arg17)

/-! ## The five regions' outputs, in program order -/

/-- Region 0 leaves the first layer's messages. -/
theorem o6_val : Frm.outs m 6 main_v25 c = mes0 m c :=
  (Frm.outs_6 m c).trans ((Val.final0 (Frm.T5 m) c).trans (by
    show Cert.Spec.msg (V5 m c main_v23) (V5 m c main_arg2) (V5 m c main_arg5) (V5 m c main_v24) = _
    rw [in0_0 m c, in0_1 m c, in0_2 m c, in0_3 m c]))

/-- Region 1 leaves the first hidden layer's update. -/
theorem o8_val : Frm.outs m 8 main_v30 c = pre1 m c :=
  (Frm.outs_8 m c).trans ((Val.final1 (Frm.T7 m) c).trans (by
    show Cert.Spec.upd (V7 m (Frm.outs m) c main_v22) (V7 m (Frm.outs m) c main_v28) (V7 m (Frm.outs m) c main_arg7)
      (V7 m (Frm.outs m) c main_v29) = _
    rw [in1_0 m (Frm.outs m) c, in1_1 m (Frm.outs m) c, in1_2 m (Frm.outs m) c, in1_3 m (Frm.outs m) c, o6_val m c]))

/-- Region 2 leaves the second layer's messages. -/
theorem o14_val : Frm.outs m 14 main_v52 c = mes1 m c :=
  (Frm.outs_14 m c).trans ((Val.final2 (Frm.T13 m) c).trans (by
    show Cert.Spec.msg (V13 m (Frm.outs m) c main_v50) (V13 m (Frm.outs m) c main_arg2) (V13 m (Frm.outs m) c main_arg11)
      (V13 m (Frm.outs m) c main_v51) = _
    rw [in2_0 m (Frm.outs m) c, in2_1 m (Frm.outs m) c, in2_2 m (Frm.outs m) c, in2_3 m (Frm.outs m) c, o8_val m c]))

/-- Region 3 leaves the second hidden layer's update. -/
theorem o16_val : Frm.outs m 16 main_v57 c = pre2 m c :=
  (Frm.outs_16 m c).trans ((Val.final3 (Frm.T15 m) c).trans (by
    show Cert.Spec.upd (V15 m (Frm.outs m) c main_v49) (V15 m (Frm.outs m) c main_v55) (V15 m (Frm.outs m) c main_arg13)
      (V15 m (Frm.outs m) c main_v56) = _
    rw [in3_0 m (Frm.outs m) c, in3_1 m (Frm.outs m) c, in3_2 m (Frm.outs m) c, in3_3 m (Frm.outs m) c, o8_val m c,
      o14_val m c]))

/-- Region 4 leaves the final projection. -/
theorem o20_val : Frm.outs m 20 main_v77 c = proj3 m c :=
  (Frm.outs_20 m c).trans ((Val.final4 (Frm.T19 m) c).trans (by
    show Cert.Spec.fc (V19 m (Frm.outs m) c main_v76) (V19 m (Frm.outs m) c main_arg17) = _
    rw [in4_0 m (Frm.outs m) c, in4_1 m (Frm.outs m) c, o16_val m c]))

/-! ## The result -/

/-- The result buffer is the result term of the argument arrays: the two normalized hidden layers and the projection
    side by side. -/
theorem result_eq (m : (ℓ : Loc nD τ sig) → Buf (Elt Ideal) ℓ) (c : Dev nD) :
    Cert.KernelIdeal.Gen.V21 m (Cert.KernelIdeal.Frm.outs m) c main_v78
      = kRes (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17)) :=
  (res_eq m (Frm.outs m) c).trans (by
    rw [o8_val m c, o16_val m c, o20_val m c]
    rfl)

end Cert.KernelIdeal.Hand

end
-- ==== Proof.Ref.Stages.lean ====
/-
  The whole-array stages of the reference network, each the composition of the reference program's printed
  operations in the printed order: the two rows of the edge list, batch normalisation at widths 128 and 256,
  the wrap of negative source indices, an edge's message, the segment sum by destination, a node's update,
  the final projection and the concatenation of the three feature blocks.
-/
import proofs.«419488_j13426067767699_1_alg».proof.ReferenceIdeal
import proofs.«419488_j13426067767699_1_alg».proof.Proof.Spec

noncomputable section

namespace Cert.ReferenceIdeal.Hand

open Cert.ReferenceIdeal Idealize.ShloMosaic Idealize.SL.Sem

variable {F : FTy → Type} [FloatOps F] [Facts₀]
open Facts₀

/-- Row 0 of the edge list, as a vector: the source node of each edge. -/
def rSrc (ei : IVec S2x800000 32) : IVec S800000 32 :=
  let v0 := extractStridedSlice S1x800000 ![0, 0] ei slices_S2x800000_S1x800000_0_0
  shapeCast S800000 v0 shapeCasts_S1x800000_S800000

/-- Row 1 of the edge list, as a vector: the destination node of each edge. -/
def rDst (ei : IVec S2x800000 32) : IVec S800000 32 :=
  let v2 := extractStridedSlice S1x800000 ![1, 0] ei slices_S2x800000_S1x800000_1_0
  shapeCast S800000 v2 shapeCasts_S1x800000_S800000

/-- The mean over the 50000 rows at width 128: the column sums divided by 50000. -/
def rMean128 (x : FVec F S50000x128 .f32) : FVec F S128 .f32 :=
  let cst := constant (F := F) S_ .f32 0x00000000#32
  let v4 := Host.reduceAdd x cst reducesTo_S50000x128_S128_d0 h_S_
  let cst_0 := constant (F := F) S_ .f32 0x47435000#32
  let v5 := broadcastInDim S128 ![] bcast_S_S128 cst_0
  Host.divf v4 v5

/-- The variance over the 50000 rows at width 128, correction 0: the mean of the squared deviations from the mean,
    the quotient kept where the divisor 50000 − 0 is positive. -/
def rVar128 (x : FVec F S50000x128 .f32) : FVec F S128 .f32 :=
  let c := constantI S_ 32 0#32
  let f_cst := constant (F := F) S_ .f32 0x00000000#32
  let f_v0 := Host.reduceAdd x f_cst reducesTo_S50000x128_S128_d0 h_S_
  let f_v1 := broadcastInDim S1x128 ![1] bcast_S128_S1x128_1 f_v0
  let f_cst_0 := constant (F := F) S_ .f32 0x47435000#32
  let f_v2 := broadcastInDim S1x128 ![] bcast_S_S1x128 f_cst_0
  let f_v3 := Host.divf f_v1 f_v2
  let f_v4 := broadcastInDim S50000x128 ![0, 1] bcast_S1x128_S50000x128_0_1 f_v3
  let f_v5 := subf x f_v4
  let f_v6 := mulf f_v5 f_v5
  let f_v7 := sitofp (F := F) .f32 c
  let f_cst_1 := constant (F := F) S_ .f32 0x47435000#32
  let f_v8 := subf f_cst_1 f_v7
  let f_cst_2 := constant (F := F) S_ .f32 0x00000000#32
  let f_v9 := Host.reduceAdd f_v6 f_cst_2 reducesTo_S50000x128_S128_d0 h_S_
  let f_v10 := broadcastInDim S128 ![] bcast_S_S128 f_v8
  let f_v11 := Host.divf f_v9 f_v10
  let f_cst_3 := constant (F := F) S_ .f32 0x00000000#32
  let f_v12 := cmpf .ogt f_v8 f_cst_3
  let f_cst_4 := constant (F := F) S_ .f32 0x7FC00000#32
  let w_v0 := id f_cst_4
  let w_v1 := broadcastInDim S128 ![] bcast_S_S128 w_v0
  select (broadcastInDim S128 ![] bcast_S_S128 f_v12) f_v11 w_v1

/-- Batch normalisation over the 50000 rows at width 128: g · (x − mean) · rsqrt (var + ε) + b. -/
def rBn128 (x : FVec F S50000x128 .f32) (g b : FVec F S128 .f32) : FVec F S50000x128 .f32 :=
  let v6 := rMean128 x
  let v7 := rVar128 x
  let v8 := broadcastInDim S1x128 ![1] bcast_S128_S1x128_1 v6
  let v9 := broadcastInDim S50000x128 ![0, 1] bcast_S1x128_S50000x128_0_1 v8
  let v10 := subf x v9
  let v11 := broadcastInDim S1x128 ![1] bcast_S128_S1x128_1 g
  let v12 := broadcastInDim S50000x128 ![0, 1] bcast_S1x128_S50000x128_0_1 v11
  let v13 := mulf v12 v10
  let cst_1 := constant (F := F) S_ .f32 0x3727C5AC#32
  let v14 := broadcastInDim S128 ![] bcast_S_S128 cst_1
  let v15 := addf v7 v14
  let v16 := Host.rsqrt v15
  let v17 := broadcastInDim S1x128 ![1] bcast_S128_S1x128_1 v16
  let v18 := broadcastInDim S50000x128 ![0, 1] bcast_S1x128_S50000x128_0_1 v17
  let v19 := mulf v13 v18
  let v20 := broadcastInDim S1x128 ![1] bcast_S128_S1x128_1 b
  let v21 := broadcastInDim S50000x128 ![0, 1] bcast_S1x128_S50000x128_0_1 v20
  addf v19 v21

/-- The mean over the 50000 rows at width 256: the column sums divided by 50000. -/
def rMean256 (p : FVec F S50000x256 .f32) : FVec F S256 .f32 :=
  let cst_5 := constant (F := F) S_ .f32 0x00000000#32
  let v45 := Host.reduceAdd p cst_5 reducesTo_S50000x256_S256_d0 h_S_
  let cst_6 := constant (F := F) S_ .f32 0x47435000#32
  let v46 := broadcastInDim S256 ![] bcast_S_S256 cst_6
  Host.divf v45 v46

/-- The variance over the 50000 rows at width 256, correction 0: the mean of the squared deviations from the mean,
    the quotient kept where the divisor 50000 − 0 is positive. -/
def rVar256 (p : FVec F S50000x256 .f32) : FVec F S256 .f32 :=
  let c_7 := constantI S_ 32 0#32
  let f_cst := constant (F := F) S_ .f32 0x00000000#32
  let f_v0 := Host.reduceAdd p f_cst reducesTo_S50000x256_S256_d0 h_S_
  let f_v1 := broadcastInDim S1x256 ![1] bcast_S256_S1x256_1 f_v0
  let f_cst_0 := constant (F := F) S_ .f32 0x47435000#32
  let f_v2 := broadcastInDim S1x256 ![] bcast_S_S1x256 f_cst_0
  let f_v3 := Host.divf f_v1 f_v2
  let f_v4 := broadcastInDim S50000x256 ![0, 1] bcast_S1x256_S50000x256_0_1 f_v3
  let f_v5 := subf p f_v4
  let f_v6 := mulf f_v5 f_v5
  let f_v7 := sitofp (F := F) .f32 c_7
  let f_cst_1 := constant (F := F) S_ .f32 0x47435000#32
  let f_v8 := subf f_cst_1 f_v7
  let f_cst_2 := constant (F := F) S_ .f32 0x00000000#32
  let f_v9 := Host.reduceAdd f_v6 f_cst_2 reducesTo_S50000x256_S256_d0 h_S_
  let f_v10 := broadcastInDim S256 ![] bcast_S_S256 f_v8
  let f_v11 := Host.divf f_v9 f_v10
  let f_cst_3 := constant (F := F) S_ .f32 0x00000000#32
  let f_v12 := cmpf .ogt f_v8 f_cst_3
  let f_cst_4 := constant (F := F) S_ .f32 0x7FC00000#32
  let w_v0 := id f_cst_4
  let w_v1 := broadcastInDim S256 ![] bcast_S_S256 w_v0
  select (broadcastInDim S256 ![] bcast_S_S256 f_v12) f_v11 w_v1

/-- Batch normalisation over the 50000 rows at width 256: g · (x − mean) · rsqrt (var + ε) + b. -/
def rBn256 (p : FVec F S50000x256 .f32) (g b : FVec F S256 .f32) : FVec F S50000x256 .f32 :=
  let v47 := rMean256 p
  let v48 := rVar256 p
  let v49 := broadcastInDim S1x256 ![1] bcast_S256_S1x256_1 v47
  let v50 := broadcastInDim S50000x256 ![0, 1] bcast_S1x256_S50000x256_0_1 v49
  let v51 := subf p v50
  let v52 := broadcastInDim S1x256 ![1] bcast_S256_S1x256_1 g
  let v53 := broadcastInDim S50000x256 ![0, 1] bcast_S1x256_S50000x256_0_1 v52
  let v54 := mulf v53 v51
  let cst_8 := constant (F := F) S_ .f32 0x3727C5AC#32
  let v55 := broadcastInDim S256 ![] bcast_S_S256 cst_8
  let v56 := addf v48 v55
  let v57 := Host.rsqrt v56
  let v58 := broadcastInDim S1x256 ![1] bcast_S256_S1x256_1 v57
  let v59 := broadcastInDim S50000x256 ![0, 1] bcast_S1x256_S50000x256_0_1 v58
  let v60 := mulf v54 v59
  let v61 := broadcastInDim S1x256 ![1] bcast_S256_S1x256_1 b
  let v62 := broadcastInDim S50000x256 ![0, 1] bcast_S1x256_S50000x256_0_1 v61
  addf v60 v62

/-- A negative source index counts from the end: 50000 is added to it; the result as an index column. -/
def rWrap (src : IVec S800000 32) : IVec S800000x1 32 :=
  let c_2 := constantI S_ 32 0#32
  let v23 := broadcastInDim S800000 ![] bcast_S_S800000 c_2
  let v24 := cmpi .slt src v23
  let c_3 := constantI S_ 32 50000#32
  let v25 := broadcastInDim S800000 ![] bcast_S_S800000 c_3
  let v26 := addi src v25
  let v27 := select v24 v26 src
  broadcastInDim S800000x1 ![0] bcast_S800000_S800000x1_0 v27

/-- The messages of layer 1: relu (h[src] + edge_attr · We + be). -/
def rMsg128 (h : FVec F S50000x128 .f32) (src : IVec S800000 32) (ea : FVec F S800000x128 .f32)
    (We : FVec F S128x128 .f32) (be : FVec F S128 .f32) : FVec F S800000x128 .f32 :=
  let v28 := rWrap src
  let v29 := Host.gather gather_S50000x128_S800000x1_S800000x128_1_0_n_n_0_1_1128 h v28
  let v30 := Host.dotGeneral dot_S800000x128_S128x128_S800000x128_1_0_0_1_n_n none ea We
  let v31 := addf v29 v30
  let v32 := broadcastInDim S1x128 ![1] bcast_S128_S1x128_1 be
  let v33 := broadcastInDim S800000x128 ![0, 1] bcast_S1x128_S800000x128_0_1 v32
  let v34 := addf v31 v33
  -- relu: the maximum with zero
  let r_cst := constant (F := F) S_ .f32 0x00000000#32
  let r_v0 := broadcastInDim S800000x128 ![] bcast_S_S800000x128 r_cst
  maximumf v34 r_v0

/-- The segment sum of layer 1: the messages added into the rows their destinations name, from zero. -/
def rAgg128 (msg : FVec F S800000x128 .f32) (dst : IVec S800000 32) : FVec F S50000x128 .f32 :=
  let cst_4 := constant (F := F) S_ .f32 0x00000000#32
  let v36 := broadcastInDim S50000x128 ![] bcast_S_S50000x128 cst_4
  let v37 := broadcastInDim S800000x1 ![0] bcast_S800000_S800000x1_0 dst
  Host.scatterAdd scatter_S50000x128_S800000x1_S800000x128_1_0_0_1 v36 v37 msg

/-- The update of layer 1: tanh ((h + agg) · W + b). -/
def rUpd128 (h agg : FVec F S50000x128 .f32) (W : FVec F S128x256 .f32) (b : FVec F S256 .f32) :
    FVec F S50000x256 .f32 :=
  let v39 := addf h agg
  let v40 := Host.dotGeneral dot_S50000x128_S128x256_S50000x256_1_0_0_1_n_n none v39 W
  let v41 := broadcastInDim S1x256 ![1] bcast_S256_S1x256_1 b
  let v42 := broadcastInDim S50000x256 ![0, 1] bcast_S1x256_S50000x256_0_1 v41
  let v43 := addf v40 v42
  Host.tanh v43

/-- The messages of layer 2: relu (h[src] + edge_attr · We + be). -/
def rMsg256 (h : FVec F S50000x256 .f32) (src : IVec S800000 32) (ea : FVec F S800000x128 .f32)
    (We : FVec F S128x256 .f32) (be : FVec F S256 .f32) : FVec F S800000x256 .f32 :=
  let v69 := rWrap src
  let v70 := Host.gather gather_S50000x256_S800000x1_S800000x256_1_0_n_n_0_1_1256 h v69
  let v71 := Host.dotGeneral dot_S800000x128_S128x256_S800000x256_1_0_0_1_n_n none ea We
  let v72 := addf v70 v71
  let v73 := broadcastInDim S1x256 ![1] bcast_S256_S1x256_1 be
  let v74 := broadcastInDim S800000x256 ![0, 1] bcast_S1x256_S800000x256_0_1 v73
  let v75 := addf v72 v74
  -- relu: the maximum with zero
  let r_cst := constant (F := F) S_ .f32 0x00000000#32
  let r_v0 := broadcastInDim S800000x256 ![] bcast_S_S800000x256 r_cst
  maximumf v75 r_v0

/-- The segment sum of layer 2. -/
def rAgg256 (msg : FVec F S800000x256 .f32) (dst : IVec S800000 32) : FVec F S50000x256 .f32 :=
  let cst_11 := constant (F := F) S_ .f32 0x00000000#32
  let v77 := broadcastInDim S50000x256 ![] bcast_S_S50000x256 cst_11
  let v78 := broadcastInDim S800000x1 ![0] bcast_S800000_S800000x1_0 dst
  Host.scatterAdd scatter_S50000x256_S800000x1_S800000x256_1_0_0_1 v77 v78 msg

/-- The update of layer 2: tanh ((h + agg) · W + b). -/
def rUpd256 (h agg : FVec F S50000x256 .f32) (W : FVec F S256x256 .f32) (b : FVec F S256 .f32) :
    FVec F S50000x256 .f32 :=
  let v80 := addf h agg
  let v81 := Host.dotGeneral dot_S50000x256_S256x256_S50000x256_1_0_0_1_n_n none v80 W
  let v82 := broadcastInDim S1x256 ![1] bcast_S256_S1x256_1 b
  let v83 := broadcastInDim S50000x256 ![0, 1] bcast_S1x256_S50000x256_0_1 v82
  let v84 := addf v81 v83
  Host.tanh v84

/-- The final projection: tanh (h · Wfc). -/
def rFc (h : FVec F S50000x256 .f32) (W : FVec F S256x128 .f32) : FVec F S50000x128 .f32 :=
  let v105 := Host.dotGeneral dot_S50000x256_S256x128_S50000x128_1_0_0_1_n_n none h W
  Host.tanh v105

/-- The three feature blocks side by side: columns 0–255, 256–511, 512–639. -/
def rOut (h1 h2 : FVec F S50000x256 .f32) (h3 : FVec F S50000x128 .f32) : FVec F S50000x640 .f32 :=
  concatenate S50000x640 1 [⟨S50000x256, h1⟩, ⟨S50000x256, h2⟩, ⟨S50000x128, h3⟩]
    concatenates_S50000x256_S50000x256_S50000x128_S50000x640_d1

/-- The whole reference network on its eighteen arguments. -/
def rRes (x : FVec F S50000x128 .f32) (ei : IVec S2x800000 32) (ea : FVec F S800000x128 .f32)
    (gin bin : FVec F S128 .f32) (We0 : FVec F S128x128 .f32) (be0 : FVec F S128 .f32)
    (W0 : FVec F S128x256 .f32) (b0 g0 bb0 : FVec F S256 .f32) (We1 : FVec F S128x256 .f32)
    (be1 : FVec F S256 .f32) (W1 : FVec F S256x256 .f32) (b1 g1 bb1 : FVec F S256 .f32)
    (Wfc : FVec F S256x128 .f32) : FVec F S50000x640 .f32 :=
  let src := rSrc ei
  let dst := rDst ei
  let h := rBn128 x gin bin
  let h1 := rBn256 (rUpd128 h (rAgg128 (rMsg128 h src ea We0 be0) dst) W0 b0) g0 bb0
  let h2 := rBn256 (rUpd256 h1 (rAgg256 (rMsg256 h1 src ea We1 be1) dst) W1 b1) g1 bb1
  rOut h1 h2 (rFc h2 Wfc)

end Cert.ReferenceIdeal.Hand

end
-- ==== Proof.Ref.Run.lean ====
/-
  The reference network's program as one straight line of whole-array operations, and what its run leaves in
  memory. The line is cut into twelve consecutive stretches, each ending where one stage of the network has been
  computed: the two rows of the edge list; the input normalisation; then per layer the messages, their segment
  sum, the update and its normalisation; the final projection; the concatenation. Every buffer is written by
  exactly one operation (single assignment), so the contents of a stage's result after its stretch is the stage
  applied to the contents of its inputs before it, and no later stretch changes it. Chaining the stretches gives
  the result buffer as the composed network of the eighteen arguments, which themselves are never written.
-/
import proofs.«419488_j13426067767699_1_alg».proof.ReferenceIdeal
import proofs.«419488_j13426067767699_1_alg».proof.Proof.Gen.ReferenceIdeal
import Idealize.ShloMosaic.Lib.StableHlo.Run
import proofs.«419488_j13426067767699_1_alg».proof.Proof.Ref.Stages

noncomputable section

namespace Cert.ReferenceIdeal.Hand

open Cert.ReferenceIdeal Cert.ReferenceIdeal.Gen Idealize.ShloMosaic Idealize.SL.Sem Idealize.ShloMosaic.StableHlo

variable {F : FTy → Type} [FloatOps F]

/-! ## The operations, stretch by stretch

A called function's operations stand at its call, over the buffers that call names. -/

/-- The two rows of the edge list, each sliced out and flattened to a vector. -/
def s0 : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000 ]

/-- The normalisation of the input features: column means, the column variances (the called function and its
    guarded choice), then scale, shift. -/
def s1 : List (HloOp τ sig (Elt F)) :=
  [ nullary main_cst (constant S_ .f32 0x00000000#32),
    binary main_arg0 main_cst main_v4 (fun x v => Host.reduceAdd x v reducesTo_S50000x128_S128_d0 h_S_),
    nullary main_cst_0 (constant S_ .f32 0x47435000#32),
    unary main_cst_0 main_v5 (broadcastInDim S128 ![] bcast_S_S128),
    binary main_v4 main_v5 main_v6 Host.divf,
    nullary main_c (constantI S_ 32 0#32),
    TRef.nullary main_call0.cst (constant S_ .f32 0x00000000#32),
    TRef.binary (.of main_arg0 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_arg0 : TRef sig ⟨S50000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v6 main_v8 (broadcastInDim S1x128 ![1] bcast_S128_S1x128_1),
    unary main_v8 main_v9 (broadcastInDim S50000x128 ![0, 1] bcast_S1x128_S50000x128_0_1),
    binary main_arg0 main_v9 main_v10 subf,
    unary main_arg3 main_v11 (broadcastInDim S1x128 ![1] bcast_S128_S1x128_1),
    unary main_v11 main_v12 (broadcastInDim S50000x128 ![0, 1] bcast_S1x128_S50000x128_0_1),
    binary main_v12 main_v10 main_v13 mulf,
    nullary main_cst_1 (constant S_ .f32 0x3727C5AC#32),
    unary main_cst_1 main_v14 (broadcastInDim S128 ![] bcast_S_S128),
    binary main_v7 main_v14 main_v15 addf,
    unary main_v15 main_v16 Host.rsqrt,
    unary main_v16 main_v17 (broadcastInDim S1x128 ![1] bcast_S128_S1x128_1),
    unary main_v17 main_v18 (broadcastInDim S50000x128 ![0, 1] bcast_S1x128_S50000x128_0_1),
    binary main_v13 main_v18 main_v19 mulf,
    unary main_arg4 main_v20 (broadcastInDim S1x128 ![1] bcast_S128_S1x128_1),
    unary main_v20 main_v21 (broadcastInDim S50000x128 ![0, 1] bcast_S1x128_S50000x128_0_1),
    binary main_v19 main_v21 main_v22 addf ]

/-- The messages of layer 1: the wrapped source index, the gathered rows, the edge term, the bias, relu. -/
def s2 : List (HloOp τ sig (Elt F)) :=
  [ nullary main_c_2 (constantI S_ 32 0#32),
    unary main_c_2 main_v23 (broadcastInDim S800000 ![] bcast_S_S800000),
    binary main_v1 main_v23 main_v24 (cmpi .slt),
    nullary main_c_3 (constantI S_ 32 50000#32),
    unary main_c_3 main_v25 (broadcastInDim S800000 ![] bcast_S_S800000),
    binary main_v1 main_v25 main_v26 addi,
    ternary main_v24 main_v26 main_v1 main_v27 select,
    unary main_v27 main_v28 (broadcastInDim S800000x1 ![0] bcast_S800000_S800000x1_0),
    binary main_v22 main_v28 main_v29 (fun x i => Host.gather gather_S50000x128_S800000x1_S800000x128_1_0_n_n_0_1_1128 x i),
    binary main_arg2 main_arg5 main_v30 (fun l r => Host.dotGeneral dot_S800000x128_S128x128_S800000x128_1_0_0_1_n_n none l r),
    binary main_v29 main_v30 main_v31 addf,
    unary main_arg6 main_v32 (broadcastInDim S1x128 ![1] bcast_S128_S1x128_1),
    unary main_v32 main_v33 (broadcastInDim S800000x128 ![0, 1] bcast_S1x128_S800000x128_0_1),
    binary main_v31 main_v33 main_v34 addf,
    TRef.nullary main_call1.cst (constant S_ .f32 0x00000000#32),
    TRef.unary main_call1.cst main_call1.v0 (broadcastInDim S800000x128 ![] bcast_S_S800000x128),
    TRef.binary (.of main_v34 : TRef sig ⟨S800000x128, .f32⟩) main_call1.v0 main_call1.v1 maximumf ]

/-- The segment sum of layer 1: the messages added from zero into the rows their destinations name. -/
def s3 : List (HloOp τ sig (Elt F)) :=
  [ nullary main_cst_4 (constant S_ .f32 0x00000000#32),
    unary main_cst_4 main_v36 (broadcastInDim S50000x128 ![] bcast_S_S50000x128),
    unary main_v3 main_v37 (broadcastInDim S800000x1 ![0] bcast_S800000_S800000x1_0),
    ternary main_v36 main_v37 main_v35 main_v38 (fun x i u => Host.scatterAdd scatter_S50000x128_S800000x1_S800000x128_1_0_0_1 x i u) ]

/-- The update of layer 1: tanh ((h + agg) · W + b). -/
def s4 : List (HloOp τ sig (Elt F)) :=
  [ binary main_v22 main_v38 main_v39 addf,
    binary main_v39 main_arg7 main_v40 (fun l r => Host.dotGeneral dot_S50000x128_S128x256_S50000x256_1_0_0_1_n_n none l r),
    unary main_arg8 main_v41 (broadcastInDim S1x256 ![1] bcast_S256_S1x256_1),
    unary main_v41 main_v42 (broadcastInDim S50000x256 ![0, 1] bcast_S1x256_S50000x256_0_1),
    binary main_v40 main_v42 main_v43 addf,
    unary main_v43 main_v44 Host.tanh ]

/-- The normalisation of layer 1's update, at width 256. -/
def s5 : List (HloOp τ sig (Elt F)) :=
  [ nullary main_cst_5 (constant S_ .f32 0x00000000#32),
    binary main_v44 main_cst_5 main_v45 (fun x v => Host.reduceAdd x v reducesTo_S50000x256_S256_d0 h_S_),
    nullary main_cst_6 (constant S_ .f32 0x47435000#32),
    unary main_cst_6 main_v46 (broadcastInDim S256 ![] bcast_S_S256),
    binary main_v45 main_v46 main_v47 Host.divf,
    nullary main_c_7 (constantI S_ 32 0#32),
    TRef.nullary main_call2.cst (constant S_ .f32 0x00000000#32),
    TRef.binary (.of main_v44 : TRef sig ⟨S50000x256, .f32⟩) main_call2.cst main_call2.v0 (fun x v => Host.reduceAdd x v reducesTo_S50000x256_S256_d0 h_S_),
    TRef.unary main_call2.v0 main_call2.v1 (broadcastInDim S1x256 ![1] bcast_S256_S1x256_1),
    TRef.nullary main_call2.cst_0 (constant S_ .f32 0x47435000#32),
    TRef.unary main_call2.cst_0 main_call2.v2 (broadcastInDim S1x256 ![] bcast_S_S1x256),
    TRef.binary main_call2.v1 main_call2.v2 main_call2.v3 Host.divf,
    TRef.unary main_call2.v3 main_call2.v4 (broadcastInDim S50000x256 ![0, 1] bcast_S1x256_S50000x256_0_1),
    TRef.binary (.of main_v44 : TRef sig ⟨S50000x256, .f32⟩) main_call2.v4 main_call2.v5 subf,
    TRef.binary main_call2.v5 main_call2.v5 main_call2.v6 mulf,
    TRef.unary (.of main_c_7 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x256_S256_d0 h_S_),
    TRef.unary main_call2.v8 main_call2.v10 (broadcastInDim S256 ![] bcast_S_S256),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S256 ![] bcast_S_S256),
    TRef.ternary main_call2.v12 main_call2.v11 main_call2.call0.v1 main_call2.call0.v2 (fun p a b => select (broadcastInDim S256 ![] bcast_S_S256 p) a b),
    unary main_v47 main_v49 (broadcastInDim S1x256 ![1] bcast_S256_S1x256_1),
    unary main_v49 main_v50 (broadcastInDim S50000x256 ![0, 1] bcast_S1x256_S50000x256_0_1),
    binary main_v44 main_v50 main_v51 subf,
    unary main_arg9 main_v52 (broadcastInDim S1x256 ![1] bcast_S256_S1x256_1),
    unary main_v52 main_v53 (broadcastInDim S50000x256 ![0, 1] bcast_S1x256_S50000x256_0_1),
    binary main_v53 main_v51 main_v54 mulf,
    nullary main_cst_8 (constant S_ .f32 0x3727C5AC#32),
    unary main_cst_8 main_v55 (broadcastInDim S256 ![] bcast_S_S256),
    binary main_v48 main_v55 main_v56 addf,
    unary main_v56 main_v57 Host.rsqrt,
    unary main_v57 main_v58 (broadcastInDim S1x256 ![1] bcast_S256_S1x256_1),
    unary main_v58 main_v59 (broadcastInDim S50000x256 ![0, 1] bcast_S1x256_S50000x256_0_1),
    binary main_v54 main_v59 main_v60 mulf,
    unary main_arg10 main_v61 (broadcastInDim S1x256 ![1] bcast_S256_S1x256_1),
    unary main_v61 main_v62 (broadcastInDim S50000x256 ![0, 1] bcast_S1x256_S50000x256_0_1),
    binary main_v60 main_v62 main_v63 addf ]

/-- The messages of layer 2. -/
def s6 : List (HloOp τ sig (Elt F)) :=
  [ nullary main_c_9 (constantI S_ 32 0#32),
    unary main_c_9 main_v64 (broadcastInDim S800000 ![] bcast_S_S800000),
    binary main_v1 main_v64 main_v65 (cmpi .slt),
    nullary main_c_10 (constantI S_ 32 50000#32),
    unary main_c_10 main_v66 (broadcastInDim S800000 ![] bcast_S_S800000),
    binary main_v1 main_v66 main_v67 addi,
    ternary main_v65 main_v67 main_v1 main_v68 select,
    unary main_v68 main_v69 (broadcastInDim S800000x1 ![0] bcast_S800000_S800000x1_0),
    binary main_v63 main_v69 main_v70 (fun x i => Host.gather gather_S50000x256_S800000x1_S800000x256_1_0_n_n_0_1_1256 x i),
    binary main_arg2 main_arg11 main_v71 (fun l r => Host.dotGeneral dot_S800000x128_S128x256_S800000x256_1_0_0_1_n_n none l r),
    binary main_v70 main_v71 main_v72 addf,
    unary main_arg12 main_v73 (broadcastInDim S1x256 ![1] bcast_S256_S1x256_1),
    unary main_v73 main_v74 (broadcastInDim S800000x256 ![0, 1] bcast_S1x256_S800000x256_0_1),
    binary main_v72 main_v74 main_v75 addf,
    TRef.nullary main_call3.cst (constant S_ .f32 0x00000000#32),
    TRef.unary main_call3.cst main_call3.v0 (broadcastInDim S800000x256 ![] bcast_S_S800000x256),
    TRef.binary (.of main_v75 : TRef sig ⟨S800000x256, .f32⟩) main_call3.v0 main_call3.v1 maximumf ]

/-- The segment sum of layer 2. -/
def s7 : List (HloOp τ sig (Elt F)) :=
  [ nullary main_cst_11 (constant S_ .f32 0x00000000#32),
    unary main_cst_11 main_v77 (broadcastInDim S50000x256 ![] bcast_S_S50000x256),
    unary main_v3 main_v78 (broadcastInDim S800000x1 ![0] bcast_S800000_S800000x1_0),
    ternary main_v77 main_v78 main_v76 main_v79 (fun x i u => Host.scatterAdd scatter_S50000x256_S800000x1_S800000x256_1_0_0_1 x i u) ]

/-- The update of layer 2. -/
def s8 : List (HloOp τ sig (Elt F)) :=
  [ binary main_v63 main_v79 main_v80 addf,
    binary main_v80 main_arg13 main_v81 (fun l r => Host.dotGeneral dot_S50000x256_S256x256_S50000x256_1_0_0_1_n_n none l r),
    unary main_arg14 main_v82 (broadcastInDim S1x256 ![1] bcast_S256_S1x256_1),
    unary main_v82 main_v83 (broadcastInDim S50000x256 ![0, 1] bcast_S1x256_S50000x256_0_1),
    binary main_v81 main_v83 main_v84 addf,
    unary main_v84 main_v85 Host.tanh ]

/-- The normalisation of layer 2's update. -/
def s9 : List (HloOp τ sig (Elt F)) :=
  [ nullary main_cst_12 (constant S_ .f32 0x00000000#32),
    binary main_v85 main_cst_12 main_v86 (fun x v => Host.reduceAdd x v reducesTo_S50000x256_S256_d0 h_S_),
    nullary main_cst_13 (constant S_ .f32 0x47435000#32),
    unary main_cst_13 main_v87 (broadcastInDim S256 ![] bcast_S_S256),
    binary main_v86 main_v87 main_v88 Host.divf,
    nullary main_c_14 (constantI S_ 32 0#32),
    TRef.nullary main_call4.cst (constant S_ .f32 0x00000000#32),
    TRef.binary (.of main_v85 : TRef sig ⟨S50000x256, .f32⟩) main_call4.cst main_call4.v0 (fun x v => Host.reduceAdd x v reducesTo_S50000x256_S256_d0 h_S_),
    TRef.unary main_call4.v0 main_call4.v1 (broadcastInDim S1x256 ![1] bcast_S256_S1x256_1),
    TRef.nullary main_call4.cst_0 (constant S_ .f32 0x47435000#32),
    TRef.unary main_call4.cst_0 main_call4.v2 (broadcastInDim S1x256 ![] bcast_S_S1x256),
    TRef.binary main_call4.v1 main_call4.v2 main_call4.v3 Host.divf,
    TRef.unary main_call4.v3 main_call4.v4 (broadcastInDim S50000x256 ![0, 1] bcast_S1x256_S50000x256_0_1),
    TRef.binary (.of main_v85 : TRef sig ⟨S50000x256, .f32⟩) main_call4.v4 main_call4.v5 subf,
    TRef.binary main_call4.v5 main_call4.v5 main_call4.v6 mulf,
    TRef.unary (.of main_c_14 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x256_S256_d0 h_S_),
    TRef.unary main_call4.v8 main_call4.v10 (broadcastInDim S256 ![] bcast_S_S256),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S256 ![] bcast_S_S256),
    TRef.ternary main_call4.v12 main_call4.v11 main_call4.call0.v1 main_call4.call0.v2 (fun p a b => select (broadcastInDim S256 ![] bcast_S_S256 p) a b),
    unary main_v88 main_v90 (broadcastInDim S1x256 ![1] bcast_S256_S1x256_1),
    unary main_v90 main_v91 (broadcastInDim S50000x256 ![0, 1] bcast_S1x256_S50000x256_0_1),
    binary main_v85 main_v91 main_v92 subf,
    unary main_arg15 main_v93 (broadcastInDim S1x256 ![1] bcast_S256_S1x256_1),
    unary main_v93 main_v94 (broadcastInDim S50000x256 ![0, 1] bcast_S1x256_S50000x256_0_1),
    binary main_v94 main_v92 main_v95 mulf,
    nullary main_cst_15 (constant S_ .f32 0x3727C5AC#32),
    unary main_cst_15 main_v96 (broadcastInDim S256 ![] bcast_S_S256),
    binary main_v89 main_v96 main_v97 addf,
    unary main_v97 main_v98 Host.rsqrt,
    unary main_v98 main_v99 (broadcastInDim S1x256 ![1] bcast_S256_S1x256_1),
    unary main_v99 main_v100 (broadcastInDim S50000x256 ![0, 1] bcast_S1x256_S50000x256_0_1),
    binary main_v95 main_v100 main_v101 mulf,
    unary main_arg16 main_v102 (broadcastInDim S1x256 ![1] bcast_S256_S1x256_1),
    unary main_v102 main_v103 (broadcastInDim S50000x256 ![0, 1] bcast_S1x256_S50000x256_0_1),
    binary main_v101 main_v103 main_v104 addf ]

/-- The final projection: tanh (h₂ · Wfc). -/
def s10 : List (HloOp τ sig (Elt F)) :=
  [ binary main_v104 main_arg17 main_v105 (fun l r => Host.dotGeneral dot_S50000x256_S256x128_S50000x128_1_0_0_1_n_n none l r),
    unary main_v105 main_v106 Host.tanh ]

/-- The three feature blocks side by side. -/
def s11 : List (HloOp τ sig (Elt F)) :=
  [ nary ![main_v63, main_v104, main_v106] main_v107 (fun u => concatenate S50000x640 1 [⟨S50000x256, u 0⟩, ⟨S50000x256, u 1⟩, ⟨S50000x128, u 2⟩] concatenates_S50000x256_S50000x256_S50000x128_S50000x640_d1) ]

/-- The whole line: the twelve stretches in order. -/
abbrev ops : List (HloOp τ sig (Elt F)) :=
  s0 ++ (s1 ++ (s2 ++ (s3 ++ (s4 ++ (s5 ++ (s6 ++ (s7 ++ (s8 ++ (s9 ++ (s10 ++ s11))))))))))

set_option maxRecDepth 16384 in
set_option maxHeartbeats 4000000 in
/-- The program is that line: the called functions unfolded at their calls and the records at their fields, both
    sides are one chain of steps once sequencing is reassociated. -/
theorem main_eq (c : Dev nD) : main (F := F) c = seq ops := by
  simp only [main, main_part0, main_part1, main_part2, fn_var.body, fn_where.body, fn_relu.body, fn_var_0.body,
    fn_where_1.body, fn_relu_2.body, ops, s0, s1, s2, s3, s4, s5, s6, s7, s8, s9, s10, s11, List.cons_append,
    List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

/-- Closes "each operation of this literal list touches only TensorCore references". -/
macro "bufs_sub_tac" : tactic =>
  `(tactic| simp only [List.Forall, nullary_bufs_sub, unary_bufs_sub, binary_bufs_sub, ternary_bufs_sub, reshape_bufs_sub,
      nary_bufs_sub, and_self])

set_option maxRecDepth 8192 in
theorem s0_sub : (s0 : List (HloOp τ sig (Elt F))).Forall fun op => op.bufs ⊆ tcRefs τ sig := by unfold s0; bufs_sub_tac
set_option maxRecDepth 8192 in
theorem s1_sub : (s1 : List (HloOp τ sig (Elt F))).Forall fun op => op.bufs ⊆ tcRefs τ sig := by unfold s1; bufs_sub_tac
set_option maxRecDepth 8192 in
theorem s2_sub : (s2 : List (HloOp τ sig (Elt F))).Forall fun op => op.bufs ⊆ tcRefs τ sig := by unfold s2; bufs_sub_tac
set_option maxRecDepth 8192 in
theorem s3_sub : (s3 : List (HloOp τ sig (Elt F))).Forall fun op => op.bufs ⊆ tcRefs τ sig := by unfold s3; bufs_sub_tac
set_option maxRecDepth 8192 in
theorem s4_sub : (s4 : List (HloOp τ sig (Elt F))).Forall fun op => op.bufs ⊆ tcRefs τ sig := by unfold s4; bufs_sub_tac
set_option maxRecDepth 8192 in
theorem s5_sub : (s5 : List (HloOp τ sig (Elt F))).Forall fun op => op.bufs ⊆ tcRefs τ sig := by unfold s5; bufs_sub_tac
set_option maxRecDepth 8192 in
theorem s6_sub : (s6 : List (HloOp τ sig (Elt F))).Forall fun op => op.bufs ⊆ tcRefs τ sig := by unfold s6; bufs_sub_tac
set_option maxRecDepth 8192 in
theorem s7_sub : (s7 : List (HloOp τ sig (Elt F))).Forall fun op => op.bufs ⊆ tcRefs τ sig := by unfold s7; bufs_sub_tac
set_option maxRecDepth 8192 in
theorem s8_sub : (s8 : List (HloOp τ sig (Elt F))).Forall fun op => op.bufs ⊆ tcRefs τ sig := by unfold s8; bufs_sub_tac
set_option maxRecDepth 8192 in
theorem s9_sub : (s9 : List (HloOp τ sig (Elt F))).Forall fun op => op.bufs ⊆ tcRefs τ sig := by unfold s9; bufs_sub_tac
set_option maxRecDepth 8192 in
theorem s10_sub : (s10 : List (HloOp τ sig (Elt F))).Forall fun op => op.bufs ⊆ tcRefs τ sig := by unfold s10; bufs_sub_tac
set_option maxRecDepth 8192 in
theorem s11_sub : (s11 : List (HloOp τ sig (Elt F))).Forall fun op => op.bufs ⊆ tcRefs τ sig := by unfold s11; bufs_sub_tac

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h
    exacts [List.forall_iff_forall_mem.mp s0_sub op h, List.forall_iff_forall_mem.mp s1_sub op h,
      List.forall_iff_forall_mem.mp s2_sub op h, List.forall_iff_forall_mem.mp s3_sub op h,
      List.forall_iff_forall_mem.mp s4_sub op h, List.forall_iff_forall_mem.mp s5_sub op h,
      List.forall_iff_forall_mem.mp s6_sub op h, List.forall_iff_forall_mem.mp s7_sub op h,
      List.forall_iff_forall_mem.mp s8_sub op h, List.forall_iff_forall_mem.mp s9_sub op h,
      List.forall_iff_forall_mem.mp s10_sub op h, List.forall_iff_forall_mem.mp s11_sub op h]

/-! ## What each stretch writes, and that it leaves every other buffer alone -/

abbrev s0_W : List (Ref sig .tc) := [main_v0, main_v1, main_v2, main_v3]
abbrev s1_W : List (Ref sig .tc) :=
  [main_cst, main_v4, main_cst_0, main_v5, main_v6, main_c, main_call0_cst, main_call0_v0, main_call0_v1, main_call0_cst_0,
    main_call0_v2, main_call0_v3, main_call0_v4, main_call0_v5, main_call0_v6, main_call0_v7, main_call0_cst_1, main_call0_v8,
    main_call0_cst_2, main_call0_v9, main_call0_v10, main_call0_v11, main_call0_cst_3, main_call0_v12, main_call0_cst_4,
    main_call0_call0_v0, main_call0_call0_v1, main_v7, main_v8, main_v9, main_v10, main_v11, main_v12, main_v13, main_cst_1,
    main_v14, main_v15, main_v16, main_v17, main_v18, main_v19, main_v20, main_v21, main_v22]
abbrev s2_W : List (Ref sig .tc) :=
  [main_c_2, main_v23, main_v24, main_c_3, main_v25, main_v26, main_v27, main_v28, main_v29, main_v30, main_v31, main_v32,
    main_v33, main_v34, main_call1_cst, main_call1_v0, main_v35]
abbrev s3_W : List (Ref sig .tc) := [main_cst_4, main_v36, main_v37, main_v38]
abbrev s4_W : List (Ref sig .tc) := [main_v39, main_v40, main_v41, main_v42, main_v43, main_v44]
abbrev s5_W : List (Ref sig .tc) :=
  [main_cst_5, main_v45, main_cst_6, main_v46, main_v47, main_c_7, main_call2_cst, main_call2_v0, main_call2_v1, main_call2_cst_0,
    main_call2_v2, main_call2_v3, main_call2_v4, main_call2_v5, main_call2_v6, main_call2_v7, main_call2_cst_1, main_call2_v8,
    main_call2_cst_2, main_call2_v9, main_call2_v10, main_call2_v11, main_call2_cst_3, main_call2_v12, main_call2_cst_4,
    main_call2_call0_v0, main_call2_call0_v1, main_v48, main_v49, main_v50, main_v51, main_v52, main_v53, main_v54, main_cst_8,
    main_v55, main_v56, main_v57, main_v58, main_v59, main_v60, main_v61, main_v62, main_v63]
abbrev s6_W : List (Ref sig .tc) :=
  [main_c_9, main_v64, main_v65, main_c_10, main_v66, main_v67, main_v68, main_v69, main_v70, main_v71, main_v72, main_v73,
    main_v74, main_v75, main_call3_cst, main_call3_v0, main_v76]
abbrev s7_W : List (Ref sig .tc) := [main_cst_11, main_v77, main_v78, main_v79]
abbrev s8_W : List (Ref sig .tc) := [main_v80, main_v81, main_v82, main_v83, main_v84, main_v85]
abbrev s9_W : List (Ref sig .tc) :=
  [main_cst_12, main_v86, main_cst_13, main_v87, main_v88, main_c_14, main_call4_cst, main_call4_v0, main_call4_v1, main_call4_cst_0,
    main_call4_v2, main_call4_v3, main_call4_v4, main_call4_v5, main_call4_v6, main_call4_v7, main_call4_cst_1, main_call4_v8,
    main_call4_cst_2, main_call4_v9, main_call4_v10, main_call4_v11, main_call4_cst_3, main_call4_v12, main_call4_cst_4,
    main_call4_call0_v0, main_call4_call0_v1, main_v89, main_v90, main_v91, main_v92, main_v93, main_v94, main_v95, main_cst_15,
    main_v96, main_v97, main_v98, main_v99, main_v100, main_v101, main_v102, main_v103, main_v104]
abbrev s10_W : List (Ref sig .tc) := [main_v105, main_v106]
abbrev s11_W : List (Ref sig .tc) := [main_v107]

/-- Closes "each operation of this literal list writes a buffer of this literal list". -/
macro "writes_tac" : tactic =>
  `(tactic| (simp only [List.Forall, nullary_writes, unary_writes, binary_writes, ternary_writes, reshape_writes, nary_writes,
      Finset.singleton_subset_iff, List.mem_toFinset]
             repeat' apply And.intro
             all_goals exact List.mem_map_of_mem (by decide)))

set_option maxRecDepth 8192 in
theorem s0_writes : (s0 : List (HloOp τ sig (Elt F))).Forall fun op => op.writes ⊆ (s0_W.map (Proc.devRef (τ := τ) .tc)).toFinset := by
  unfold s0; writes_tac
set_option maxRecDepth 8192 in
theorem s1_writes : (s1 : List (HloOp τ sig (Elt F))).Forall fun op => op.writes ⊆ (s1_W.map (Proc.devRef (τ := τ) .tc)).toFinset := by
  unfold s1; writes_tac
set_option maxRecDepth 8192 in
theorem s2_writes : (s2 : List (HloOp τ sig (Elt F))).Forall fun op => op.writes ⊆ (s2_W.map (Proc.devRef (τ := τ) .tc)).toFinset := by
  unfold s2; writes_tac
set_option maxRecDepth 8192 in
theorem s3_writes : (s3 : List (HloOp τ sig (Elt F))).Forall fun op => op.writes ⊆ (s3_W.map (Proc.devRef (τ := τ) .tc)).toFinset := by
  unfold s3; writes_tac
set_option maxRecDepth 8192 in
theorem s4_writes : (s4 : List (HloOp τ sig (Elt F))).Forall fun op => op.writes ⊆ (s4_W.map (Proc.devRef (τ := τ) .tc)).toFinset := by
  unfold s4; writes_tac
set_option maxRecDepth 8192 in
theorem s5_writes : (s5 : List (HloOp τ sig (Elt F))).Forall fun op => op.writes ⊆ (s5_W.map (Proc.devRef (τ := τ) .tc)).toFinset := by
  unfold s5; writes_tac
set_option maxRecDepth 8192 in
theorem s6_writes : (s6 : List (HloOp τ sig (Elt F))).Forall fun op => op.writes ⊆ (s6_W.map (Proc.devRef (τ := τ) .tc)).toFinset := by
  unfold s6; writes_tac
set_option maxRecDepth 8192 in
theorem s7_writes : (s7 : List (HloOp τ sig (Elt F))).Forall fun op => op.writes ⊆ (s7_W.map (Proc.devRef (τ := τ) .tc)).toFinset := by
  unfold s7; writes_tac
set_option maxRecDepth 8192 in
theorem s8_writes : (s8 : List (HloOp τ sig (Elt F))).Forall fun op => op.writes ⊆ (s8_W.map (Proc.devRef (τ := τ) .tc)).toFinset := by
  unfold s8; writes_tac
set_option maxRecDepth 8192 in
theorem s9_writes : (s9 : List (HloOp τ sig (Elt F))).Forall fun op => op.writes ⊆ (s9_W.map (Proc.devRef (τ := τ) .tc)).toFinset := by
  unfold s9; writes_tac
set_option maxRecDepth 8192 in
theorem s10_writes : (s10 : List (HloOp τ sig (Elt F))).Forall fun op => op.writes ⊆ (s10_W.map (Proc.devRef (τ := τ) .tc)).toFinset := by
  unfold s10; writes_tac
set_option maxRecDepth 8192 in
theorem s11_writes : (s11 : List (HloOp τ sig (Elt F))).Forall fun op => op.writes ⊆ (s11_W.map (Proc.devRef (τ := τ) .tc)).toFinset := by
  unfold s11; writes_tac

/-! A buffer a stretch does not write keeps its contents through it. -/

theorem s0_keep (W : Valuation τ sig (Elt F)) (r : Ref sig .tc) (h : r ∉ s0_W) :
    after s0 W (no_index (Proc.devRef .tc r)) = W (Proc.devRef .tc r) := after_of_writes_sub s0 W s0_writes h
theorem s1_keep (W : Valuation τ sig (Elt F)) (r : Ref sig .tc) (h : r ∉ s1_W) :
    after s1 W (no_index (Proc.devRef .tc r)) = W (Proc.devRef .tc r) := after_of_writes_sub s1 W s1_writes h
theorem s2_keep (W : Valuation τ sig (Elt F)) (r : Ref sig .tc) (h : r ∉ s2_W) :
    after s2 W (no_index (Proc.devRef .tc r)) = W (Proc.devRef .tc r) := after_of_writes_sub s2 W s2_writes h
theorem s3_keep (W : Valuation τ sig (Elt F)) (r : Ref sig .tc) (h : r ∉ s3_W) :
    after s3 W (no_index (Proc.devRef .tc r)) = W (Proc.devRef .tc r) := after_of_writes_sub s3 W s3_writes h
theorem s4_keep (W : Valuation τ sig (Elt F)) (r : Ref sig .tc) (h : r ∉ s4_W) :
    after s4 W (no_index (Proc.devRef .tc r)) = W (Proc.devRef .tc r) := after_of_writes_sub s4 W s4_writes h
theorem s5_keep (W : Valuation τ sig (Elt F)) (r : Ref sig .tc) (h : r ∉ s5_W) :
    after s5 W (no_index (Proc.devRef .tc r)) = W (Proc.devRef .tc r) := after_of_writes_sub s5 W s5_writes h
theorem s6_keep (W : Valuation τ sig (Elt F)) (r : Ref sig .tc) (h : r ∉ s6_W) :
    after s6 W (no_index (Proc.devRef .tc r)) = W (Proc.devRef .tc r) := after_of_writes_sub s6 W s6_writes h
theorem s7_keep (W : Valuation τ sig (Elt F)) (r : Ref sig .tc) (h : r ∉ s7_W) :
    after s7 W (no_index (Proc.devRef .tc r)) = W (Proc.devRef .tc r) := after_of_writes_sub s7 W s7_writes h
theorem s8_keep (W : Valuation τ sig (Elt F)) (r : Ref sig .tc) (h : r ∉ s8_W) :
    after s8 W (no_index (Proc.devRef .tc r)) = W (Proc.devRef .tc r) := after_of_writes_sub s8 W s8_writes h
theorem s9_keep (W : Valuation τ sig (Elt F)) (r : Ref sig .tc) (h : r ∉ s9_W) :
    after s9 W (no_index (Proc.devRef .tc r)) = W (Proc.devRef .tc r) := after_of_writes_sub s9 W s9_writes h
theorem s10_keep (W : Valuation τ sig (Elt F)) (r : Ref sig .tc) (h : r ∉ s10_W) :
    after s10 W (no_index (Proc.devRef .tc r)) = W (Proc.devRef .tc r) := after_of_writes_sub s10 W s10_writes h
theorem s11_keep (W : Valuation τ sig (Elt F)) (r : Ref sig .tc) (h : r ∉ s11_W) :
    after s11 W (no_index (Proc.devRef .tc r)) = W (Proc.devRef .tc r) := after_of_writes_sub s11 W s11_writes h

/-- Running two lines one after the other is running their concatenation. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- An argument's contents after the whole line: no stretch writes it. -/
theorem after_ops_keep (V : Valuation τ sig (Elt F)) (r : Ref sig .tc)
    (h0 : r ∉ s0_W) (h1 : r ∉ s1_W) (h2 : r ∉ s2_W) (h3 : r ∉ s3_W) (h4 : r ∉ s4_W) (h5 : r ∉ s5_W) (h6 : r ∉ s6_W)
    (h7 : r ∉ s7_W) (h8 : r ∉ s8_W) (h9 : r ∉ s9_W) (h10 : r ∉ s10_W) (h11 : r ∉ s11_W) :
    after ops V (Proc.devRef .tc r) = V (Proc.devRef .tc r) := by
  simp only [ops, after_append']
  rw [s11_keep _ r h11, s10_keep _ r h10, s9_keep _ r h9, s8_keep _ r h8, s7_keep _ r h7, s6_keep _ r h6, s5_keep _ r h5,
    s4_keep _ r h4, s3_keep _ r h3, s2_keep _ r h2, s1_keep _ r h1, s0_keep _ r h0]

/-! ## Each stage's result after its stretch

The contents of the stretch's last buffer, read off operation by operation, is the stage's definition unfolded. -/

theorem s0_src (W : Valuation τ sig (Elt F)) :
    after s0 W (no_index (Proc.devRef .tc main_v1)) = rSrc (W (Proc.devRef .tc main_arg1)) := by
  unfold s0; after_results_simp; rfl
theorem s0_dst (W : Valuation τ sig (Elt F)) :
    after s0 W (no_index (Proc.devRef .tc main_v3)) = rDst (W (Proc.devRef .tc main_arg1)) := by
  unfold s0; after_results_simp; rfl
set_option maxRecDepth 8192 in
set_option maxHeartbeats 2000000 in
theorem s1_res (W : Valuation τ sig (Elt F)) :
    after s1 W (no_index (Proc.devRef .tc main_v22))
      = rBn128 (W (Proc.devRef .tc main_arg0)) (W (Proc.devRef .tc main_arg3)) (W (Proc.devRef .tc main_arg4)) := by
  unfold s1; after_results_simp; rfl
set_option maxRecDepth 8192 in
set_option maxHeartbeats 2000000 in
theorem s2_res (W : Valuation τ sig (Elt F)) :
    after s2 W (no_index (Proc.devRef .tc main_v35))
      = rMsg128 (W (Proc.devRef .tc main_v22)) (W (Proc.devRef .tc main_v1)) (W (Proc.devRef .tc main_arg2))
          (W (Proc.devRef .tc main_arg5)) (W (Proc.devRef .tc main_arg6)) := by
  unfold s2; after_results_simp; rfl
theorem s3_res (W : Valuation τ sig (Elt F)) :
    after s3 W (no_index (Proc.devRef .tc main_v38))
      = rAgg128 (W (Proc.devRef .tc main_v35)) (W (Proc.devRef .tc main_v3)) := by
  unfold s3; after_results_simp; rfl
theorem s4_res (W : Valuation τ sig (Elt F)) :
    after s4 W (no_index (Proc.devRef .tc main_v44))
      = rUpd128 (W (Proc.devRef .tc main_v22)) (W (Proc.devRef .tc main_v38)) (W (Proc.devRef .tc main_arg7))
          (W (Proc.devRef .tc main_arg8)) := by
  unfold s4; after_results_simp; rfl
set_option maxRecDepth 8192 in
set_option maxHeartbeats 2000000 in
theorem s5_res (W : Valuation τ sig (Elt F)) :
    after s5 W (no_index (Proc.devRef .tc main_v63))
      = rBn256 (W (Proc.devRef .tc main_v44)) (W (Proc.devRef .tc main_arg9)) (W (Proc.devRef .tc main_arg10)) := by
  unfold s5; after_results_simp; rfl
set_option maxRecDepth 8192 in
set_option maxHeartbeats 2000000 in
theorem s6_res (W : Valuation τ sig (Elt F)) :
    after s6 W (no_index (Proc.devRef .tc main_v76))
      = rMsg256 (W (Proc.devRef .tc main_v63)) (W (Proc.devRef .tc main_v1)) (W (Proc.devRef .tc main_arg2))
          (W (Proc.devRef .tc main_arg11)) (W (Proc.devRef .tc main_arg12)) := by
  unfold s6; after_results_simp; rfl
theorem s7_res (W : Valuation τ sig (Elt F)) :
    after s7 W (no_index (Proc.devRef .tc main_v79))
      = rAgg256 (W (Proc.devRef .tc main_v76)) (W (Proc.devRef .tc main_v3)) := by
  unfold s7; after_results_simp; rfl
theorem s8_res (W : Valuation τ sig (Elt F)) :
    after s8 W (no_index (Proc.devRef .tc main_v85))
      = rUpd256 (W (Proc.devRef .tc main_v63)) (W (Proc.devRef .tc main_v79)) (W (Proc.devRef .tc main_arg13))
          (W (Proc.devRef .tc main_arg14)) := by
  unfold s8; after_results_simp; rfl
set_option maxRecDepth 8192 in
set_option maxHeartbeats 2000000 in
theorem s9_res (W : Valuation τ sig (Elt F)) :
    after s9 W (no_index (Proc.devRef .tc main_v104))
      = rBn256 (W (Proc.devRef .tc main_v85)) (W (Proc.devRef .tc main_arg15)) (W (Proc.devRef .tc main_arg16)) := by
  unfold s9; after_results_simp; rfl
theorem s10_res (W : Valuation τ sig (Elt F)) :
    after s10 W (no_index (Proc.devRef .tc main_v106))
      = rFc (W (Proc.devRef .tc main_v104)) (W (Proc.devRef .tc main_arg17)) := by
  unfold s10; after_results_simp; rfl
/-- The concatenation reads its three operands at their own buffers. -/
theorem s11_res (W : Valuation τ sig (Elt F)) :
    after s11 W (no_index (Proc.devRef .tc main_v107))
      = rOut (W (Proc.devRef .tc main_v63)) (W (Proc.devRef .tc main_v104)) (W (Proc.devRef .tc main_v106)) := by
  unfold s11; simp only [after_cons, after_nil]; rw [nary_result]; rfl

/-! ## The whole line -/

set_option maxRecDepth 8192 in
set_option maxHeartbeats 2000000 in
/-- The result buffer after the whole line is the composed network of the arguments' contents: each stage's
    result is carried unchanged to the stretches that read it, and each argument to wherever it is read. -/
theorem after_ops_res (V : Valuation τ sig (Elt F)) :
    after ops V (Proc.devRef .tc main_v107)
      = rRes (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14))
          (V (Proc.devRef .tc main_arg15)) (V (Proc.devRef .tc main_arg16)) (V (Proc.devRef .tc main_arg17)) := by
  simp only [ops, after_append']
  simp (disch := decide) only [rRes, s11_res, s10_res, s9_res, s8_res, s7_res, s6_res, s5_res, s4_res, s3_res, s2_res,
    s1_res, s0_src, s0_dst, s11_keep, s10_keep, s9_keep, s8_keep, s7_keep, s6_keep, s5_keep, s4_keep, s3_keep, s2_keep,
    s1_keep, s0_keep]

/-- An argument's contents after the whole line: no stretch writes it. -/
theorem after_ops_arg (V : Valuation τ sig (Elt F)) (r : Ref sig .tc)
    (h0 : r ∉ s0_W := by decide) (h1 : r ∉ s1_W := by decide) (h2 : r ∉ s2_W := by decide) (h3 : r ∉ s3_W := by decide)
    (h4 : r ∉ s4_W := by decide) (h5 : r ∉ s5_W := by decide) (h6 : r ∉ s6_W := by decide) (h7 : r ∉ s7_W := by decide)
    (h8 : r ∉ s8_W := by decide) (h9 : r ∉ s9_W := by decide) (h10 : r ∉ s10_W := by decide) (h11 : r ∉ s11_W := by decide) :
    after ops V (Proc.devRef .tc r) = V (Proc.devRef .tc r) :=
  after_ops_keep V r h0 h1 h2 h3 h4 h5 h6 h7 h8 h9 h10 h11

set_option maxRecDepth 8192 in
/-- On every device, for any float values, from any memory with zero counters: every weakly fair execution of the
    reference program terminates with the result buffer at the composed network of the arguments' launch contents,
    and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v107)
        = rRes (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
            (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c main_v107).trans (after_ops_res (launchContents m c)),
      (h c main_arg0).trans (after_ops_arg _ main_arg0), (h c main_arg1).trans (after_ops_arg _ main_arg1),
      (h c main_arg2).trans (after_ops_arg _ main_arg2), (h c main_arg3).trans (after_ops_arg _ main_arg3),
      (h c main_arg4).trans (after_ops_arg _ main_arg4), (h c main_arg5).trans (after_ops_arg _ main_arg5),
      (h c main_arg6).trans (after_ops_arg _ main_arg6), (h c main_arg7).trans (after_ops_arg _ main_arg7),
      (h c main_arg8).trans (after_ops_arg _ main_arg8), (h c main_arg9).trans (after_ops_arg _ main_arg9),
      (h c main_arg10).trans (after_ops_arg _ main_arg10), (h c main_arg11).trans (after_ops_arg _ main_arg11),
      (h c main_arg12).trans (after_ops_arg _ main_arg12), (h c main_arg13).trans (after_ops_arg _ main_arg13),
      (h c main_arg14).trans (after_ops_arg _ main_arg14), (h c main_arg15).trans (after_ops_arg _ main_arg15),
      (h c main_arg16).trans (after_ops_arg _ main_arg16), (h c main_arg17).trans (after_ops_arg _ main_arg17)⟩)
    (run_seq scopedRefs_eq scopedSems_eq defs main (fun _ => ops) main_eq (fun _ => ops_sub) m ρ)

end Cert.ReferenceIdeal.Hand

end
-- ==== Proof.Ref.Vals.lean ====
/-
  The reference's three pieces of arithmetic, read entry by entry over the extended reals: an edge's message, a
  node's update and the final projection are the shared specification's functions of the same arrays. A row vector
  laid over the rows reads its column's entry, the zero splat reads 0, and each matrix product reads the sum over the
  contracted coordinate of the products of the entries.
-/
import proofs.«419488_j13426067767699_1_alg».proof.Proof.Ref.Stages
import Idealize.ShloMosaic.Lib.ValueIdx
import Idealize.ShloMosaic.PureOps.Ideal.Laws
import Idealize.ShloMosaic.Lib.StableHlo.Predicate
import Idealize.ShloMosaic.Lib.StackMember

noncomputable section

open scoped BigOperators

namespace Cert.ReferenceIdeal.Hand

open Cert.ReferenceIdeal Idealize.ShloMosaic Idealize.ShloMosaic.ValueIdx

variable [Facts₀]
open Facts₀

/-! ## Reading a row vector laid over the rows, a zero splat, and a plain matrix product at an index -/

/-- A [1 × m] row laid over the n rows of an [n × m] rectangle reads, at (p, q), the row at q. -/
theorem bcastRows_apply {α : Type} {n m : Nat}
    (h₂ : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h₂ v (ix2 p q) = v (ix2 (0 : Fin 1) q) := by
  have e1 : ix2 p q = StableHlo.Predicate.ij p q := by
    funext a; match a with | ⟨0, _⟩ => rfl | ⟨1, _⟩ => rfl
  have e2 : ix2 (0 : Fin 1) q = StableHlo.Predicate.i1q q := by
    funext a; match a with | ⟨0, _⟩ => rfl | ⟨1, _⟩ => rfl
  rw [e1, e2]
  exact StableHlo.Predicate.bcast_of_row h₂ v p q

/-- The splat of the zero word reads the extended real 0 everywhere. -/
theorem zeroSplat_apply {t : Shape} (h : (⟨0, ![]⟩ : Shape).BroadcastsInDim t ![]) (j : t.Idx) :
    broadcastInDim t ![] h (constant (F := Ideal) ⟨0, ![]⟩ .f32 0x00000000#32) j = (0 : EReal) := by
  show Ideal.ofBits .f32 0x00000000#32 = 0
  exact Ideal.ofBits_zero_f32

/-- The plain product of an [m × k] by a [k × n] matrix, read at (a, b): Σ_c A[a,c] · B[c,b]. -/
theorem dotPlain_apply {m k n : Nat} (A : FVec Ideal ⟨2, ![m, k]⟩ .f32) (B : FVec Ideal ⟨2, ![k, n]⟩ .f32)
    (a : Fin m) (b : Fin n) :
    Host.dotGeneral (F := Ideal) (DotDims.plain m k n) none A B (ix2 a b) = ∑ c : Fin k, A (ix2 a c) * B (ix2 c b) :=
  StackMember.dotGeneral_plain_apply none A B a b

/-- The host's tanh at an index is the extended reals' tanh of the element. -/
theorem hostTanh_apply {s : Shape} (x : FVec Ideal s .f32) (i : s.Idx) : Host.tanh (F := Ideal) x i = Ideal.tanh (x i) := rfl

/-! ## The five matrix products of the network at an index -/

theorem dotEdge128_apply (ea : FVec Ideal S800000x128 .f32) (We : FVec Ideal S128x128 .f32) (p : Fin 800000) (q : Fin 128) :
    Host.dotGeneral (F := Ideal) dot_S800000x128_S128x128_S800000x128_1_0_0_1_n_n none ea We (ix2 p q)
      = ∑ k : Fin 128, ea (ix2 p k) * We (ix2 k q) :=
  dotPlain_apply ea We p q

theorem dotEdge256_apply (ea : FVec Ideal S800000x128 .f32) (We : FVec Ideal S128x256 .f32) (p : Fin 800000) (q : Fin 256) :
    Host.dotGeneral (F := Ideal) dot_S800000x128_S128x256_S800000x256_1_0_0_1_n_n none ea We (ix2 p q)
      = ∑ k : Fin 128, ea (ix2 p k) * We (ix2 k q) :=
  dotPlain_apply ea We p q

theorem dotNode128_apply (x : FVec Ideal S50000x128 .f32) (W : FVec Ideal S128x256 .f32) (p : Fin 50000) (q : Fin 256) :
    Host.dotGeneral (F := Ideal) dot_S50000x128_S128x256_S50000x256_1_0_0_1_n_n none x W (ix2 p q)
      = ∑ k : Fin 128, x (ix2 p k) * W (ix2 k q) :=
  dotPlain_apply x W p q

theorem dotNode256_apply (x : FVec Ideal S50000x256 .f32) (W : FVec Ideal S256x256 .f32) (p : Fin 50000) (q : Fin 256) :
    Host.dotGeneral (F := Ideal) dot_S50000x256_S256x256_S50000x256_1_0_0_1_n_n none x W (ix2 p q)
      = ∑ k : Fin 256, x (ix2 p k) * W (ix2 k q) :=
  dotPlain_apply x W p q

theorem dotFc_apply (x : FVec Ideal S50000x256 .f32) (W : FVec Ideal S256x128 .f32) (p : Fin 50000) (q : Fin 128) :
    Host.dotGeneral (F := Ideal) dot_S50000x256_S256x128_S50000x128_1_0_0_1_n_n none x W (ix2 p q)
      = ∑ k : Fin 256, x (ix2 p k) * W (ix2 k q) :=
  dotPlain_apply x W p q

/-! ## The stages against the specification -/

/-- Layer 1's messages are the specification's: relu (h[src] + edge_attr · We + be), entry by entry. -/
theorem rMsg128_spec (h : FVec Ideal S50000x128 .f32) (src : IVec S800000 32) (ea : FVec Ideal S800000x128 .f32)
    (We : FVec Ideal S128x128 .f32) (be : FVec Ideal S128 .f32) :
    rMsg128 (F := Ideal) h src ea We be
      = Cert.Spec.msg (Host.gather gather_S50000x128_S800000x1_S800000x128_1_0_n_n_0_1_1128 h (rWrap src)) ea We
          (broadcastInDim S1x128 ![1] bcast_S128_S1x128_1 be) := by
  funext i
  obtain ⟨p, q, rfl⟩ : ∃ (p : Fin 800000) (q : Fin 128), i = ix2 p q := ⟨i 0, i 1, eq_ix2 i⟩
  unfold rMsg128 Cert.Spec.msg
  simp only [maximumf_apply, addf_apply]
  rw [zeroSplat_apply, bcastRows_apply, dotEdge128_apply]

/-- Layer 2's messages are the specification's. -/
theorem rMsg256_spec (h : FVec Ideal S50000x256 .f32) (src : IVec S800000 32) (ea : FVec Ideal S800000x128 .f32)
    (We : FVec Ideal S128x256 .f32) (be : FVec Ideal S256 .f32) :
    rMsg256 (F := Ideal) h src ea We be
      = Cert.Spec.msg (Host.gather gather_S50000x256_S800000x1_S800000x256_1_0_n_n_0_1_1256 h (rWrap src)) ea We
          (broadcastInDim S1x256 ![1] bcast_S256_S1x256_1 be) := by
  funext i
  obtain ⟨p, q, rfl⟩ : ∃ (p : Fin 800000) (q : Fin 256), i = ix2 p q := ⟨i 0, i 1, eq_ix2 i⟩
  unfold rMsg256 Cert.Spec.msg
  simp only [maximumf_apply, addf_apply]
  rw [zeroSplat_apply, bcastRows_apply, dotEdge256_apply]

/-- Layer 1's update is the specification's: tanh ((h + agg) · W + b), entry by entry. -/
theorem rUpd128_spec (h agg : FVec Ideal S50000x128 .f32) (W : FVec Ideal S128x256 .f32) (b : FVec Ideal S256 .f32) :
    rUpd128 (F := Ideal) h agg W b
      = Cert.Spec.upd h agg W (broadcastInDim S1x256 ![1] bcast_S256_S1x256_1 b) := by
  funext i
  obtain ⟨p, q, rfl⟩ : ∃ (p : Fin 50000) (q : Fin 256), i = ix2 p q := ⟨i 0, i 1, eq_ix2 i⟩
  unfold rUpd128 Cert.Spec.upd
  simp only [hostTanh_apply, addf_apply]
  rw [bcastRows_apply, dotNode128_apply]
  simp only [addf_apply]

/-- Layer 2's update is the specification's. -/
theorem rUpd256_spec (h agg : FVec Ideal S50000x256 .f32) (W : FVec Ideal S256x256 .f32) (b : FVec Ideal S256 .f32) :
    rUpd256 (F := Ideal) h agg W b
      = Cert.Spec.upd h agg W (broadcastInDim S1x256 ![1] bcast_S256_S1x256_1 b) := by
  funext i
  obtain ⟨p, q, rfl⟩ : ∃ (p : Fin 50000) (q : Fin 256), i = ix2 p q := ⟨i 0, i 1, eq_ix2 i⟩
  unfold rUpd256 Cert.Spec.upd
  simp only [hostTanh_apply, addf_apply]
  rw [bcastRows_apply, dotNode256_apply]
  simp only [addf_apply]

/-- The final projection is the specification's: tanh (h · Wfc), entry by entry. -/
theorem rFc_spec (h : FVec Ideal S50000x256 .f32) (W : FVec Ideal S256x128 .f32) :
    rFc (F := Ideal) h W = Cert.Spec.fc h W := by
  funext i
  obtain ⟨p, q, rfl⟩ : ∃ (p : Fin 50000) (q : Fin 128), i = ix2 p q := ⟨i 0, i 1, eq_ix2 i⟩
  unfold rFc Cert.Spec.fc
  simp only [hostTanh_apply]
  rw [dotFc_apply]

end Cert.ReferenceIdeal.Hand

end
-- ==== Proof.PreTake.lean ====
import proofs.«419488_j13426067767699_1_alg».proof.Pre_finite_inputs
import proofs.«419488_j13426067767699_1_alg».proof.KernelIdeal
import Idealize.ShloMosaic.Lib.StableHlo.Predicate
import Idealize.ShloMosaic.Lib.ReduceAll
import Idealize.ShloMosaic.Lib.ValueIdx
import Idealize.ShloMosaic.Lib.Pipeline.Value

/-!
# The source indices: what the precondition says of them, and the take as a gather

The precondition ends in "every entry of row 0 of the edge index lies in [-50000, 50000)".
Part 1 reads that conjunct back as inequalities between signed readings.
Part 2: a take first wraps a negative index by adding the table's length, then masks every row whose wrapped index
falls outside [0, 49999] with a not-a-number pattern. Under the range of Part 1 the wrapped index always lies in
[0, 49999], the mask is all ones, and the take is the plain gather at the wrapped index.
-/

noncomputable section

namespace Cert.PreTake

open Idealize.ShloMosaic

/-! ## Words -/

/-- The signed readings of the three literals the comparisons meet. -/
theorem toInt_neg50000 : (4294917296#32 : BitVec 32).toInt = -50000 := by decide
theorem toInt_50000 : (50000#32 : BitVec 32).toInt = 50000 := by decide
theorem toInt_49999 : (49999#32 : BitVec 32).toInt = 49999 := by decide
theorem toInt_zero32 : (0#32 : BitVec 32).toInt = 0 := by decide

/-- The wrapped word: a negative index moved up by the table's length, any other kept. -/
def wrapWord (w : BitVec 32) : BitVec 32 :=
  Scalar.select (IntOp.cmpi .slt w 0#32) (IntOp.addi w 50000#32) w

/-- A word in [-50000, 50000) wraps into [0, 49999]. -/
theorem wrapWord_range (w : BitVec 32) (h1 : -50000 ≤ w.toInt) (h2 : w.toInt < 50000) :
    0 ≤ (wrapWord w).toInt ∧ (wrapWord w).toInt ≤ 49999 := by
  unfold wrapWord
  by_cases hneg : w.toInt < 0
  · have hc : IntOp.cmpi .slt w 0#32 = 1#1 := IntOp.cmpi_slt.2 (by rw [toInt_zero32]; exact hneg)
    rw [hc, ValueIdx.select_one]
    show 0 ≤ (w + 50000#32).toInt ∧ (w + 50000#32).toInt ≤ 49999
    rw [BitVec.toInt_eq_toNat_cond] at h1 h2 hneg ⊢
    rw [BitVec.toNat_add]
    simp only [BitVec.toNat_ofNat] at *
    split_ifs at * <;> omega
  · have hc : IntOp.cmpi .slt w 0#32 = 0#1 :=
      ValueIdx.eq_zero_of_ne_one fun h => hneg (by have := IntOp.cmpi_slt.1 h; rwa [toInt_zero32] at this)
    rw [hc, ValueIdx.select_zero]
    omega

/-- A left fold by `and` from 1 over words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from by decide]
    exact foldl_andi_one f hf l

/-! ## Part 1: the precondition's last conjunct -/

section Pre
variable [Cert.Pre_finite_inputs.Facts]
open Cert.Pre_finite_inputs.Facts

/-- Row 0 of the edge index as a vector: the slice of row 0, reshaped to a vector. -/
def srcRow (ei : IVec Cert.Pre_finite_inputs.S2x800000 32) : IVec Cert.Pre_finite_inputs.S800000 32 :=
  shapeCast Cert.Pre_finite_inputs.S800000
    (extractStridedSlice Cert.Pre_finite_inputs.S1x800000 ![0, 0] ei slices_S2x800000_S1x800000_0_0)
    shapeCasts_S1x800000_S800000

instance : Subsingleton Cert.Pre_finite_inputs.S_.Idx := ⟨fun a b => funext fun d => d.elim0⟩

/-- The last part of the precondition, read back: when it is 1, the vector compared from below lies at or above
    -50000 and row 0 lies below 50000, entry by entry. -/
theorem part5_decode (a1 : IVec Cert.Pre_finite_inputs.S2x800000 32) (v83 : IVec Cert.Pre_finite_inputs.S_ 1)
    (v85 : IVec Cert.Pre_finite_inputs.S800000 32)
    (h : Cert.Pre_finite_inputs.fn_part5 (F := Ideal) a1 v83 v85 ValueIdx.ix0 = 1#1)
    (e : Cert.Pre_finite_inputs.S800000.Idx) :
    -50000 ≤ (v85 e).toInt ∧ (srcRow a1 e).toInt < 50000 := by
  dsimp only [Cert.Pre_finite_inputs.fn_part5] at h
  have h2 := (IntOp.andi_eq_one.1 h).2
  have h3 := Host.reduce_andi_all _ _ _ _ _ h2 e
  obtain ⟨hge, hlt⟩ := IntOp.andi_eq_one.1 h3
  have hge' : (4294917296#32 : BitVec 32).toInt ≤ (v85 e).toInt := IntOp.cmpi_sge.1 hge
  have hlt' : (srcRow a1 e).toInt < (50000#32 : BitVec 32).toInt := IntOp.cmpi_slt.1 hlt
  rw [toInt_neg50000] at hge'
  rw [toInt_50000] at hlt'
  exact ⟨hge', hlt'⟩

/-- THE RANGE OF THE SOURCE INDICES: under the precondition every entry of row 0 of the edge index lies in
    [-50000, 50000), read signed. -/
theorem src_in_range
    (a0 : FVec Ideal Cert.Pre_finite_inputs.S50000x128 .f32)
    (a1 : IVec Cert.Pre_finite_inputs.S2x800000 32)
    (a2 : FVec Ideal Cert.Pre_finite_inputs.S800000x128 .f32)
    (a3 : FVec Ideal Cert.Pre_finite_inputs.S128 .f32)
    (a4 : FVec Ideal Cert.Pre_finite_inputs.S128 .f32)
    (a5 : FVec Ideal Cert.Pre_finite_inputs.S128x128 .f32)
    (a6 : FVec Ideal Cert.Pre_finite_inputs.S128 .f32)
    (a7 : FVec Ideal Cert.Pre_finite_inputs.S128x256 .f32)
    (a8 : FVec Ideal Cert.Pre_finite_inputs.S256 .f32)
    (a9 : FVec Ideal Cert.Pre_finite_inputs.S256 .f32)
    (a10 : FVec Ideal Cert.Pre_finite_inputs.S256 .f32)
    (a11 : FVec Ideal Cert.Pre_finite_inputs.S128x256 .f32)
    (a12 : FVec Ideal Cert.Pre_finite_inputs.S256 .f32)
    (a13 : FVec Ideal Cert.Pre_finite_inputs.S256x256 .f32)
    (a14 : FVec Ideal Cert.Pre_finite_inputs.S256 .f32)
    (a15 : FVec Ideal Cert.Pre_finite_inputs.S256 .f32)
    (a16 : FVec Ideal Cert.Pre_finite_inputs.S256 .f32)
    (a17 : FVec Ideal Cert.Pre_finite_inputs.S256x128 .f32)
    (h : Cert.Pre_finite_inputs.fn (F := Ideal) a0 a1 a2 a3 a4 a5 a6 a7 a8 a9 a10 a11 a12 a13 a14 a15 a16 a17 = fun _ => 1#1) :
    ∀ e : Cert.Pre_finite_inputs.S800000.Idx, -50000 ≤ (srcRow a1 e).toInt ∧ (srcRow a1 e).toInt < 50000 := by
  intro e
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  exact part5_decode a1 _ _ h0 e

end Pre

/-! ## Part 2: the take is the gather -/

section Take
variable [Cert.KernelIdeal.Facts₀]
open Cert.KernelIdeal.Facts₀

/-- The wrapped start indices as a column: a negative index moved up by the table's length (the select between
    the index plus 50000 and the index itself, on "index below 0"), laid out as an [800000 × 1] column. -/
def wrapIdx (src : IVec Cert.KernelIdeal.S800000 32) : IVec Cert.KernelIdeal.S800000x1 32 :=
  let c : IVec Cert.KernelIdeal.S_ 32 := constantI Cert.KernelIdeal.S_ 32 0#32
  let v0 : IVec Cert.KernelIdeal.S800000 32 := broadcastInDim Cert.KernelIdeal.S800000 ![] bcast_S_S800000 c
  let v1 : IVec Cert.KernelIdeal.S800000 1 := cmpi .slt src v0
  let c_0 : IVec Cert.KernelIdeal.S_ 32 := constantI Cert.KernelIdeal.S_ 32 50000#32
  let v2 : IVec Cert.KernelIdeal.S800000 32 := broadcastInDim Cert.KernelIdeal.S800000 ![] bcast_S_S800000 c_0
  let v3 : IVec Cert.KernelIdeal.S800000 32 := addi src v2
  let v4 : IVec Cert.KernelIdeal.S800000 32 := select v1 v3 src
  broadcastInDim Cert.KernelIdeal.S800000x1 ![0] bcast_S800000_S800000x1_0 v4

/-- The row mask of a take: at each row, "the column's entry lies in [0, 49999]", the conjunction reduced over the
    column's one-entry axis. -/
def rowMask (col : IVec Cert.KernelIdeal.S800000x1 32) : IVec Cert.KernelIdeal.S800000 1 :=
  let c_1 : IVec Cert.KernelIdeal.S1 32 := constantI Cert.KernelIdeal.S1 32 49999#32
  let c_2 : IVec Cert.KernelIdeal.S_ 32 := constantI Cert.KernelIdeal.S_ 32 0#32
  let v6 : IVec Cert.KernelIdeal.S800000x1 32 := broadcastInDim Cert.KernelIdeal.S800000x1 ![] bcast_S_S800000x1 c_2
  let v7 : IVec Cert.KernelIdeal.S800000x1 1 := cmpi .sge col v6
  let v8 : IVec Cert.KernelIdeal.S1x1 32 := broadcastInDim Cert.KernelIdeal.S1x1 ![1] bcast_S1_S1x1_1 c_1
  let v9 : IVec Cert.KernelIdeal.S800000x1 32 := broadcastInDim Cert.KernelIdeal.S800000x1 ![0, 1] bcast_S1x1_S800000x1_0_1 v8
  let v10 : IVec Cert.KernelIdeal.S800000x1 1 := cmpi .sle col v9
  let v11 : IVec Cert.KernelIdeal.S800000x1 1 := andi v7 v10
  let c_3 : IVec Cert.KernelIdeal.S_ 1 := constantI Cert.KernelIdeal.S_ 1 1#1
  Host.reduce IntOp.andi v11 c_3 reducesTo_S800000x1_S800000_d1 h_S_

/-- The take at width 128: the gather at the wrapped indices where the row mask is set, the not-a-number pattern
    elsewhere. -/
def takeBody128 {F : FTy → Type} [FloatOps F] (h : FVec F Cert.KernelIdeal.S50000x128 .f32)
    (src : IVec Cert.KernelIdeal.S800000 32) : FVec F Cert.KernelIdeal.S800000x128 .f32 :=
  let v5 : IVec Cert.KernelIdeal.S800000x1 32 := wrapIdx src
  let v12 : IVec Cert.KernelIdeal.S800000 1 := rowMask v5
  let v13 : FVec F Cert.KernelIdeal.S800000x128 .f32 :=
    Host.gather Cert.KernelIdeal.gather_S50000x128_S800000x1_S800000x128_1_0_n_n_0_1_1128 h v5
  let v14 : IVec Cert.KernelIdeal.S800000x128 1 :=
    broadcastInDim Cert.KernelIdeal.S800000x128 ![0] bcast_S800000_S800000x128_0 v12
  let cst : FVec F Cert.KernelIdeal.S_ .f32 := constant Cert.KernelIdeal.S_ .f32 0x7FC00000#32
  let v15 : FVec F Cert.KernelIdeal.S800000x128 .f32 :=
    broadcastInDim Cert.KernelIdeal.S800000x128 ![] bcast_S_S800000x128 cst
  select v14 v13 v15

/-- The take at width 256. -/
def takeBody256 {F : FTy → Type} [FloatOps F] (h : FVec F Cert.KernelIdeal.S50000x256 .f32)
    (src : IVec Cert.KernelIdeal.S800000 32) : FVec F Cert.KernelIdeal.S800000x256 .f32 :=
  let v5 : IVec Cert.KernelIdeal.S800000x1 32 := wrapIdx src
  let v12 : IVec Cert.KernelIdeal.S800000 1 := rowMask v5
  let v13 : FVec F Cert.KernelIdeal.S800000x256 .f32 :=
    Host.gather Cert.KernelIdeal.gather_S50000x256_S800000x1_S800000x256_1_0_n_n_0_1_1256 h v5
  let v14 : IVec Cert.KernelIdeal.S800000x256 1 :=
    broadcastInDim Cert.KernelIdeal.S800000x256 ![0] bcast_S800000_S800000x256_0 v12
  let cst : FVec F Cert.KernelIdeal.S_ .f32 := constant Cert.KernelIdeal.S_ .f32 0x7FC00000#32
  let v15 : FVec F Cert.KernelIdeal.S800000x256 .f32 :=
    broadcastInDim Cert.KernelIdeal.S800000x256 ![] bcast_S_S800000x256 cst
  select v14 v13 v15

/-- An index of an [n × 1] column is its row and the one column. -/
theorem eq_ixP {n : Nat} (i : (⟨2, ![n, 1]⟩ : Shape).Idx) : i = StableHlo.Predicate.ixP (i 0) := by
  funext a
  match a with
  | ⟨0, _⟩ => rfl
  | ⟨1, _⟩ => exact Subsingleton.elim (α := Fin 1) _ _

/-- A vector laid out as an [n × 1] column reads, at any index of the column, the vector at that index's row. -/
theorem bcast_col1_idx {α : Type} {n : Nat} (h₁ : (⟨1, ![n]⟩ : Shape).BroadcastsInDim ⟨2, ![n, 1]⟩ ![0])
    (v : (⟨1, ![n]⟩ : Shape).Idx → α) (i : (⟨2, ![n, 1]⟩ : Shape).Idx) :
    broadcastInDim ⟨2, ![n, 1]⟩ ![0] h₁ v i = v (Shape.Idx.ofFin (i 0)) :=
  (congrArg (broadcastInDim ⟨2, ![n, 1]⟩ ![0] h₁ v) (eq_ixP i)).trans (StableHlo.Predicate.bcast_col1 h₁ v (i 0))

/-- The wrapped column at a row is the wrapped word of the source index at that row. -/
theorem wrapIdx_apply (src : IVec Cert.KernelIdeal.S800000 32) (i : Cert.KernelIdeal.S800000x1.Idx) :
    wrapIdx src i = wrapWord (src (Shape.Idx.ofFin (i 0))) := by
  unfold wrapIdx
  dsimp only
  exact bcast_col1_idx bcast_S800000_S800000x1_0 _ i

/-- Under the range of Part 1 every wrapped index lies in [0, 49999]. -/
theorem wrapIdx_range (src : IVec Cert.KernelIdeal.S800000 32)
    (hr : ∀ e : Cert.KernelIdeal.S800000.Idx, -50000 ≤ (src e).toInt ∧ (src e).toInt < 50000)
    (i : Cert.KernelIdeal.S800000x1.Idx) : 0 ≤ (wrapIdx src i).toInt ∧ (wrapIdx src i).toInt ≤ 49999 := by
  rw [wrapIdx_apply]
  exact wrapWord_range _ (hr _).1 (hr _).2

/-- A column whose every entry lies in [0, 49999] has the all-ones row mask. -/
theorem rowMask_eq_one (col : IVec Cert.KernelIdeal.S800000x1 32)
    (hc : ∀ i, 0 ≤ (col i).toInt ∧ (col i).toInt ≤ 49999) : rowMask col = fun _ => 1#1 := by
  funext e
  unfold rowMask
  rw [Host.reduce_eq_foldl]
  refine foldl_andi_one _ (fun i => ?_) _
  refine IntOp.andi_eq_one.2 ⟨IntOp.cmpi_sge.2 ?_, IntOp.cmpi_sle.2 ?_⟩
  · show (0#32 : BitVec 32).toInt ≤ (col i).toInt
    rw [toInt_zero32]; exact (hc i).1
  · show (col i).toInt ≤ (49999#32 : BitVec 32).toInt
    rw [toInt_49999]; exact (hc i).2

/-- THE TAKE IS THE GATHER, width 128: with every source index in [-50000, 50000) no row is masked. -/
theorem take128_eq_gather {F : FTy → Type} [FloatOps F] (h : FVec F Cert.KernelIdeal.S50000x128 .f32)
    (src : IVec Cert.KernelIdeal.S800000 32)
    (hr : ∀ e : Cert.KernelIdeal.S800000.Idx, -50000 ≤ (src e).toInt ∧ (src e).toInt < 50000) :
    takeBody128 h src
      = Host.gather Cert.KernelIdeal.gather_S50000x128_S800000x1_S800000x128_1_0_n_n_0_1_1128 h (wrapIdx src) := by
  unfold takeBody128
  dsimp only
  rw [rowMask_eq_one _ (wrapIdx_range src hr)]
  funext i
  exact ValueIdx.select_one _ _

/-- THE TAKE IS THE GATHER, width 256. -/
theorem take256_eq_gather {F : FTy → Type} [FloatOps F] (h : FVec F Cert.KernelIdeal.S50000x256 .f32)
    (src : IVec Cert.KernelIdeal.S800000 32)
    (hr : ∀ e : Cert.KernelIdeal.S800000.Idx, -50000 ≤ (src e).toInt ∧ (src e).toInt < 50000) :
    takeBody256 h src
      = Host.gather Cert.KernelIdeal.gather_S50000x256_S800000x1_S800000x256_1_0_n_n_0_1_1256 h (wrapIdx src) := by
  unfold takeBody256
  dsimp only
  rw [rowMask_eq_one _ (wrapIdx_range src hr)]
  funext i
  exact ValueIdx.select_one _ _

end Take

end Cert.PreTake
-- ==== Proof.Glue.lean ====
import proofs.«419488_j13426067767699_1_alg».proof.Proof.KI.Stages
import proofs.«419488_j13426067767699_1_alg».proof.Proof.Ref.Stages
import proofs.«419488_j13426067767699_1_alg».proof.Proof.KI.ResDef
import proofs.«419488_j13426067767699_1_alg».proof.Proof.Ref.Vals
import proofs.«419488_j13426067767699_1_alg».proof.Proof.PreTake
import proofs.«419488_j13426067767699_1_alg».proof.Proof.Spec
import Idealize.ShloMosaic.Lib.ValueIdx
import Idealize.ShloMosaic.Lib.ValueLayout
import Idealize.ShloMosaic.Lib.Pipeline.Value

/-!
# The kernel program's result term is the reference's

Stage by stage. The two rows of the edge index, batch normalization, the segment sum and the concatenation are the
same compositions of the same operations in both programs. The kernel's filled row gather is, for source indices in
[-50000, 50000), the reference's clamped gather at the wrapped indices. A bias vector reshaped to one row is the same
vector broadcast along the columns of a one-row matrix. With the reference's message, update and projection read as
the shared specification's functions, the two result terms are then the same term.
-/

noncomputable section

namespace Cert.Glue

open Idealize.ShloMosaic Cert.KernelIdeal.Hand Cert.ReferenceIdeal.Hand

variable [Cert.ReferenceIdeal.Facts₀]
open Cert.ReferenceIdeal.Facts₀

/-! ## The stages both programs compute by the same operations -/

/-- Row 0 of the edge index. -/
theorem src_eq (ei : IVec Cert.KernelIdeal.S2x800000 32) : kSrc ei = rSrc ei := rfl

/-- Row 1 of the edge index. -/
theorem dst_eq (ei : IVec Cert.KernelIdeal.S2x800000 32) : kDst ei = rDst ei := rfl

/-- Batch normalization at width 128: the same mean, variance, scale and shift. -/
theorem bn128_eq (x : FVec Ideal Cert.KernelIdeal.S50000x128 .f32) (g b : FVec Ideal Cert.KernelIdeal.S128 .f32) :
    kBn128 (F := Ideal) x g b = rBn128 x g b := rfl

/-- Batch normalization at width 256. -/
theorem bn256_eq (p : FVec Ideal Cert.KernelIdeal.S50000x256 .f32) (g b : FVec Ideal Cert.KernelIdeal.S256 .f32) :
    kBn256 (F := Ideal) p g b = rBn256 p g b := rfl

/-- The segment sum by destination at width 128. -/
theorem agg128_eq (msg : FVec Ideal Cert.KernelIdeal.S800000x128 .f32) (dst : IVec Cert.KernelIdeal.S800000 32) :
    kAgg128 (F := Ideal) msg dst = rAgg128 msg dst := rfl

/-- The segment sum by destination at width 256. -/
theorem agg256_eq (msg : FVec Ideal Cert.KernelIdeal.S800000x256 .f32) (dst : IVec Cert.KernelIdeal.S800000 32) :
    kAgg256 (F := Ideal) msg dst = rAgg256 msg dst := rfl

/-- The three blocks side by side. -/
theorem out_eq (h1 h2 : FVec Ideal Cert.KernelIdeal.S50000x256 .f32) (h3 : FVec Ideal Cert.KernelIdeal.S50000x128 .f32) :
    kOut (F := Ideal) h1 h2 h3 = rOut h1 h2 h3 := rfl

/-! ## The filled gather is the clamped gather at the wrapped indices -/

/-- Width 128: with every source index in [-50000, 50000) no row of the filled gather is filled. -/
theorem take128_eq (h : FVec Ideal Cert.KernelIdeal.S50000x128 .f32) (src : IVec Cert.KernelIdeal.S800000 32)
    (hr : ∀ e : Cert.KernelIdeal.S800000.Idx, -50000 ≤ (src e).toInt ∧ (src e).toInt < 50000) :
    kTake128 (F := Ideal) h src
      = Host.gather Cert.ReferenceIdeal.gather_S50000x128_S800000x1_S800000x128_1_0_n_n_0_1_1128 h (rWrap src) :=
  Cert.PreTake.take128_eq_gather h src hr

/-- Width 256. -/
theorem take256_eq (h : FVec Ideal Cert.KernelIdeal.S50000x256 .f32) (src : IVec Cert.KernelIdeal.S800000 32)
    (hr : ∀ e : Cert.KernelIdeal.S800000.Idx, -50000 ≤ (src e).toInt ∧ (src e).toInt < 50000) :
    kTake256 (F := Ideal) h src
      = Host.gather Cert.ReferenceIdeal.gather_S50000x256_S800000x1_S800000x256_1_0_n_n_0_1_1256 h (rWrap src) :=
  Cert.PreTake.take256_eq_gather h src hr

/-! ## A vector as a one-row matrix -/

/-- A vector of length n reshaped to [1 × n] and the same vector broadcast along axis 1 of a [1 × n] matrix are one
    function: both read, at (0, q), the vector at q. -/
theorem row_eq {n : Nat} (hn : n ≠ 1) (b : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ b hc = broadcastInDim ⟨2, ![1, n]⟩ ![1] hb b := by
  funext i
  obtain ⟨u, q, rfl⟩ : ∃ (u : Fin 1) (q : Fin n), i = ValueIdx.ix2 u q := ⟨i 0, i 1, ValueIdx.eq_ix2 i⟩
  rw [ValueIdx.shapeCast_a_1a_apply]
  refine (broadcastInDim_apply _ hb b _ (ValueIdx.ix1 q) fun a => ?_).symm
  match a with
  | ⟨0, _⟩ =>
    show q.val = if n = 1 then 0 else q.val
    rw [if_neg hn]

/-- The bias row at width 128. -/
theorem row128_eq (b : FVec Ideal Cert.KernelIdeal.S128 .f32) :
    (kRow128 b : Cert.Spec.Arr2 1 128)
      = broadcastInDim Cert.ReferenceIdeal.S1x128 ![1] bcast_S128_S1x128_1 b :=
  row_eq (by decide) b _ _

/-- The bias row at width 256. -/
theorem row256_eq (b : FVec Ideal Cert.KernelIdeal.S256 .f32) :
    (kRow256 b : Cert.Spec.Arr2 1 256)
      = broadcastInDim Cert.ReferenceIdeal.S1x256 ![1] bcast_S256_S1x256_1 b :=
  row_eq (by decide) b _ _

/-! ## The range of the source indices, on the kernel's name for them -/

/-- Under the precondition every entry of the kernel's source-index vector lies in [-50000, 50000). -/
theorem src_range [Cert.Pre_finite_inputs.Facts]
    (a0 : FVec Ideal Cert.Pre_finite_inputs.S50000x128 .f32)
    (a1 : IVec Cert.Pre_finite_inputs.S2x800000 32)
    (a2 : FVec Ideal Cert.Pre_finite_inputs.S800000x128 .f32)
    (a3 : FVec Ideal Cert.Pre_finite_inputs.S128 .f32)
    (a4 : FVec Ideal Cert.Pre_finite_inputs.S128 .f32)
    (a5 : FVec Ideal Cert.Pre_finite_inputs.S128x128 .f32)
    (a6 : FVec Ideal Cert.Pre_finite_inputs.S128 .f32)
    (a7 : FVec Ideal Cert.Pre_finite_inputs.S128x256 .f32)
    (a8 : FVec Ideal Cert.Pre_finite_inputs.S256 .f32)
    (a9 : FVec Ideal Cert.Pre_finite_inputs.S256 .f32)
    (a10 : FVec Ideal Cert.Pre_finite_inputs.S256 .f32)
    (a11 : FVec Ideal Cert.Pre_finite_inputs.S128x256 .f32)
    (a12 : FVec Ideal Cert.Pre_finite_inputs.S256 .f32)
    (a13 : FVec Ideal Cert.Pre_finite_inputs.S256x256 .f32)
    (a14 : FVec Ideal Cert.Pre_finite_inputs.S256 .f32)
    (a15 : FVec Ideal Cert.Pre_finite_inputs.S256 .f32)
    (a16 : FVec Ideal Cert.Pre_finite_inputs.S256 .f32)
    (a17 : FVec Ideal Cert.Pre_finite_inputs.S256x128 .f32)
    (h : Cert.Pre_finite_inputs.fn (F := Ideal) a0 a1 a2 a3 a4 a5 a6 a7 a8 a9 a10 a11 a12 a13 a14 a15 a16 a17 = fun _ => 1#1) :
    ∀ e : Cert.KernelIdeal.S800000.Idx, -50000 ≤ (kSrc a1 e).toInt ∧ (kSrc a1 e).toInt < 50000 :=
  Cert.PreTake.src_in_range a0 a1 a2 a3 a4 a5 a6 a7 a8 a9 a10 a11 a12 a13 a14 a15 a16 a17 h

/-! ## The two result terms -/

/-- THE BRIDGE: for source indices in [-50000, 50000) the kernel program's result term is the reference's. -/
theorem bridge (x : FVec Ideal Cert.KernelIdeal.S50000x128 .f32) (ei : IVec Cert.KernelIdeal.S2x800000 32)
    (ea : FVec Ideal Cert.KernelIdeal.S800000x128 .f32) (gin bin : FVec Ideal Cert.KernelIdeal.S128 .f32)
    (We0 : FVec Ideal Cert.KernelIdeal.S128x128 .f32) (be0 : FVec Ideal Cert.KernelIdeal.S128 .f32)
    (W0 : FVec Ideal Cert.KernelIdeal.S128x256 .f32) (b0 g0 bb0 : FVec Ideal Cert.KernelIdeal.S256 .f32)
    (We1 : FVec Ideal Cert.KernelIdeal.S128x256 .f32) (be1 : FVec Ideal Cert.KernelIdeal.S256 .f32)
    (W1 : FVec Ideal Cert.KernelIdeal.S256x256 .f32) (b1 g1 bb1 : FVec Ideal Cert.KernelIdeal.S256 .f32)
    (Wfc : FVec Ideal Cert.KernelIdeal.S256x128 .f32)
    (hr : ∀ e : Cert.KernelIdeal.S800000.Idx, -50000 ≤ (kSrc ei e).toInt ∧ (kSrc ei e).toInt < 50000) :
    kRes x ei ea gin bin We0 be0 W0 b0 g0 bb0 We1 be1 W1 b1 g1 bb1 Wfc = rRes (F := Ideal) x ei ea gin bin We0 be0 W0 b0 g0 bb0 We1 be1 W1 b1 g1 bb1 Wfc := by
  dsimp only [kRes, rRes]
  rw [rMsg128_spec, rMsg256_spec, rUpd128_spec, rUpd256_spec, rFc_spec]
  simp only [take128_eq _ _ hr, take256_eq _ _ hr, row128_eq, row256_eq]
  simp only [agg128_eq, agg256_eq, bn128_eq, bn256_eq, out_eq, src_eq, dst_eq]

end Cert.Glue

end
-- ==== Proof.lean ====
/-
  The certificate of a two-layer graph network (message passing with edge features, batch normalisation after every
  layer, a final projection) computed two ways: the kernel program tiles the three dense pieces — an edge's message
  relu(h[src] + attr·We + be), a node's update tanh((h + agg)·W + b) and the projection tanh(h2·Wfc) — over row blocks
  in five regions and leaves the gathers, the segment sums and the normalisations to host operations; the reference
  does everything by whole-array host operations. At the ideal instance a change of float format is the identity and
  a blocked matrix product is the whole product read row by row, so each region's output array is the shared
  index-level specification of its piece, which is also what the reference's operations compute; every other stage is
  the same operations on both sides. The one difference is the gather: the kernel program fills rows whose source
  index is out of range with a not-a-number pattern where the reference clamps the index; under the precondition's
  conjunct -50000 ≤ src < 50000 (the indices the reference's own x[src] accepts) the wrapped index is in range, the
  fill is never taken, and the two gathers are one. The frames are the runs with the result dropped; the idealized
  kernel is the kernel's own text read at the ideal instance (no rewrite was applied).
-/
import proofs.«419488_j13426067767699_1_alg».proof.Defs
import proofs.«419488_j13426067767699_1_alg».proof.Proof.Gen.Kernel
import proofs.«419488_j13426067767699_1_alg».proof.Proof.Gen.KernelIdeal
import proofs.«419488_j13426067767699_1_alg».proof.Proof.Gen.ReferenceIdeal
import proofs.«419488_j13426067767699_1_alg».proof.Proof.Gen.Pre_finite_inputs
import proofs.«419488_j13426067767699_1_alg».proof.Proof.K.Run
import proofs.«419488_j13426067767699_1_alg».proof.Proof.KI.Run
import proofs.«419488_j13426067767699_1_alg».proof.Proof.KI.Result
import proofs.«419488_j13426067767699_1_alg».proof.Proof.Ref.Run
import proofs.«419488_j13426067767699_1_alg».proof.Proof.Glue
import Idealize.ShloMosaic.Adequacy
import Idealize.ShloMosaic.Init

noncomputable section

namespace Cert.Proof

open Idealize.ShloMosaic Idealize.SL.Sem

/-- The word-level kernel runs to the end without a fault and keeps its arguments. -/
theorem frame_k : Cert.frame_Kernel := fun m ρ _ => Cert.Kernel.Frm.frame m ρ

/-- So does the idealized kernel. -/
theorem frame_ki : Cert.frame_KernelIdeal := fun m ρ _ => Cert.KernelIdeal.Frm.frame m ρ

/-- The reference's frame is its run with the result dropped. -/
theorem frame_r : Cert.frame_ReferenceIdeal := fun m ρ _ =>
  (θ_run (Cert.ReferenceIdeal.defs (F := Ideal)) _ _).mono (fun _ h c => (h c).2) (Cert.ReferenceIdeal.Hand.run (F := Ideal) m ρ)

/-- No operation of the kernel was rewritten when it was idealized: nothing to preserve. -/
theorem preserves : Cert.preserves_Kernel_KernelIdeal := trivial

/-- From memories agreeing on the arguments both programs end with the reference's result term in their result
    buffer: the kernel program's buffer holds its composite term (the run, then each region's array read as the
    specification), which is the reference's term once the source indices are known to be in range. -/
theorem algebraic : Cert.algebraic_KernelIdeal_ReferenceIdeal := by
  intro m ρ m' ρ' hpre hagree
  refine ⟨fun c => Cert.ReferenceIdeal.Hand.rRes (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17)), ?_,
    Cert.ReferenceIdeal.Hand.run (F := Ideal) m' ρ'⟩
  refine (θ_run (Cert.KernelIdeal.defs (F := Ideal)) _ _).mono (fun r h c => ⟨(h c).1.trans ?_, (h c).2⟩)
    (Cert.KernelIdeal.Frm.run_res (F := Ideal) m ρ)
  rw [Cert.KernelIdeal.Hand.result_eq m c]
  beta_reduce
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]
  exact Cert.Glue.bridge _ _ _ _ _ _ _ _ _ _ _ _ _ _ _ _ _ _ (Cert.Glue.src_range _ _ _ _ _ _ _ _ _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
